-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 32
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S3072x1024, .f32⟩
  | .hbm, ⟨19, _⟩ => ⟨S1024x3072, .f32⟩
  | .hbm, ⟨20, _⟩ => ⟨S1024x3072, .bf16⟩
  | .hbm, ⟨21, _⟩ => ⟨S3072, .f32⟩
  | .hbm, ⟨22, _⟩ => ⟨S1x3072, .f32⟩
  | .hbm, ⟨23, _⟩ => ⟨S8192x3072, .bf16⟩
  | .hbm, ⟨24, _⟩ => ⟨S8192x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S4x2048x1024_S8192x1024 : S4x2048x1024.ShapeCasts S8192x1024
  bcast_S_S1024x1024 : S_.BroadcastsInDim S1024x1024 (![] : Fin 0 → Fin S1024x1024.rank)
  bcast_S_S1024 : S_.BroadcastsInDim S1024 (![] : Fin 0 → Fin S1024.rank)
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x128_S512x64_0_0 : ∀ a, (![0, 0] : Fin 2 → Nat) a + S512x64.size a ≤ S512x128.size a
  h_S512x64 : 0 < S512x64.numel
  shapeCasts_S512x64_S512x64 : S512x64.ShapeCasts S512x64
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  packedbf16_S512x128_S512x64_0_0 : (Rect.unit (s := S512x128) ![0, 0] S512x64.size inb_S512x128_S512x64_0_0).PackedRows (EltTy.packing .bf16)
  inb_S512x128_S512x64_0_64 : ∀ a, (![0, 64] : Fin 2 → Nat) a + S512x64.size a ≤ S512x128.size a
  inb_S2048x128_S2048x64_0_64 : ∀ a, (![0, 64] : Fin 2 → Nat) a + S2048x64.size a ≤ S2048x128.size a
  packedbf16_S512x128_S512x64_0_64 : (Rect.unit (s := S512x128) ![0, 64] S512x64.size inb_S512x128_S512x64_0_64).PackedRows (EltTy.packing .bf16)
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  broadcasts_S512x1_S512x1024 : S512x1.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x3072.size a
  hwx1_0 : ∀ i : grid1.Coords, EltTy.bits .bf16 = 32 ∨ (Rect.block (s := S8192x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x1024.size a
  hwx1_3 : ∀ i : grid1.Coords, EltTy.bits .bf16 = 32 ∨ (Rect.block (s := S8192x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x1024, .f32⟩
  | .hbm, ⟨78, _⟩ => ⟨S4x2048x1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S1x1x1024, .f32⟩
  | .hbm, ⟨83, _⟩ => ⟨S4x2048x1024, .f32⟩
  | .hbm, ⟨84, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Data.lean ====
/-
  The three kernel regions' data, at any float instance and at any contents `V` of the TensorCore's buffers when a
  region is entered: each window's block at a grid point, what each body leaves in its output window's buffer
  (the canonical array of its stores over the input blocks), and the pipeline's record of it.

  Region 0 multiplies a 512-row block of the input by the whole [1024, 3072] weight matrix and adds the bias
  row. Region 1 reads, for one batch and one pair of heads, a 512-row block of queries and the whole
  2048-row blocks of keys and values, all three out of ONE array (each input window therefore holds a part of
  that array's share), and writes the two heads' 64 columns by two stores. Region 2 multiplies a 512-row block
  by the [1024, 1024] output weights, adds bias and residual, and normalises each row.
-/
import proofs.«431405_j45913200394352_3_alg».proof.Proof.Gen.Kernel.Launch
import proofs.«431405_j45913200394352_3_alg».proof.Proof.Gen.Kernel.Skeleton
import proofs.«431405_j45913200394352_3_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- The output block after the body: its one store, of the product of the input block with the weights plus the bias row. -/
def out0_3 (x0 : Vec F S512x1024 .f32) (x1 : Vec F S1024x3072 .bf16) (x2 : Vec F S1x3072 .f32) : Vec F S512x3072 .bf16 :=
  View.canon [⟨r0_o, k0_pay1 (View.ld x0 r0_x) (View.ld x1 r0_w) (View.ld x2 r0_b)⟩]

/-- Region 0's record: the arrays as found; after the body each input's buffer holds its block and the output's the
    block above; the scoped rest and the generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: attention over one batch and one pair of heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q0 : Rect S512x128 := Rect.unit (s := S512x128) ![0, 0] S512x64.size inb_S512x128_S512x64_0_0
abbrev r1_q1 : Rect S512x128 := Rect.unit (s := S512x128) ![0, 64] S512x64.size inb_S512x128_S512x64_0_64
abbrev r1_k0 : Rect S2048x128 := Rect.unit (s := S2048x128) ![0, 0] S2048x64.size inb_S2048x128_S2048x64_0_0
abbrev r1_k1 : Rect S2048x128 := Rect.unit (s := S2048x128) ![0, 64] S2048x64.size inb_S2048x128_S2048x64_0_64

/-- The output block after the body: two stores, LAST FIRST — the second head's 64 columns, then the first head's. -/
def out1_3 (x0 : Vec F S512x128 .bf16) (x1 : Vec F S2048x128 .bf16) (x2 : Vec F S2048x128 .bf16) : Vec F S512x128 .bf16 :=
  View.canon [⟨r1_q1, k1_pay1 (k1_pay3 (View.ld x2 r1_k1)) (k1_pay5 (View.ld x0 r1_q1) (View.ld x1 r1_k1)) (k1_pay6 (View.ld x0 r1_q1) (View.ld x1 r1_k1))⟩,
    ⟨r1_q0, k1_pay2 (View.ld x0 r1_q0) (View.ld x1 r1_k0) (View.ld x2 r1_k0)⟩]

/-- Region 1's record. Its three input windows lie on one array: the query window holds the left half of that
    array's share, the key window the left half of the right half, the value window the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: output projection, residual, layer normalisation -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store. -/
def out2_6 (x0 : Vec F S512x1024 .bf16) (x1 : Vec F S1024x1024 .bf16) (x2 : Vec F S1x1024 .f32) (x3 : Vec F S512x1024 .f32)
    (x4 : Vec F S1x1024 .f32) (x5 : Vec F S1x1024 .f32) : Vec F S512x1024 .f32 :=
  View.canon [⟨r2_x, k2_pay1 (View.ld x0 r2_x) (View.ld x1 r2_w) (View.ld x2 r2_b) (View.ld x3 r2_x) (View.ld x4 r2_b) (View.ld x5 r2_b)⟩]

/-- Region 2's record. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.Kernel.Hand

end
-- ==== Proof.K.Body0.lean ====
/-
  Region 0's body obligation: at every grid point the kernel body, run on the windows' current staging buffers
  holding their blocks, terminates without a fault and leaves each buffer at what the region's record says.
-/
import proofs.«431405_j45913200394352_3_alg».proof.Proof.K.Data
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- The activations' window moves at every point, so the pipeline fetches it everywhere; in any case its
    current staging buffer holds the block of the point, because the body leaves that block untouched. -/
theorem held0_x (c : Dev nD) (t : Fin cfg0.N) (d) : (dat0 V c).before 0 t d = iblk0 V c 0 t :=
  ((dat0 V c).before_in_eq_fetched 0 rfl (fun _ => rfl) (fun _ _ _ => rfl)
      (fun s => by rw [after0_0]; unfold Dat.blockOf iblk0; rw [A_eq0]; try rfl) t d).trans
    (by unfold Dat.fetched Dat.blockOf iblk0; rw [A_eq0]; try rfl)

/-- The weights' window has one block for the whole grid and is fetched at the first point only: at a later
    point its block index has not moved, and the buffer still holds the block. -/
theorem held0_w (c : Dev nD) (t : Fin cfg0.N) (d) : (dat0 V c).before 1 t d = iblk0 V c 1 t :=
  ((dat0 V c).before_in_eq_fetched 1 rfl (fun _ => rfl) (fun _ _ _ => rfl)
      (fun s => by rw [after0_1]; unfold Dat.blockOf iblk0; rw [A_eq0]; try rfl) t d).trans
    (by unfold Dat.fetched Dat.blockOf iblk0; rw [A_eq0]; try rfl)

/-- The bias row's window, likewise one block fetched once. -/
theorem held0_b (c : Dev nD) (t : Fin cfg0.N) (d) : (dat0 V c).before 2 t d = iblk0 V c 2 t :=
  ((dat0 V c).before_in_eq_fetched 2 rfl (fun _ => rfl) (fun _ _ _ => rfl)
      (fun s => by rw [after0_2]; unfold Dat.blockOf iblk0; rw [A_eq0]; try rfl) t d).trans
    (by unfold Dat.fetched Dat.blockOf iblk0; rw [A_eq0]; try rfl)

/-! ## The output block is written whole -/

/-- The body's one store is of the whole [512, 3072] block: every index of the block lies in its rectangle. -/
theorem whole0_o (p : Vec F S512x3072 .bf16) (y : S512x3072.Idx) :
    ∃ pc ∈ ([⟨r0_o, p⟩] : List (View.Piece (Elt F) S512x3072 .bf16)), y ∈ pc.1.set :=
  View.cover_of_tiled [⟨r0_o, p⟩] S512x3072.size (by rfl) y

/-! ## The body on whole staging memrefs -/

set_option maxHeartbeats 1000000 in
/-- Run on four whole memrefs — the three inputs' reading `x0`, `x1`, `x2`, the output's at any contents — the
    body loads the three input blocks (and the output block, whose value it never uses), stores the product plus
    the bias row over the whole output block, and returns: the inputs are as they were, and the output reads as
    the canonical array of that one store, whatever it held before. -/
theorem triple0 (c : Dev nD) (E : Set ℕ) (i : grid0.Coords)
    (a1 : Memref sig .tc .vmem S512x1024 .f32) (h1 : a1.IsWhole)
    (a2 : Memref sig .tc .vmem S1024x3072 .bf16) (h2 : a2.IsWhole)
    (a3 : Memref sig .tc .vmem S1x3072 .f32) (h3 : a3.IsWhole)
    (a4 : Memref sig .tc .vmem S512x3072 .bf16) (h4 : a4.IsWhole)
    (x0 : Vec F S512x1024 .f32) (x1 : Vec F S1024x3072 .bf16) (x2 : Vec F S1x3072 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %e1, H1⟩, ⟨%f2, %e2, H2⟩, ⟨%f3, %e3, H3⟩, ⟨%d4, %f4, -, H4⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole0_o _)

/-! ## The obligation at one grid point -/

/-- What the pipeline hands the body at point `t`: the invariant, what the core owes, and each window's current
    staging buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body gives back: the same invariant and debt at the next point, each buffer at what the record says. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three inputs' buffers hold their blocks, so the body's triple applies with those blocks as the
    inputs' contents; the invariant and the debt are not read by the body and do not depend on the point. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_x, held0_w, held0_b]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (triple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact at_point0 V c t

end Cert.Kernel.Hand

end
-- ==== Proof.K.Body1.lean ====
/-
  Region 1's body obligation: at every grid point the kernel body, run on the windows' current staging buffers
  holding their blocks, terminates without a fault and leaves each buffer at what the region's record says.
-/
import proofs.«431405_j45913200394352_3_alg».proof.Proof.K.Data
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' staging buffers hold when the body is called -/

/-- The query window's current buffer holds the query block at every point: it is fetched at every point, and a
    fetch of an uncut window puts the block read off the array in the buffer. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- The key window is fetched only where the batch or the head pair changes; elsewhere its block index has not
    moved and its buffer still holds the block of the point before, which is this point's. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- The value window likewise. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s; rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-! ## The stores cover the output buffer -/

/-- The two stores, one per head, are the left and the right 64-column halves of the 512×128 block: between them
    every element of the block is written. -/
theorem cover1_3 (p1 p0 : Vec F S512x64 .bf16) (y : S512x128.Idx) :
    ∃ pc ∈ ([⟨r1_q1, p1⟩, ⟨r1_q0, p0⟩] : List (View.Piece (Elt F) S512x128 .bf16)), y ∈ pc.1.set :=
  View.cover_of_tiled [⟨r1_q1, p1⟩, ⟨r1_q0, p0⟩] S512x64.size (by rfl) y

/-! ## The body's triple on whole staging memrefs -/

set_option maxHeartbeats 1000000 in
/-- The body, called at any grid coordinates on four whole staging memrefs — the three inputs' reading `x0`, `x1`,
    `x2`, the output's holding anything — runs to its continuation with the inputs' as they were and the output's
    reading the canonical array of the two stores over the inputs. The body reads its output buffer before each store
    and drops the value, so the buffer's prior contents do not enter the result. -/
theorem sound_kernel1 (c : Dev nD) (E : Set ℕ) (i : grid1.Coords)
    (a0 : Memref sig .tc .vmem S512x128 .bf16) (ha0 : a0.IsWhole) (a1 : Memref sig .tc .vmem S2048x128 .bf16) (ha1 : a1.IsWhole)
    (a2 : Memref sig .tc .vmem S2048x128 .bf16) (ha2 : a2.IsWhole) (a3 : Memref sig .tc .vmem S512x128 .bf16) (ha3 : a3.IsWhole)
    (x0 : Vec F S512x128 .bf16) (x1 x2 : Vec F S2048x128 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__attn_pair_kernel i a0 ha0 a1 ha1 a2 ha2 a3 ha3) K := by
  simp only [cc1__attn_pair_kernel_eq_skeleton]; unfold cc1__attn_pair_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The obligation at one grid point -/

/-- What the pipeline hands the body at point `t`: the region's invariant, what the core owes, and each of the four
    windows' current staging memrefs, whole, at what the record says it holds before the body. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body hands back: the invariant and the debt at the next point, and each memref at what the record
    says the body leaves there. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the three input memrefs hold their blocks, fetched there or not, so the body's triple applies with
    the blocks as the read contents; the invariant and the debt do not depend on the point and pass by untouched;
    the output memref, whatever it held, comes back at the canonical array of the two stores over the blocks, which
    is what the record says the body leaves. -/
theorem sound_body1 (c : Dev nD) (t : Fin cfg1.N) :
    handed1 V c t ⊢ wp frame (wpE (defs₀ (F := F)) Variants.none c none) Set.univ (bodyAt1 t) (fun _ => returned1 V c t) := by
  unfold handed1 returned1 bodyAt1
  have hΦ : (dat1 V c).Φ t.succ = (dat1 V c).Φ t.castSucc := rfl
  have hO : (dat1 V c).owesAt () t.succ = (dat1 V c).owesAt () t.castSucc := rfl
  rw [hΦ, hO, after1_0, after1_1, after1_2, after1_3]
  simp only [before1_0, before1_1, before1_2]
  iintro ⟨HΦ, Ho, ⟨%d0, Hq⟩, ⟨%d1, Hk⟩, ⟨%d2, Hv⟩, ⟨%d3, Hout⟩⟩
  iapply (sound_kernel1 c Set.univ (grid1.coords t) _ _ _ _ _ _ _ _ (iblk1 V c 0 t) (iblk1 V c 1 t) (iblk1 V c 2 t) _)
  isplitl [Hq]; · iexact Hq
  isplitl [Hk]; · iexact Hk
  isplitl [Hv]; · iexact Hv
  isplitl [Hout]; · iexists _; iexact Hout
  iintro ⟨Hq, Hk, Hv, Hout⟩
  isplitl [HΦ]; · iexact HΦ
  isplitl [Ho]; · iexact Ho
  isplitl [Hq]; · iexact Hq
  isplitl [Hk]; · iexact Hk
  isplitl [Hv]; · iexact Hv
  iexact Hout

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Body2.lean ====
/-
  Region 2's body obligation: at every grid point the kernel body, run on the windows' current staging buffers
  holding their blocks, terminates without a fault and leaves each buffer at what the region's record says.
-/
import proofs.«431405_j45913200394352_3_alg».proof.Proof.K.Data
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point

An input window of this region is never cut and never idle, and the body leaves its buffer as it found it. So at
every point the buffer the body is handed holds the window's block there: where the pipeline fetched, the fetch put
the block in; where it did not, the window's block index has not moved since the point before, and the block left
in the buffer then is the block wanted now. One statement per input window, since a window's block type is only
known once the window is. -/

theorem before2_0 (c : Dev nD) (t : Fin cfg2.N) (d) : (dat2 V c).before 0 t d = iblk2 V c 0 t := by
  have hblock : ∀ t, (dat2 V c).blockOf 0 t = iblk2 V c 0 t := by
    intro t; unfold Dat.blockOf iblk2; rw [A_eq2]
  have hkeep : ∀ t, (cfg2.win 0).cut (cfg2.grid.coords t) ((dat2 V c).after 0 t) = (dat2 V c).blockOf 0 t := by
    intro t; rw [after2_0, hblock]
  rw [(dat2 V c).before_in_eq_fetched 0 rfl (fun _ => rfl) (fun _ _ _ => rfl) hkeep t d, ← hblock t]
  rfl

theorem before2_1 (c : Dev nD) (t : Fin cfg2.N) (d) : (dat2 V c).before 1 t d = iblk2 V c 1 t := by
  have hblock : ∀ t, (dat2 V c).blockOf 1 t = iblk2 V c 1 t := by
    intro t; unfold Dat.blockOf iblk2; rw [A_eq2]
  have hkeep : ∀ t, (cfg2.win 1).cut (cfg2.grid.coords t) ((dat2 V c).after 1 t) = (dat2 V c).blockOf 1 t := by
    intro t; rw [after2_1, hblock]
  rw [(dat2 V c).before_in_eq_fetched 1 rfl (fun _ => rfl) (fun _ _ _ => rfl) hkeep t d, ← hblock t]
  rfl

theorem before2_2 (c : Dev nD) (t : Fin cfg2.N) (d) : (dat2 V c).before 2 t d = iblk2 V c 2 t := by
  have hblock : ∀ t, (dat2 V c).blockOf 2 t = iblk2 V c 2 t := by
    intro t; unfold Dat.blockOf iblk2; rw [A_eq2]
  have hkeep : ∀ t, (cfg2.win 2).cut (cfg2.grid.coords t) ((dat2 V c).after 2 t) = (dat2 V c).blockOf 2 t := by
    intro t; rw [after2_2, hblock]
  rw [(dat2 V c).before_in_eq_fetched 2 rfl (fun _ => rfl) (fun _ _ _ => rfl) hkeep t d, ← hblock t]
  rfl

theorem before2_3 (c : Dev nD) (t : Fin cfg2.N) (d) : (dat2 V c).before 3 t d = iblk2 V c 3 t := by
  have hblock : ∀ t, (dat2 V c).blockOf 3 t = iblk2 V c 3 t := by
    intro t; unfold Dat.blockOf iblk2; rw [A_eq2]
  have hkeep : ∀ t, (cfg2.win 3).cut (cfg2.grid.coords t) ((dat2 V c).after 3 t) = (dat2 V c).blockOf 3 t := by
    intro t; rw [after2_3, hblock]
  rw [(dat2 V c).before_in_eq_fetched 3 rfl (fun _ => rfl) (fun _ _ _ => rfl) hkeep t d, ← hblock t]
  rfl

theorem before2_4 (c : Dev nD) (t : Fin cfg2.N) (d) : (dat2 V c).before 4 t d = iblk2 V c 4 t := by
  have hblock : ∀ t, (dat2 V c).blockOf 4 t = iblk2 V c 4 t := by
    intro t; unfold Dat.blockOf iblk2; rw [A_eq2]
  have hkeep : ∀ t, (cfg2.win 4).cut (cfg2.grid.coords t) ((dat2 V c).after 4 t) = (dat2 V c).blockOf 4 t := by
    intro t; rw [after2_4, hblock]
  rw [(dat2 V c).before_in_eq_fetched 4 rfl (fun _ => rfl) (fun _ _ _ => rfl) hkeep t d, ← hblock t]
  rfl

theorem before2_5 (c : Dev nD) (t : Fin cfg2.N) (d) : (dat2 V c).before 5 t d = iblk2 V c 5 t := by
  have hblock : ∀ t, (dat2 V c).blockOf 5 t = iblk2 V c 5 t := by
    intro t; unfold Dat.blockOf iblk2; rw [A_eq2]
  have hkeep : ∀ t, (cfg2.win 5).cut (cfg2.grid.coords t) ((dat2 V c).after 5 t) = (dat2 V c).blockOf 5 t := by
    intro t; rw [after2_5, hblock]
  rw [(dat2 V c).before_in_eq_fetched 5 rfl (fun _ => rfl) (fun _ _ _ => rfl) hkeep t d, ← hblock t]
  rfl

/-! ## What the body's one store covers -/

/-- The body stores once, through the rectangle that is the whole output block, so every index of the block lies in
    that store's rectangle: with the block itself as the tile, there is one tile and the store is it. -/
theorem cover2_6 (p : Vec F S512x1024 .f32) (y : S512x1024.Idx) :
    ∃ pc ∈ ([⟨r2_x, p⟩] : List (View.Piece (Elt F) S512x1024 .f32)), y ∈ pc.1.set :=
  View.cover_of_tiled [⟨r2_x, p⟩] S512x1024.size (by rfl) y

/-! ## The body on whole buffers

The body reads each of its six inputs whole, reads the output buffer whole (a value it never uses), and stores the
normalised rows over the whole output buffer. Given the six input buffers at read contents `x0 … x5` and the output
buffer at anything, it therefore ends with the inputs as they were and the output at what its one store leaves,
`out2_6 x0 … x5`: nothing of what the output buffer held before survives, since the store covers it. -/

set_option maxHeartbeats 1000000 in
theorem triple2 (c : Dev nD) (E : Set ℕ) (i : grid2.Coords)
    (a0 : Memref sig .tc .vmem S512x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S512x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S512x1024 .f32) (h6 : a6.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out2_6 x0 x1 x2 x3 x4 x5)) -∗ K ⟨⟩))
      ⊢ wp frame (wpE (defs₀ (F := F)) Variants.none c none) E
          (cc2__o_proj_ln_kernel i a0 h0 a1 h1 a2 h2 a3 h3 a4 h4 a5 h5 a6 h6) K := by
  simp only [cc2__o_proj_ln_kernel_eq_skeleton]; unfold cc2__o_proj_ln_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  -- the output buffer: what it holds is fixed by the resource, so hand that over first; what it reads then is the
  -- canonical array of the one store, because the store covers the block
  iexists _; isplitr
  rotate_left
  · iexact H6
  ipureintro
  exact View.read_writes_eq_canon _ _ _ (cover2_6 _)

/-! ## The body at a grid point

At point `t` the pipeline hands the body the region's invariant, the core's debts (none), and every window's current
buffer at what it then holds. The six inputs' buffers hold their blocks (above), so the body's triple applies with
those blocks as the read contents; the invariant and the debts are not touched and do not change from one point to
the next; and what the triple returns is, window by window, what the region's record says the body leaves. -/

/-- What the body is called with at point `t`, the windows one by one. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  -- the inputs' buffers hold their blocks
  simp only [before2_0, before2_1, before2_2, before2_3, before2_4, before2_5]
  -- the invariant and the debts are the same at every point; what the record says the body leaves, spelt out
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple2 (c := c) (E := Set.univ) (x0 := iblk2 V c 0 t) (x1 := iblk2 V c 1 t) (x2 := iblk2 V c 2 t)
    (x3 := iblk2 V c 3 t) (x4 := iblk2 V c 4 t) (x5 := iblk2 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  -- back from the body: the buffers as the triple left them, with the invariant and the debts beside them
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 2, at every point. -/
theorem body_obligation2 (c : Dev nD) : BodyObligation (dat2 (F := F) V c) (defs₀ (F := F)) Variants.none () Set.univ := by
  intro t
  rw [bigSep_W2, bigSep_W2]
  exact at_point2 V c t

end Cert.Kernel.Hand

end
-- ==== Proof.K.Run.lean ====
/-
  The run of @main: three kernel regions among three stretches of host operations.

  Between two items every unscoped buffer of the TensorCore is held whole at a known valuation: the launch memory,
  then each host stretch applied, then, after a region, the same valuation with the region's output array replaced
  by what the pipeline's write-backs leave there. Region 1 reads one array through three windows: at its entry
  that array's points-to is dealt into three parts of its share, one per window, and joined again at the exit.
  Every weakly fair execution terminates without a fault and ends with each unscoped buffer at the last
  valuation; the argument arrays are never written, so they end as launched.
-/
import proofs.«431405_j45913200394352_3_alg».proof.Proof.K.Body0
import proofs.«431405_j45913200394352_3_alg».proof.Proof.K.Body1
import proofs.«431405_j45913200394352_3_alg».proof.Proof.K.Body2
import proofs.«431405_j45913200394352_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references. -/
abbrev atTc (W : Dev nD → Valuation τ sig (Elt F)) : (c : Dev nD) → (b : Ref sig .tc) → Buf (Elt F) ((c : Thread nD τ).loc b) :=
  fun c b => W c b

/-- Before region 0: the launch memory with the first host stretch applied. -/
abbrev VA (c : Dev nD) : Valuation τ sig (Elt F) := Gen.V1 m c
/-- What region 0 leaves in its output array. -/
def o10 (c : Dev nD) : Buf (Elt F) ((c : Thread nD τ).loc main_v10) := (dat0 (atTc (VA m)) c).arrAt 3 cfg0.N
/-- After region 0. -/
abbrev VB (c : Dev nD) : Valuation τ sig (Elt F) := Function.update (VA m c) main_v10 (o10 m c)
/-- What region 1 leaves in its output array. -/
def o11 (c : Dev nD) : Buf (Elt F) ((c : Thread nD τ).loc main_v11) := (dat1 (atTc (VB m)) c).arrAt 3 cfg1.N
/-- After region 1. -/
abbrev VC (c : Dev nD) : Valuation τ sig (Elt F) := Function.update (VB m c) main_v11 (o11 m c)
/-- Before region 2: the second host stretch applied. -/
abbrev VD (c : Dev nD) : Valuation τ sig (Elt F) := StableHlo.after hostOps2 (VC m c)
/-- What region 2 leaves in its output array. -/
def o17 (c : Dev nD) : Buf (Elt F) ((c : Thread nD τ).loc main_v17) := (dat2 (atTc (VD m)) c).arrAt 6 cfg2.N

/-- What the regions leave, as the table the valuations of the host side are written over. -/
def outs : Gen.Outs (F := F) := fun _ r c =>
  if h : r = main_v10 then h ▸ o10 m c
  else if h : r = main_v11 then h ▸ o11 m c
  else if h : r = main_v17 then h ▸ o17 m c
  else m ((c : Thread nD τ).loc r)

theorem outs_v10 (J : ℕ) (c : Dev nD) : outs m J main_v10 c = o10 m c := by unfold outs; rw [dif_pos rfl]
theorem outs_v11 (J : ℕ) (c : Dev nD) : outs m J main_v11 c = o11 m c := by
  unfold outs; rw [dif_neg (by decide), dif_pos rfl]
theorem outs_v17 (J : ℕ) (c : Dev nD) : outs m J main_v17 c = o17 m c := by
  unfold outs; rw [dif_neg (by decide), dif_neg (by decide), dif_pos rfl]

theorem V2_eq (c : Dev nD) : Gen.V2 m (outs m) c = VB m c := by
  show Function.update (Gen.V1 m c) main_v10 (outs m 2 main_v10 c) = _
  rw [outs_v10]
theorem V3_eq (c : Dev nD) : Gen.V3 m (outs m) c = VC m c := by
  show Function.update (Gen.V2 m (outs m) c) main_v11 (outs m 3 main_v11 c) = _
  rw [outs_v11, V2_eq]
theorem V4_eq (c : Dev nD) : Gen.V4 m (outs m) c = VD m c := by
  show StableHlo.after hostOps2 (Gen.V3 m (outs m) c) = _
  rw [V3_eq]

/-! ## The proof data family and what rides beside the buffers -/

/-- No pipeline has a prefetched table. -/
abbrev adm : (p : Fin 3) → (pcfgs (F := F) p).Adm := Gen.adm
/-- Every pipeline's record, each at its region's entry contents. -/
def pdats : (p : Fin 3) → (c : Dev nD) → Dat τ (Elt F) Unit ℕ (UR sig nD τ) ℕ (cfgs p) c
  | ⟨0, _⟩ => fun c => dat0 (atTc (VA m)) c
  | ⟨1, _⟩ => fun c => dat1 (atTc (VB m)) c
  | ⟨2, _⟩ => fun c => dat2 (atTc (VD m)) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state and its debts, none. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Region 0 -/

theorem VB_of (c : Dev nD) (r : Ref sig .tc) (h : r ∉ ([main_v10] : List (Ref sig .tc))) : atTc (VB m) c r = atTc (VA m) c r :=
  (congrFun (V2_eq m c) r).symm.trans (Gen.V2_of m (outs m) c r h)
theorem VB_v10 (c : Dev nD) : atTc (VB m) c main_v10 = o10 m c := Function.update_self _ _ _

theorem hF0 (c : Dev nD) (w : Fin cfg0.W) : (dat0 (atTc (VA m)) c).arrAt w cfg0.N = atTc (VB m) c (Pipeline.arrRef spec0 w) := by
  match w with
  | ⟨0, _⟩ => exact ((dat0 (atTc (VA m)) c).arrAt_in 0 rfl _).trans ((A_eq0 _ c 0).trans (VB_of m c main_v0 (by decide)).symm)
  | ⟨1, _⟩ => exact ((dat0 (atTc (VA m)) c).arrAt_in 1 rfl _).trans ((A_eq0 _ c 1).trans (VB_of m c main_v7 (by decide)).symm)
  | ⟨2, _⟩ => exact ((dat0 (atTc (VA m)) c).arrAt_in 2 rfl _).trans ((A_eq0 _ c 2).trans (VB_of m c main_v9 (by decide)).symm)
  | ⟨3, _⟩ => exact (VB_v10 m c).symm
theorem hrest0 (c : Dev nD) : ∀ b, b ∉ Finset.univ.image (Pipeline.arrRef spec0) → atTc (VB m) c b = atTc (VA m) c b :=
  fun b hb => VB_of m c b (by
    intro hmem
    exact hb (Finset.mem_image.mpr ⟨3, Finset.mem_univ _, (List.mem_singleton.mp hmem).symm⟩))

set_option backward.isDefEq.respectTransparency.types false in
/-- Region 0 over the thread state: entered with every unscoped buffer at the valuation before it, left at the one after it. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (VA m)) c).loose
  hwaits := Pipeline.hwaits_of_owed_zero _ _ _ _ L lv 0 fun _ _ => rfl
  pre c := iprop(StableHlo.held (c : Thread nD τ) (Pipeline.ucRefs τ sig) (VA m c) ∗ R c)
  post c := iprop(StableHlo.held (c : Thread nD τ) (Pipeline.ucRefs τ sig) (VB m c) ∗ R c)
  X c := iprop(∃ r, prngReg c r)
  Y c := iprop(∃ r, prngReg c r)
  Z c := Pipeline.unscopedRest (Ix := Unit) (Name := ℕ) (U := UR sig nD τ) (Lvl := ℕ) spec0 c (atTc (VA m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (VA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (VA m) c) (atTc (VB m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- After region 2. -/
abbrev VE (c : Dev nD) : Valuation τ sig (Elt F) := Function.update (VD m c) main_v17 (o17 m c)

theorem V5_eq (c : Dev nD) : Gen.V5 m (outs m) c = VE m c := by
  show Function.update (Gen.V4 m (outs m) c) main_v17 (outs m 5 main_v17 c) = _
  rw [outs_v17, V4_eq]

theorem VE_of (c : Dev nD) (r : Ref sig .tc) (h : r ∉ ([main_v17] : List (Ref sig .tc))) : atTc (VE m) c r = atTc (VD m) c r :=
  (congrFun (V5_eq m c) r).symm.trans ((Gen.V5_of m (outs m) c r h).trans (congrFun (V4_eq m c) r))
theorem VE_v17 (c : Dev nD) : atTc (VE m) c main_v17 = o17 m c := Function.update_self _ _ _

theorem hF2 (c : Dev nD) (w : Fin cfg2.W) : (dat2 (atTc (VD m)) c).arrAt w cfg2.N = atTc (VE m) c (Pipeline.arrRef spec2 w) := by
  match w with
  | ⟨0, _⟩ => exact ((dat2 (atTc (VD m)) c).arrAt_in 0 rfl _).trans ((A_eq2 _ c 0).trans (VE_of m c main_v11 (by decide)).symm)
  | ⟨1, _⟩ => exact ((dat2 (atTc (VD m)) c).arrAt_in 1 rfl _).trans ((A_eq2 _ c 1).trans (VE_of m c main_v13 (by decide)).symm)
  | ⟨2, _⟩ => exact ((dat2 (atTc (VD m)) c).arrAt_in 2 rfl _).trans ((A_eq2 _ c 2).trans (VE_of m c main_v14 (by decide)).symm)
  | ⟨3, _⟩ => exact ((dat2 (atTc (VD m)) c).arrAt_in 3 rfl _).trans ((A_eq2 _ c 3).trans (VE_of m c main_v0 (by decide)).symm)
  | ⟨4, _⟩ => exact ((dat2 (atTc (VD m)) c).arrAt_in 4 rfl _).trans ((A_eq2 _ c 4).trans (VE_of m c main_v15 (by decide)).symm)
  | ⟨5, _⟩ => exact ((dat2 (atTc (VD m)) c).arrAt_in 5 rfl _).trans ((A_eq2 _ c 5).trans (VE_of m c main_v16 (by decide)).symm)
  | ⟨6, _⟩ => exact (VE_v17 m c).symm
theorem hrest2 (c : Dev nD) : ∀ b, b ∉ Finset.univ.image (Pipeline.arrRef spec2) → atTc (VE m) c b = atTc (VD m) c b :=
  fun b hb => VE_of m c b (by
    intro hmem
    exact hb (Finset.mem_image.mpr ⟨6, Finset.mem_univ _, (List.mem_singleton.mp hmem).symm⟩))

set_option backward.isDefEq.respectTransparency.types false in
/-- Region 2 over the thread state. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (VD m)) c).loose
  hwaits := Pipeline.hwaits_of_owed_zero _ _ _ _ L lv 2 fun _ _ => rfl
  pre c := iprop(StableHlo.held (c : Thread nD τ) (Pipeline.ucRefs τ sig) (VD m c) ∗ R c)
  post c := iprop(StableHlo.held (c : Thread nD τ) (Pipeline.ucRefs τ sig) (VE m c) ∗ R c)
  X c := iprop(∃ r, prngReg c r)
  Y c := iprop(∃ r, prngReg c r)
  Z c := Pipeline.unscopedRest (Ix := Unit) (Name := ℕ) (U := UR sig nD τ) (Lvl := ℕ) spec2 c (atTc (VD m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (VD m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (VD m) c) (atTc (VE m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind three input windows -/

/-- A record of region 1 holds its arrays so: the shared array three times, once at each input window's share, and
    the output array. -/
theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄)
      = iprop((((c : Thread nD τ).loc main_v10) ↦{dat.share 0} G 0) ∗ (((c : Thread nD τ).loc main_v10) ↦{dat.share 1} G 1)
          ∗ (((c : Thread nD τ).loc main_v10) ↦{dat.share 2} G 2) ∗ (((c : Thread nD τ).loc main_v11) ↦{dat.share 3} G 3)) := by
  unfold Dat.arrays
  rw [bigSep_W1, show (cfg1.win 0).arr.view.set = Finset.univ from (arr_whole1 0).set_eq_univ,
    show (cfg1.win 3).arr.view.set = Finset.univ from (arr_whole1 3).set_eq_univ]

/-- The three input windows' parts of the shared array's share, and the output's full share. -/
theorem share1_0 (V) (c : Dev nD) : (dat1 (F := F) V c).share 0 = fullShare.left := rfl
theorem share1_1 (V) (c : Dev nD) : (dat1 (F := F) V c).share 1 = fullShare.right.left := rfl
theorem share1_2 (V) (c : Dev nD) : (dat1 (F := F) V c).share 2 = fullShare.right.right := rfl
theorem share1_3 (V) (c : Dev nD) : (dat1 (F := F) V c).share 3 = fullShare := rfl

/-- The two distinct buffers behind region 1's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v11) ↦{fullShare} V main_v11)) := by
  unfold Pipeline.arrBufs
  rw [show Finset.univ.image (Pipeline.arrRef spec1) = insert main_v10 {main_v11} from by decide,
    bigSep_insert (by decide), bigSep_singleton]
  rfl

/-- A whole buffer's points-to dealt into the three parts of its share, and joined again. -/
theorem deal3 {ℓ : Loc nD τ sig} (f : Buf (Elt F) ℓ) :
    ((ℓ ↦{fullShare} f) : sProp 𝕄) ⊣⊢ iprop((ℓ ↦{fullShare.left} f) ∗ (ℓ ↦{fullShare.right.left} f) ∗ (ℓ ↦{fullShare.right.right} f)) := by
  have h1 : ((ℓ ↦{fullShare} f) : sProp 𝕄) ⊣⊢ iprop((ℓ ↦{fullShare.left} f) ∗ (ℓ ↦{fullShare.right} f)) :=
    pointsTo_share (PosShare.mem_left_op_right fullShare)
  have h2 : ((ℓ ↦{fullShare.right} f) : sProp 𝕄) ⊣⊢ iprop((ℓ ↦{fullShare.right.left} f) ∗ (ℓ ↦{fullShare.right.right} f)) :=
    pointsTo_share (PosShare.mem_left_op_right fullShare.right)
  exact ⟨h1.1.trans (sep_mono .rfl h2.1), (sep_mono .rfl h2.2).trans h1.2⟩

theorem VC_of (c : Dev nD) (r : Ref sig .tc) (h : r ∉ ([main_v11] : List (Ref sig .tc))) : atTc (VC m) c r = atTc (VB m) c r :=
  (congrFun (V3_eq m c) r).symm.trans ((Gen.V3_of m (outs m) c r h).trans (congrFun (V2_eq m c) r))
theorem VC_v11 (c : Dev nD) : atTc (VC m) c main_v11 = o11 m c := Function.update_self _ _ _

/-- ENTRY: every unscoped buffer at the valuation before the region gives the four windows' arrays — the shared
    array's points-to dealt into the three windows' parts of its share — and the unscoped rest. -/
theorem entry1 (c : Dev nD) :
    (StableHlo.held (c : Thread nD τ) (Pipeline.ucRefs τ sig) (VB m c) : sProp 𝕄)
      ⊢ iprop((pdats m 1 c).arrays ((pdats m 1 c).arrAt · 0)
          ∗ Pipeline.unscopedRest (Ix := Unit) (Name := ℕ) (U := UR sig nD τ) (Lvl := ℕ) spec1 c (atTc (VB m) c)) := by
  have hs : (unscopedBufs (Ix := Unit) (Name := ℕ) (U := UR sig nD τ) (Lvl := ℕ) c (atTc (VB m) c) : sProp 𝕄)
      = iprop(Pipeline.arrBufs spec1 c (atTc (VB m) c) ∗ Pipeline.unscopedRest spec1 c (atTc (VB m) c)) :=
    Pipeline.unscopedBufs_split₀ cfgs 1 winFacts₀1.arr_unscoped c (atTc (VB m) c)
  rw [Pipeline.unscopedBufs_held] at hs
  show _ ⊢ iprop((dat1 (atTc (VB m)) c).arrays ((dat1 (atTc (VB m)) c).arrAt · 0) ∗ _)
  rw [hs, arrays1_eq, arrBufs1_eq, share1_0, share1_1, share1_2, share1_3]
  refine sep_mono ?_ .rfl
  iintro ⟨H10, H11⟩
  ihave H := (deal3 (F := F) (atTc (VB m) c main_v10)).1 $$ H10
  icases H with ⟨Ha, Hb, Hc⟩
  isplitl [Ha]; · iexact Ha
  isplitl [Hb]; · iexact Hb
  isplitl [Hc]; · iexact Hc
  iexact H11

theorem hF1 (c : Dev nD) (w : Fin cfg1.W) : (dat1 (atTc (VB m)) c).arrAt w cfg1.N = atTc (VC m) c (Pipeline.arrRef spec1 w) := by
  match w with
  | ⟨0, _⟩ => exact ((dat1 (atTc (VB m)) c).arrAt_in 0 rfl _).trans ((A_eq1 _ c 0).trans (VC_of m c main_v10 (by decide)).symm)
  | ⟨1, _⟩ => exact ((dat1 (atTc (VB m)) c).arrAt_in 1 rfl _).trans ((A_eq1 _ c 1).trans (VC_of m c main_v10 (by decide)).symm)
  | ⟨2, _⟩ => exact ((dat1 (atTc (VB m)) c).arrAt_in 2 rfl _).trans ((A_eq1 _ c 2).trans (VC_of m c main_v10 (by decide)).symm)
  | ⟨3, _⟩ => exact (VC_v11 m c).symm

/-- EXIT: the four windows' arrays at what the pipeline leaves and the unscoped rest give every unscoped buffer at
    the valuation after the region — the three parts of the shared array's share joined again. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (atTc (VB m) c))
      ⊢ (StableHlo.held (c : Thread nD τ) (Pipeline.ucRefs τ sig) (VC m c) : sProp 𝕄) := by
  have hs : (unscopedBufs (Ix := Unit) (Name := ℕ) (U := UR sig nD τ) (Lvl := ℕ) c (atTc (VC m) c) : sProp 𝕄)
      = iprop(Pipeline.arrBufs spec1 c (atTc (VC m) c) ∗ Pipeline.unscopedRest spec1 c (atTc (VC m) c)) :=
    Pipeline.unscopedBufs_split₀ cfgs 1 winFacts₀1.arr_unscoped c (atTc (VC m) c)
  rw [Pipeline.unscopedBufs_held] at hs
  have hrest : (Pipeline.unscopedRest (Ix := Unit) (Name := ℕ) (U := UR sig nD τ) (Lvl := ℕ) spec1 c (atTc (VB m) c) : sProp 𝕄)
      = Pipeline.unscopedRest spec1 c (atTc (VC m) c) := by
    unfold Pipeline.unscopedRest
    refine bigSep_congr fun b hb => ?_
    have hne : b ∉ ([main_v11] : List (Ref sig .tc)) := fun hmem =>
      (Finset.mem_sdiff.mp hb).2 (Finset.mem_image.mpr ⟨3, Finset.mem_univ _, (List.mem_singleton.mp hmem).symm⟩)
    rw [VC_of m c b hne]
  show iprop((dat1 (atTc (VB m)) c).arrays ((dat1 (atTc (VB m)) c).arrAt · cfg1.N) ∗ _) ⊢ _
  rw [hs, arrays1_eq, arrBufs1_eq, share1_0, share1_1, share1_2, share1_3, hrest, hF1 m c 0, hF1 m c 1, hF1 m c 2, hF1 m c 3]
  refine sep_mono ?_ .rfl
  iintro ⟨Ha, Hb, Hc, H11⟩
  isplitl [Ha Hb Hc]
  · iapply (deal3 (F := F) (atTc (VC m) c main_v10)).2
    isplitl [Ha]; · iexact Ha
    isplitl [Hb]; · iexact Hb
    iexact Hc
  iexact H11

set_option backward.isDefEq.respectTransparency.types false in
/-- Region 1 over the thread state. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (VB m)) c).loose
  hwaits := Pipeline.hwaits_of_owed_zero _ _ _ _ L lv 1 fun _ _ => rfl
  pre c := iprop(StableHlo.held (c : Thread nD τ) (Pipeline.ucRefs τ sig) (VB m c) ∗ R c)
  post c := iprop(StableHlo.held (c : Thread nD τ) (Pipeline.ucRefs τ sig) (VC m c) ∗ R c)
  X c := iprop(∃ r, prngReg c r)
  Y c := iprop(∃ r, prngReg c r)
  Z c := Pipeline.unscopedRest (Ix := Unit) (Name := ℕ) (U := UR sig nD τ) (Lvl := ℕ) spec1 c (atTc (VB m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## The launch -/

theorem chain13 (c : Dev nD) :
    iprop(StableHlo.held (c : Thread nD τ) (Pipeline.ucRefs τ sig) (VC m c) ∗ R c)
      ⊢ (iprop(StableHlo.held (c : Thread nD τ) (Pipeline.ucRefs τ sig) (Gen.V3 m (outs m) c) ∗ R c) : sProp 𝕄) :=
  Entails.of_eq (by rw [V3_eq])
theorem chain34 (c : Dev nD) :
    iprop(StableHlo.held (c : Thread nD τ) (Pipeline.ucRefs τ sig) (Gen.V4 m (outs m) c) ∗ R c)
      ⊢ (iprop(StableHlo.held (c : Thread nD τ) (Pipeline.ucRefs τ sig) (VD m c) ∗ R c) : sProp 𝕄) :=
  Entails.of_eq (by rw [V4_eq])
theorem chain45 (c : Dev nD) :
    iprop(StableHlo.held (c : Thread nD τ) (Pipeline.ucRefs τ sig) (VE m c) ∗ R c)
      ⊢ (iprop(StableHlo.held (c : Thread nD τ) (Pipeline.ucRefs τ sig) (Gen.V5 m (outs m) c) ∗ R c) : sProp 𝕄) :=
  Entails.of_eq (by rw [V5_eq])
theorem chainEnd (c : Dev nD) :
    iprop(StableHlo.held (c : Thread nD τ) (Pipeline.ucRefs τ sig) (Gen.V6 m (outs m) c) ∗ R c)
      ⊢ (iprop((StableHlo.held (c : Thread nD τ) (Pipeline.ucRefs τ sig) (Gen.V6 m (outs m) c) ∗ ∃ r, prngReg c r)
          ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    final memory holds each unscoped buffer of the TensorCore at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V6 m (outs m) c b) :=
  Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m))
    (fun c Q => by
      rewrite [main_chain c, Seg.run_eq_chain,
        show (Gen.segs m (outs m) 𝒱₀ L lv E () (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V6 m (outs m) c) ∗ ∃ r, prngReg c r))
    (hch := fun c => ⟨.rfl, .rfl, .rfl, chain13 m c, chain34 m c, chain45 m c, chainEnd m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

/-- The frame: every execution terminates without a fault and the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

/-- The run with the result named: the result array ends at the last valuation's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v18) = Gen.V6 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v18 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

end Cert.Kernel.Hand

end
-- ==== Proof.KI.Data.lean ====
/-
  The three kernel regions' data, at any float instance and at any contents `V` of the TensorCore's buffers when a
  region is entered: each window's block at a grid point, what each body leaves in its output window's buffer
  (the canonical array of its stores over the input blocks), and the pipeline's record of it.

  Region 0 multiplies a 512-row block of the input by the whole [1024, 3072] weight matrix and adds the bias
  row. Region 1 reads, for one batch and one pair of heads, a 512-row block of queries and the whole
  2048-row blocks of keys and values, all three out of ONE array (each input window therefore holds a part of
  that array's share), and writes the two heads' 64 columns by two stores. Region 2 multiplies a 512-row block
  by the [1024, 1024] output weights, adds bias and residual, and normalises each row.
-/
import proofs.«431405_j45913200394352_3_alg».proof.Proof.Gen.KernelIdeal.Launch
import proofs.«431405_j45913200394352_3_alg».proof.Proof.Gen.KernelIdeal.Skeleton
import proofs.«431405_j45913200394352_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- The output block after the body: its one store, of the product of the input block with the weights plus the bias row. -/
def out0_3 (x0 : Vec F S512x1024 .f32) (x1 : Vec F S1024x3072 .bf16) (x2 : Vec F S1x3072 .f32) : Vec F S512x3072 .bf16 :=
  View.canon [⟨r0_o, k0_pay1 (View.ld x0 r0_x) (View.ld x1 r0_w) (View.ld x2 r0_b)⟩]

/-- Region 0's record: the arrays as found; after the body each input's buffer holds its block and the output's the
    block above; the scoped rest and the generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: attention over one batch and one pair of heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q0 : Rect S512x128 := Rect.unit (s := S512x128) ![0, 0] S512x64.size inb_S512x128_S512x64_0_0
abbrev r1_q1 : Rect S512x128 := Rect.unit (s := S512x128) ![0, 64] S512x64.size inb_S512x128_S512x64_0_64
abbrev r1_k0 : Rect S2048x128 := Rect.unit (s := S2048x128) ![0, 0] S2048x64.size inb_S2048x128_S2048x64_0_0
abbrev r1_k1 : Rect S2048x128 := Rect.unit (s := S2048x128) ![0, 64] S2048x64.size inb_S2048x128_S2048x64_0_64

/-- The output block after the body: two stores, LAST FIRST — the second head's 64 columns, then the first head's. -/
def out1_3 (x0 : Vec F S512x128 .bf16) (x1 : Vec F S2048x128 .bf16) (x2 : Vec F S2048x128 .bf16) : Vec F S512x128 .bf16 :=
  View.canon [⟨r1_q1, k1_pay1 (k1_pay3 (View.ld x2 r1_k1)) (k1_pay5 (View.ld x0 r1_q1) (View.ld x1 r1_k1)) (k1_pay6 (View.ld x0 r1_q1) (View.ld x1 r1_k1))⟩,
    ⟨r1_q0, k1_pay2 (View.ld x0 r1_q0) (View.ld x1 r1_k0) (View.ld x2 r1_k0)⟩]

/-- Region 1's record. Its three input windows lie on one array: the query window holds the left half of that
    array's share, the key window the left half of the right half, the value window the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: output projection, residual, layer normalisation -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store. -/
def out2_6 (x0 : Vec F S512x1024 .bf16) (x1 : Vec F S1024x1024 .bf16) (x2 : Vec F S1x1024 .f32) (x3 : Vec F S512x1024 .f32)
    (x4 : Vec F S1x1024 .f32) (x5 : Vec F S1x1024 .f32) : Vec F S512x1024 .f32 :=
  View.canon [⟨r2_x, k2_pay1 (View.ld x0 r2_x) (View.ld x1 r2_w) (View.ld x2 r2_b) (View.ld x3 r2_x) (View.ld x4 r2_b) (View.ld x5 r2_b)⟩]

/-- Region 2's record. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.KernelIdeal.Hand

end
-- ==== Proof.KI.Body0.lean ====
/-
  Region 0's body obligation: at every grid point the kernel body, run on the windows' current staging buffers
  holding their blocks, terminates without a fault and leaves each buffer at what the region's record says.
-/
import proofs.«431405_j45913200394352_3_alg».proof.Proof.KI.Data
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- The activations' window moves at every point, so the pipeline fetches it everywhere; in any case its
    current staging buffer holds the block of the point, because the body leaves that block untouched. -/
theorem held0_x (c : Dev nD) (t : Fin cfg0.N) (d) : (dat0 V c).before 0 t d = iblk0 V c 0 t :=
  ((dat0 V c).before_in_eq_fetched 0 rfl (fun _ => rfl) (fun _ _ _ => rfl)
      (fun s => by rw [after0_0]; unfold Dat.blockOf iblk0; rw [A_eq0]; try rfl) t d).trans
    (by unfold Dat.fetched Dat.blockOf iblk0; rw [A_eq0]; try rfl)

/-- The weights' window has one block for the whole grid and is fetched at the first point only: at a later
    point its block index has not moved, and the buffer still holds the block. -/
theorem held0_w (c : Dev nD) (t : Fin cfg0.N) (d) : (dat0 V c).before 1 t d = iblk0 V c 1 t :=
  ((dat0 V c).before_in_eq_fetched 1 rfl (fun _ => rfl) (fun _ _ _ => rfl)
      (fun s => by rw [after0_1]; unfold Dat.blockOf iblk0; rw [A_eq0]; try rfl) t d).trans
    (by unfold Dat.fetched Dat.blockOf iblk0; rw [A_eq0]; try rfl)

/-- The bias row's window, likewise one block fetched once. -/
theorem held0_b (c : Dev nD) (t : Fin cfg0.N) (d) : (dat0 V c).before 2 t d = iblk0 V c 2 t :=
  ((dat0 V c).before_in_eq_fetched 2 rfl (fun _ => rfl) (fun _ _ _ => rfl)
      (fun s => by rw [after0_2]; unfold Dat.blockOf iblk0; rw [A_eq0]; try rfl) t d).trans
    (by unfold Dat.fetched Dat.blockOf iblk0; rw [A_eq0]; try rfl)

/-! ## The output block is written whole -/

/-- The body's one store is of the whole [512, 3072] block: every index of the block lies in its rectangle. -/
theorem whole0_o (p : Vec F S512x3072 .bf16) (y : S512x3072.Idx) :
    ∃ pc ∈ ([⟨r0_o, p⟩] : List (View.Piece (Elt F) S512x3072 .bf16)), y ∈ pc.1.set :=
  View.cover_of_tiled [⟨r0_o, p⟩] S512x3072.size (by rfl) y

/-! ## The body on whole staging memrefs -/

set_option maxHeartbeats 1000000 in
/-- Run on four whole memrefs — the three inputs' reading `x0`, `x1`, `x2`, the output's at any contents — the
    body loads the three input blocks (and the output block, whose value it never uses), stores the product plus
    the bias row over the whole output block, and returns: the inputs are as they were, and the output reads as
    the canonical array of that one store, whatever it held before. -/
theorem triple0 (c : Dev nD) (E : Set ℕ) (i : grid0.Coords)
    (a1 : Memref sig .tc .vmem S512x1024 .f32) (h1 : a1.IsWhole)
    (a2 : Memref sig .tc .vmem S1024x3072 .bf16) (h2 : a2.IsWhole)
    (a3 : Memref sig .tc .vmem S1x3072 .f32) (h3 : a3.IsWhole)
    (a4 : Memref sig .tc .vmem S512x3072 .bf16) (h4 : a4.IsWhole)
    (x0 : Vec F S512x1024 .f32) (x1 : Vec F S1024x3072 .bf16) (x2 : Vec F S1x3072 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %e1, H1⟩, ⟨%f2, %e2, H2⟩, ⟨%f3, %e3, H3⟩, ⟨%d4, %f4, -, H4⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole0_o _)

/-! ## The obligation at one grid point -/

/-- What the pipeline hands the body at point `t`: the invariant, what the core owes, and each window's current
    staging buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body gives back: the same invariant and debt at the next point, each buffer at what the record says. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three inputs' buffers hold their blocks, so the body's triple applies with those blocks as the
    inputs' contents; the invariant and the debt are not read by the body and do not depend on the point. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_x, held0_w, held0_b]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (triple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact at_point0 V c t

end Cert.KernelIdeal.Hand

end
-- ==== Proof.KI.Body1.lean ====
/-
  Region 1's body obligation: at every grid point the kernel body, run on the windows' current staging buffers
  holding their blocks, terminates without a fault and leaves each buffer at what the region's record says.
-/
import proofs.«431405_j45913200394352_3_alg».proof.Proof.KI.Data
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' staging buffers hold when the body is called -/

/-- The query window's current buffer holds the query block at every point: it is fetched at every point, and a
    fetch of an uncut window puts the block read off the array in the buffer. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- The key window is fetched only where the batch or the head pair changes; elsewhere its block index has not
    moved and its buffer still holds the block of the point before, which is this point's. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- The value window likewise. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s; rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-! ## The stores cover the output buffer -/

/-- The two stores, one per head, are the left and the right 64-column halves of the 512×128 block: between them
    every element of the block is written. -/
theorem cover1_3 (p1 p0 : Vec F S512x64 .bf16) (y : S512x128.Idx) :
    ∃ pc ∈ ([⟨r1_q1, p1⟩, ⟨r1_q0, p0⟩] : List (View.Piece (Elt F) S512x128 .bf16)), y ∈ pc.1.set :=
  View.cover_of_tiled [⟨r1_q1, p1⟩, ⟨r1_q0, p0⟩] S512x64.size (by rfl) y

/-! ## The body's triple on whole staging memrefs -/

set_option maxHeartbeats 1000000 in
/-- The body, called at any grid coordinates on four whole staging memrefs — the three inputs' reading `x0`, `x1`,
    `x2`, the output's holding anything — runs to its continuation with the inputs' as they were and the output's
    reading the canonical array of the two stores over the inputs. The body reads its output buffer before each store
    and drops the value, so the buffer's prior contents do not enter the result. -/
theorem sound_kernel1 (c : Dev nD) (E : Set ℕ) (i : grid1.Coords)
    (a0 : Memref sig .tc .vmem S512x128 .bf16) (ha0 : a0.IsWhole) (a1 : Memref sig .tc .vmem S2048x128 .bf16) (ha1 : a1.IsWhole)
    (a2 : Memref sig .tc .vmem S2048x128 .bf16) (ha2 : a2.IsWhole) (a3 : Memref sig .tc .vmem S512x128 .bf16) (ha3 : a3.IsWhole)
    (x0 : Vec F S512x128 .bf16) (x1 x2 : Vec F S2048x128 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__attn_pair_kernel i a0 ha0 a1 ha1 a2 ha2 a3 ha3) K := by
  simp only [cc1__attn_pair_kernel_eq_skeleton]; unfold cc1__attn_pair_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The obligation at one grid point -/

/-- What the pipeline hands the body at point `t`: the region's invariant, what the core owes, and each of the four
    windows' current staging memrefs, whole, at what the record says it holds before the body. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body hands back: the invariant and the debt at the next point, and each memref at what the record
    says the body leaves there. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the three input memrefs hold their blocks, fetched there or not, so the body's triple applies with
    the blocks as the read contents; the invariant and the debt do not depend on the point and pass by untouched;
    the output memref, whatever it held, comes back at the canonical array of the two stores over the blocks, which
    is what the record says the body leaves. -/
theorem sound_body1 (c : Dev nD) (t : Fin cfg1.N) :
    handed1 V c t ⊢ wp frame (wpE (defs₀ (F := F)) Variants.none c none) Set.univ (bodyAt1 t) (fun _ => returned1 V c t) := by
  unfold handed1 returned1 bodyAt1
  have hΦ : (dat1 V c).Φ t.succ = (dat1 V c).Φ t.castSucc := rfl
  have hO : (dat1 V c).owesAt () t.succ = (dat1 V c).owesAt () t.castSucc := rfl
  rw [hΦ, hO, after1_0, after1_1, after1_2, after1_3]
  simp only [before1_0, before1_1, before1_2]
  iintro ⟨HΦ, Ho, ⟨%d0, Hq⟩, ⟨%d1, Hk⟩, ⟨%d2, Hv⟩, ⟨%d3, Hout⟩⟩
  iapply (sound_kernel1 c Set.univ (grid1.coords t) _ _ _ _ _ _ _ _ (iblk1 V c 0 t) (iblk1 V c 1 t) (iblk1 V c 2 t) _)
  isplitl [Hq]; · iexact Hq
  isplitl [Hk]; · iexact Hk
  isplitl [Hv]; · iexact Hv
  isplitl [Hout]; · iexists _; iexact Hout
  iintro ⟨Hq, Hk, Hv, Hout⟩
  isplitl [HΦ]; · iexact HΦ
  isplitl [Ho]; · iexact Ho
  isplitl [Hq]; · iexact Hq
  isplitl [Hk]; · iexact Hk
  isplitl [Hv]; · iexact Hv
  iexact Hout

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Body2.lean ====
/-
  Region 2's body obligation: at every grid point the kernel body, run on the windows' current staging buffers
  holding their blocks, terminates without a fault and leaves each buffer at what the region's record says.
-/
import proofs.«431405_j45913200394352_3_alg».proof.Proof.KI.Data
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point

An input window of this region is never cut and never idle, and the body leaves its buffer as it found it. So at
every point the buffer the body is handed holds the window's block there: where the pipeline fetched, the fetch put
the block in; where it did not, the window's block index has not moved since the point before, and the block left
in the buffer then is the block wanted now. One statement per input window, since a window's block type is only
known once the window is. -/

theorem before2_0 (c : Dev nD) (t : Fin cfg2.N) (d) : (dat2 V c).before 0 t d = iblk2 V c 0 t := by
  have hblock : ∀ t, (dat2 V c).blockOf 0 t = iblk2 V c 0 t := by
    intro t; unfold Dat.blockOf iblk2; rw [A_eq2]
  have hkeep : ∀ t, (cfg2.win 0).cut (cfg2.grid.coords t) ((dat2 V c).after 0 t) = (dat2 V c).blockOf 0 t := by
    intro t; rw [after2_0, hblock]
  rw [(dat2 V c).before_in_eq_fetched 0 rfl (fun _ => rfl) (fun _ _ _ => rfl) hkeep t d, ← hblock t]
  rfl

theorem before2_1 (c : Dev nD) (t : Fin cfg2.N) (d) : (dat2 V c).before 1 t d = iblk2 V c 1 t := by
  have hblock : ∀ t, (dat2 V c).blockOf 1 t = iblk2 V c 1 t := by
    intro t; unfold Dat.blockOf iblk2; rw [A_eq2]
  have hkeep : ∀ t, (cfg2.win 1).cut (cfg2.grid.coords t) ((dat2 V c).after 1 t) = (dat2 V c).blockOf 1 t := by
    intro t; rw [after2_1, hblock]
  rw [(dat2 V c).before_in_eq_fetched 1 rfl (fun _ => rfl) (fun _ _ _ => rfl) hkeep t d, ← hblock t]
  rfl

theorem before2_2 (c : Dev nD) (t : Fin cfg2.N) (d) : (dat2 V c).before 2 t d = iblk2 V c 2 t := by
  have hblock : ∀ t, (dat2 V c).blockOf 2 t = iblk2 V c 2 t := by
    intro t; unfold Dat.blockOf iblk2; rw [A_eq2]
  have hkeep : ∀ t, (cfg2.win 2).cut (cfg2.grid.coords t) ((dat2 V c).after 2 t) = (dat2 V c).blockOf 2 t := by
    intro t; rw [after2_2, hblock]
  rw [(dat2 V c).before_in_eq_fetched 2 rfl (fun _ => rfl) (fun _ _ _ => rfl) hkeep t d, ← hblock t]
  rfl

theorem before2_3 (c : Dev nD) (t : Fin cfg2.N) (d) : (dat2 V c).before 3 t d = iblk2 V c 3 t := by
  have hblock : ∀ t, (dat2 V c).blockOf 3 t = iblk2 V c 3 t := by
    intro t; unfold Dat.blockOf iblk2; rw [A_eq2]
  have hkeep : ∀ t, (cfg2.win 3).cut (cfg2.grid.coords t) ((dat2 V c).after 3 t) = (dat2 V c).blockOf 3 t := by
    intro t; rw [after2_3, hblock]
  rw [(dat2 V c).before_in_eq_fetched 3 rfl (fun _ => rfl) (fun _ _ _ => rfl) hkeep t d, ← hblock t]
  rfl

theorem before2_4 (c : Dev nD) (t : Fin cfg2.N) (d) : (dat2 V c).before 4 t d = iblk2 V c 4 t := by
  have hblock : ∀ t, (dat2 V c).blockOf 4 t = iblk2 V c 4 t := by
    intro t; unfold Dat.blockOf iblk2; rw [A_eq2]
  have hkeep : ∀ t, (cfg2.win 4).cut (cfg2.grid.coords t) ((dat2 V c).after 4 t) = (dat2 V c).blockOf 4 t := by
    intro t; rw [after2_4, hblock]
  rw [(dat2 V c).before_in_eq_fetched 4 rfl (fun _ => rfl) (fun _ _ _ => rfl) hkeep t d, ← hblock t]
  rfl

theorem before2_5 (c : Dev nD) (t : Fin cfg2.N) (d) : (dat2 V c).before 5 t d = iblk2 V c 5 t := by
  have hblock : ∀ t, (dat2 V c).blockOf 5 t = iblk2 V c 5 t := by
    intro t; unfold Dat.blockOf iblk2; rw [A_eq2]
  have hkeep : ∀ t, (cfg2.win 5).cut (cfg2.grid.coords t) ((dat2 V c).after 5 t) = (dat2 V c).blockOf 5 t := by
    intro t; rw [after2_5, hblock]
  rw [(dat2 V c).before_in_eq_fetched 5 rfl (fun _ => rfl) (fun _ _ _ => rfl) hkeep t d, ← hblock t]
  rfl

/-! ## What the body's one store covers -/

/-- The body stores once, through the rectangle that is the whole output block, so every index of the block lies in
    that store's rectangle: with the block itself as the tile, there is one tile and the store is it. -/
theorem cover2_6 (p : Vec F S512x1024 .f32) (y : S512x1024.Idx) :
    ∃ pc ∈ ([⟨r2_x, p⟩] : List (View.Piece (Elt F) S512x1024 .f32)), y ∈ pc.1.set :=
  View.cover_of_tiled [⟨r2_x, p⟩] S512x1024.size (by rfl) y

/-! ## The body on whole buffers

The body reads each of its six inputs whole, reads the output buffer whole (a value it never uses), and stores the
normalised rows over the whole output buffer. Given the six input buffers at read contents `x0 … x5` and the output
buffer at anything, it therefore ends with the inputs as they were and the output at what its one store leaves,
`out2_6 x0 … x5`: nothing of what the output buffer held before survives, since the store covers it. -/

set_option maxHeartbeats 1000000 in
theorem triple2 (c : Dev nD) (E : Set ℕ) (i : grid2.Coords)
    (a0 : Memref sig .tc .vmem S512x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S512x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S512x1024 .f32) (h6 : a6.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out2_6 x0 x1 x2 x3 x4 x5)) -∗ K ⟨⟩))
      ⊢ wp frame (wpE (defs₀ (F := F)) Variants.none c none) E
          (cc2__o_proj_ln_kernel i a0 h0 a1 h1 a2 h2 a3 h3 a4 h4 a5 h5 a6 h6) K := by
  simp only [cc2__o_proj_ln_kernel_eq_skeleton]; unfold cc2__o_proj_ln_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  -- the output buffer: what it holds is fixed by the resource, so hand that over first; what it reads then is the
  -- canonical array of the one store, because the store covers the block
  iexists _; isplitr
  rotate_left
  · iexact H6
  ipureintro
  exact View.read_writes_eq_canon _ _ _ (cover2_6 _)

/-! ## The body at a grid point

At point `t` the pipeline hands the body the region's invariant, the core's debts (none), and every window's current
buffer at what it then holds. The six inputs' buffers hold their blocks (above), so the body's triple applies with
those blocks as the read contents; the invariant and the debts are not touched and do not change from one point to
the next; and what the triple returns is, window by window, what the region's record says the body leaves. -/

/-- What the body is called with at point `t`, the windows one by one. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  -- the inputs' buffers hold their blocks
  simp only [before2_0, before2_1, before2_2, before2_3, before2_4, before2_5]
  -- the invariant and the debts are the same at every point; what the record says the body leaves, spelt out
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple2 (c := c) (E := Set.univ) (x0 := iblk2 V c 0 t) (x1 := iblk2 V c 1 t) (x2 := iblk2 V c 2 t)
    (x3 := iblk2 V c 3 t) (x4 := iblk2 V c 4 t) (x5 := iblk2 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  -- back from the body: the buffers as the triple left them, with the invariant and the debts beside them
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 2, at every point. -/
theorem body_obligation2 (c : Dev nD) : BodyObligation (dat2 (F := F) V c) (defs₀ (F := F)) Variants.none () Set.univ := by
  intro t
  rw [bigSep_W2, bigSep_W2]
  exact at_point2 V c t

end Cert.KernelIdeal.Hand

end
-- ==== Proof.KI.Run.lean ====
/-
  The run of @main: three kernel regions among three stretches of host operations.

  Between two items every unscoped buffer of the TensorCore is held whole at a known valuation: the launch memory,
  then each host stretch applied, then, after a region, the same valuation with the region's output array replaced
  by what the pipeline's write-backs leave there. Region 1 reads one array through three windows: at its entry
  that array's points-to is dealt into three parts of its share, one per window, and joined again at the exit.
  Every weakly fair execution terminates without a fault and ends with each unscoped buffer at the last
  valuation; the argument arrays are never written, so they end as launched.
-/
import proofs.«431405_j45913200394352_3_alg».proof.Proof.KI.Body0
import proofs.«431405_j45913200394352_3_alg».proof.Proof.KI.Body1
import proofs.«431405_j45913200394352_3_alg».proof.Proof.KI.Body2
import proofs.«431405_j45913200394352_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references. -/
abbrev atTc (W : Dev nD → Valuation τ sig (Elt F)) : (c : Dev nD) → (b : Ref sig .tc) → Buf (Elt F) ((c : Thread nD τ).loc b) :=
  fun c b => W c b

/-- Before region 0: the launch memory with the first host stretch applied. -/
abbrev VA (c : Dev nD) : Valuation τ sig (Elt F) := Gen.V1 m c
/-- What region 0 leaves in its output array. -/
def o10 (c : Dev nD) : Buf (Elt F) ((c : Thread nD τ).loc main_v10) := (dat0 (atTc (VA m)) c).arrAt 3 cfg0.N
/-- After region 0. -/
abbrev VB (c : Dev nD) : Valuation τ sig (Elt F) := Function.update (VA m c) main_v10 (o10 m c)
/-- What region 1 leaves in its output array. -/
def o11 (c : Dev nD) : Buf (Elt F) ((c : Thread nD τ).loc main_v11) := (dat1 (atTc (VB m)) c).arrAt 3 cfg1.N
/-- After region 1. -/
abbrev VC (c : Dev nD) : Valuation τ sig (Elt F) := Function.update (VB m c) main_v11 (o11 m c)
/-- Before region 2: the second host stretch applied. -/
abbrev VD (c : Dev nD) : Valuation τ sig (Elt F) := StableHlo.after hostOps2 (VC m c)
/-- What region 2 leaves in its output array. -/
def o17 (c : Dev nD) : Buf (Elt F) ((c : Thread nD τ).loc main_v17) := (dat2 (atTc (VD m)) c).arrAt 6 cfg2.N

/-- What the regions leave, as the table the valuations of the host side are written over. -/
def outs : Gen.Outs (F := F) := fun _ r c =>
  if h : r = main_v10 then h ▸ o10 m c
  else if h : r = main_v11 then h ▸ o11 m c
  else if h : r = main_v17 then h ▸ o17 m c
  else m ((c : Thread nD τ).loc r)

theorem outs_v10 (J : ℕ) (c : Dev nD) : outs m J main_v10 c = o10 m c := by unfold outs; rw [dif_pos rfl]
theorem outs_v11 (J : ℕ) (c : Dev nD) : outs m J main_v11 c = o11 m c := by
  unfold outs; rw [dif_neg (by decide), dif_pos rfl]
theorem outs_v17 (J : ℕ) (c : Dev nD) : outs m J main_v17 c = o17 m c := by
  unfold outs; rw [dif_neg (by decide), dif_neg (by decide), dif_pos rfl]

theorem V2_eq (c : Dev nD) : Gen.V2 m (outs m) c = VB m c := by
  show Function.update (Gen.V1 m c) main_v10 (outs m 2 main_v10 c) = _
  rw [outs_v10]
theorem V3_eq (c : Dev nD) : Gen.V3 m (outs m) c = VC m c := by
  show Function.update (Gen.V2 m (outs m) c) main_v11 (outs m 3 main_v11 c) = _
  rw [outs_v11, V2_eq]
theorem V4_eq (c : Dev nD) : Gen.V4 m (outs m) c = VD m c := by
  show StableHlo.after hostOps2 (Gen.V3 m (outs m) c) = _
  rw [V3_eq]

/-! ## The proof data family and what rides beside the buffers -/

/-- No pipeline has a prefetched table. -/
abbrev adm : (p : Fin 3) → (pcfgs (F := F) p).Adm := Gen.adm
/-- Every pipeline's record, each at its region's entry contents. -/
def pdats : (p : Fin 3) → (c : Dev nD) → Dat τ (Elt F) Unit ℕ (UR sig nD τ) ℕ (cfgs p) c
  | ⟨0, _⟩ => fun c => dat0 (atTc (VA m)) c
  | ⟨1, _⟩ => fun c => dat1 (atTc (VB m)) c
  | ⟨2, _⟩ => fun c => dat2 (atTc (VD m)) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state and its debts, none. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Region 0 -/

theorem VB_of (c : Dev nD) (r : Ref sig .tc) (h : r ∉ ([main_v10] : List (Ref sig .tc))) : atTc (VB m) c r = atTc (VA m) c r :=
  (congrFun (V2_eq m c) r).symm.trans (Gen.V2_of m (outs m) c r h)
theorem VB_v10 (c : Dev nD) : atTc (VB m) c main_v10 = o10 m c := Function.update_self _ _ _

theorem hF0 (c : Dev nD) (w : Fin cfg0.W) : (dat0 (atTc (VA m)) c).arrAt w cfg0.N = atTc (VB m) c (Pipeline.arrRef spec0 w) := by
  match w with
  | ⟨0, _⟩ => exact ((dat0 (atTc (VA m)) c).arrAt_in 0 rfl _).trans ((A_eq0 _ c 0).trans (VB_of m c main_v0 (by decide)).symm)
  | ⟨1, _⟩ => exact ((dat0 (atTc (VA m)) c).arrAt_in 1 rfl _).trans ((A_eq0 _ c 1).trans (VB_of m c main_v7 (by decide)).symm)
  | ⟨2, _⟩ => exact ((dat0 (atTc (VA m)) c).arrAt_in 2 rfl _).trans ((A_eq0 _ c 2).trans (VB_of m c main_v9 (by decide)).symm)
  | ⟨3, _⟩ => exact (VB_v10 m c).symm
theorem hrest0 (c : Dev nD) : ∀ b, b ∉ Finset.univ.image (Pipeline.arrRef spec0) → atTc (VB m) c b = atTc (VA m) c b :=
  fun b hb => VB_of m c b (by
    intro hmem
    exact hb (Finset.mem_image.mpr ⟨3, Finset.mem_univ _, (List.mem_singleton.mp hmem).symm⟩))

set_option backward.isDefEq.respectTransparency.types false in
/-- Region 0 over the thread state: entered with every unscoped buffer at the valuation before it, left at the one after it. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (VA m)) c).loose
  hwaits := Pipeline.hwaits_of_owed_zero _ _ _ _ L lv 0 fun _ _ => rfl
  pre c := iprop(StableHlo.held (c : Thread nD τ) (Pipeline.ucRefs τ sig) (VA m c) ∗ R c)
  post c := iprop(StableHlo.held (c : Thread nD τ) (Pipeline.ucRefs τ sig) (VB m c) ∗ R c)
  X c := iprop(∃ r, prngReg c r)
  Y c := iprop(∃ r, prngReg c r)
  Z c := Pipeline.unscopedRest (Ix := Unit) (Name := ℕ) (U := UR sig nD τ) (Lvl := ℕ) spec0 c (atTc (VA m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (VA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (VA m) c) (atTc (VB m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- After region 2. -/
abbrev VE (c : Dev nD) : Valuation τ sig (Elt F) := Function.update (VD m c) main_v17 (o17 m c)

theorem V5_eq (c : Dev nD) : Gen.V5 m (outs m) c = VE m c := by
  show Function.update (Gen.V4 m (outs m) c) main_v17 (outs m 5 main_v17 c) = _
  rw [outs_v17, V4_eq]

theorem VE_of (c : Dev nD) (r : Ref sig .tc) (h : r ∉ ([main_v17] : List (Ref sig .tc))) : atTc (VE m) c r = atTc (VD m) c r :=
  (congrFun (V5_eq m c) r).symm.trans ((Gen.V5_of m (outs m) c r h).trans (congrFun (V4_eq m c) r))
theorem VE_v17 (c : Dev nD) : atTc (VE m) c main_v17 = o17 m c := Function.update_self _ _ _

theorem hF2 (c : Dev nD) (w : Fin cfg2.W) : (dat2 (atTc (VD m)) c).arrAt w cfg2.N = atTc (VE m) c (Pipeline.arrRef spec2 w) := by
  match w with
  | ⟨0, _⟩ => exact ((dat2 (atTc (VD m)) c).arrAt_in 0 rfl _).trans ((A_eq2 _ c 0).trans (VE_of m c main_v11 (by decide)).symm)
  | ⟨1, _⟩ => exact ((dat2 (atTc (VD m)) c).arrAt_in 1 rfl _).trans ((A_eq2 _ c 1).trans (VE_of m c main_v13 (by decide)).symm)
  | ⟨2, _⟩ => exact ((dat2 (atTc (VD m)) c).arrAt_in 2 rfl _).trans ((A_eq2 _ c 2).trans (VE_of m c main_v14 (by decide)).symm)
  | ⟨3, _⟩ => exact ((dat2 (atTc (VD m)) c).arrAt_in 3 rfl _).trans ((A_eq2 _ c 3).trans (VE_of m c main_v0 (by decide)).symm)
  | ⟨4, _⟩ => exact ((dat2 (atTc (VD m)) c).arrAt_in 4 rfl _).trans ((A_eq2 _ c 4).trans (VE_of m c main_v15 (by decide)).symm)
  | ⟨5, _⟩ => exact ((dat2 (atTc (VD m)) c).arrAt_in 5 rfl _).trans ((A_eq2 _ c 5).trans (VE_of m c main_v16 (by decide)).symm)
  | ⟨6, _⟩ => exact (VE_v17 m c).symm
theorem hrest2 (c : Dev nD) : ∀ b, b ∉ Finset.univ.image (Pipeline.arrRef spec2) → atTc (VE m) c b = atTc (VD m) c b :=
  fun b hb => VE_of m c b (by
    intro hmem
    exact hb (Finset.mem_image.mpr ⟨6, Finset.mem_univ _, (List.mem_singleton.mp hmem).symm⟩))

set_option backward.isDefEq.respectTransparency.types false in
/-- Region 2 over the thread state. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (VD m)) c).loose
  hwaits := Pipeline.hwaits_of_owed_zero _ _ _ _ L lv 2 fun _ _ => rfl
  pre c := iprop(StableHlo.held (c : Thread nD τ) (Pipeline.ucRefs τ sig) (VD m c) ∗ R c)
  post c := iprop(StableHlo.held (c : Thread nD τ) (Pipeline.ucRefs τ sig) (VE m c) ∗ R c)
  X c := iprop(∃ r, prngReg c r)
  Y c := iprop(∃ r, prngReg c r)
  Z c := Pipeline.unscopedRest (Ix := Unit) (Name := ℕ) (U := UR sig nD τ) (Lvl := ℕ) spec2 c (atTc (VD m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (VD m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (VD m) c) (atTc (VE m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind three input windows -/

/-- A record of region 1 holds its arrays so: the shared array three times, once at each input window's share, and
    the output array. -/
theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄)
      = iprop((((c : Thread nD τ).loc main_v10) ↦{dat.share 0} G 0) ∗ (((c : Thread nD τ).loc main_v10) ↦{dat.share 1} G 1)
          ∗ (((c : Thread nD τ).loc main_v10) ↦{dat.share 2} G 2) ∗ (((c : Thread nD τ).loc main_v11) ↦{dat.share 3} G 3)) := by
  unfold Dat.arrays
  rw [bigSep_W1, show (cfg1.win 0).arr.view.set = Finset.univ from (arr_whole1 0).set_eq_univ,
    show (cfg1.win 3).arr.view.set = Finset.univ from (arr_whole1 3).set_eq_univ]

/-- The three input windows' parts of the shared array's share, and the output's full share. -/
theorem share1_0 (V) (c : Dev nD) : (dat1 (F := F) V c).share 0 = fullShare.left := rfl
theorem share1_1 (V) (c : Dev nD) : (dat1 (F := F) V c).share 1 = fullShare.right.left := rfl
theorem share1_2 (V) (c : Dev nD) : (dat1 (F := F) V c).share 2 = fullShare.right.right := rfl
theorem share1_3 (V) (c : Dev nD) : (dat1 (F := F) V c).share 3 = fullShare := rfl

/-- The two distinct buffers behind region 1's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v11) ↦{fullShare} V main_v11)) := by
  unfold Pipeline.arrBufs
  rw [show Finset.univ.image (Pipeline.arrRef spec1) = insert main_v10 {main_v11} from by decide,
    bigSep_insert (by decide), bigSep_singleton]
  rfl

/-- A whole buffer's points-to dealt into the three parts of its share, and joined again. -/
theorem deal3 {ℓ : Loc nD τ sig} (f : Buf (Elt F) ℓ) :
    ((ℓ ↦{fullShare} f) : sProp 𝕄) ⊣⊢ iprop((ℓ ↦{fullShare.left} f) ∗ (ℓ ↦{fullShare.right.left} f) ∗ (ℓ ↦{fullShare.right.right} f)) := by
  have h1 : ((ℓ ↦{fullShare} f) : sProp 𝕄) ⊣⊢ iprop((ℓ ↦{fullShare.left} f) ∗ (ℓ ↦{fullShare.right} f)) :=
    pointsTo_share (PosShare.mem_left_op_right fullShare)
  have h2 : ((ℓ ↦{fullShare.right} f) : sProp 𝕄) ⊣⊢ iprop((ℓ ↦{fullShare.right.left} f) ∗ (ℓ ↦{fullShare.right.right} f)) :=
    pointsTo_share (PosShare.mem_left_op_right fullShare.right)
  exact ⟨h1.1.trans (sep_mono .rfl h2.1), (sep_mono .rfl h2.2).trans h1.2⟩

theorem VC_of (c : Dev nD) (r : Ref sig .tc) (h : r ∉ ([main_v11] : List (Ref sig .tc))) : atTc (VC m) c r = atTc (VB m) c r :=
  (congrFun (V3_eq m c) r).symm.trans ((Gen.V3_of m (outs m) c r h).trans (congrFun (V2_eq m c) r))
theorem VC_v11 (c : Dev nD) : atTc (VC m) c main_v11 = o11 m c := Function.update_self _ _ _

/-- ENTRY: every unscoped buffer at the valuation before the region gives the four windows' arrays — the shared
    array's points-to dealt into the three windows' parts of its share — and the unscoped rest. -/
theorem entry1 (c : Dev nD) :
    (StableHlo.held (c : Thread nD τ) (Pipeline.ucRefs τ sig) (VB m c) : sProp 𝕄)
      ⊢ iprop((pdats m 1 c).arrays ((pdats m 1 c).arrAt · 0)
          ∗ Pipeline.unscopedRest (Ix := Unit) (Name := ℕ) (U := UR sig nD τ) (Lvl := ℕ) spec1 c (atTc (VB m) c)) := by
  have hs : (unscopedBufs (Ix := Unit) (Name := ℕ) (U := UR sig nD τ) (Lvl := ℕ) c (atTc (VB m) c) : sProp 𝕄)
      = iprop(Pipeline.arrBufs spec1 c (atTc (VB m) c) ∗ Pipeline.unscopedRest spec1 c (atTc (VB m) c)) :=
    Pipeline.unscopedBufs_split₀ cfgs 1 winFacts₀1.arr_unscoped c (atTc (VB m) c)
  rw [Pipeline.unscopedBufs_held] at hs
  show _ ⊢ iprop((dat1 (atTc (VB m)) c).arrays ((dat1 (atTc (VB m)) c).arrAt · 0) ∗ _)
  rw [hs, arrays1_eq, arrBufs1_eq, share1_0, share1_1, share1_2, share1_3]
  refine sep_mono ?_ .rfl
  iintro ⟨H10, H11⟩
  ihave H := (deal3 (F := F) (atTc (VB m) c main_v10)).1 $$ H10
  icases H with ⟨Ha, Hb, Hc⟩
  isplitl [Ha]; · iexact Ha
  isplitl [Hb]; · iexact Hb
  isplitl [Hc]; · iexact Hc
  iexact H11

theorem hF1 (c : Dev nD) (w : Fin cfg1.W) : (dat1 (atTc (VB m)) c).arrAt w cfg1.N = atTc (VC m) c (Pipeline.arrRef spec1 w) := by
  match w with
  | ⟨0, _⟩ => exact ((dat1 (atTc (VB m)) c).arrAt_in 0 rfl _).trans ((A_eq1 _ c 0).trans (VC_of m c main_v10 (by decide)).symm)
  | ⟨1, _⟩ => exact ((dat1 (atTc (VB m)) c).arrAt_in 1 rfl _).trans ((A_eq1 _ c 1).trans (VC_of m c main_v10 (by decide)).symm)
  | ⟨2, _⟩ => exact ((dat1 (atTc (VB m)) c).arrAt_in 2 rfl _).trans ((A_eq1 _ c 2).trans (VC_of m c main_v10 (by decide)).symm)
  | ⟨3, _⟩ => exact (VC_v11 m c).symm

/-- EXIT: the four windows' arrays at what the pipeline leaves and the unscoped rest give every unscoped buffer at
    the valuation after the region — the three parts of the shared array's share joined again. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (atTc (VB m) c))
      ⊢ (StableHlo.held (c : Thread nD τ) (Pipeline.ucRefs τ sig) (VC m c) : sProp 𝕄) := by
  have hs : (unscopedBufs (Ix := Unit) (Name := ℕ) (U := UR sig nD τ) (Lvl := ℕ) c (atTc (VC m) c) : sProp 𝕄)
      = iprop(Pipeline.arrBufs spec1 c (atTc (VC m) c) ∗ Pipeline.unscopedRest spec1 c (atTc (VC m) c)) :=
    Pipeline.unscopedBufs_split₀ cfgs 1 winFacts₀1.arr_unscoped c (atTc (VC m) c)
  rw [Pipeline.unscopedBufs_held] at hs
  have hrest : (Pipeline.unscopedRest (Ix := Unit) (Name := ℕ) (U := UR sig nD τ) (Lvl := ℕ) spec1 c (atTc (VB m) c) : sProp 𝕄)
      = Pipeline.unscopedRest spec1 c (atTc (VC m) c) := by
    unfold Pipeline.unscopedRest
    refine bigSep_congr fun b hb => ?_
    have hne : b ∉ ([main_v11] : List (Ref sig .tc)) := fun hmem =>
      (Finset.mem_sdiff.mp hb).2 (Finset.mem_image.mpr ⟨3, Finset.mem_univ _, (List.mem_singleton.mp hmem).symm⟩)
    rw [VC_of m c b hne]
  show iprop((dat1 (atTc (VB m)) c).arrays ((dat1 (atTc (VB m)) c).arrAt · cfg1.N) ∗ _) ⊢ _
  rw [hs, arrays1_eq, arrBufs1_eq, share1_0, share1_1, share1_2, share1_3, hrest, hF1 m c 0, hF1 m c 1, hF1 m c 2, hF1 m c 3]
  refine sep_mono ?_ .rfl
  iintro ⟨Ha, Hb, Hc, H11⟩
  isplitl [Ha Hb Hc]
  · iapply (deal3 (F := F) (atTc (VC m) c main_v10)).2
    isplitl [Ha]; · iexact Ha
    isplitl [Hb]; · iexact Hb
    iexact Hc
  iexact H11

set_option backward.isDefEq.respectTransparency.types false in
/-- Region 1 over the thread state. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (VB m)) c).loose
  hwaits := Pipeline.hwaits_of_owed_zero _ _ _ _ L lv 1 fun _ _ => rfl
  pre c := iprop(StableHlo.held (c : Thread nD τ) (Pipeline.ucRefs τ sig) (VB m c) ∗ R c)
  post c := iprop(StableHlo.held (c : Thread nD τ) (Pipeline.ucRefs τ sig) (VC m c) ∗ R c)
  X c := iprop(∃ r, prngReg c r)
  Y c := iprop(∃ r, prngReg c r)
  Z c := Pipeline.unscopedRest (Ix := Unit) (Name := ℕ) (U := UR sig nD τ) (Lvl := ℕ) spec1 c (atTc (VB m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## The launch -/

theorem chain13 (c : Dev nD) :
    iprop(StableHlo.held (c : Thread nD τ) (Pipeline.ucRefs τ sig) (VC m c) ∗ R c)
      ⊢ (iprop(StableHlo.held (c : Thread nD τ) (Pipeline.ucRefs τ sig) (Gen.V3 m (outs m) c) ∗ R c) : sProp 𝕄) :=
  Entails.of_eq (by rw [V3_eq])
theorem chain34 (c : Dev nD) :
    iprop(StableHlo.held (c : Thread nD τ) (Pipeline.ucRefs τ sig) (Gen.V4 m (outs m) c) ∗ R c)
      ⊢ (iprop(StableHlo.held (c : Thread nD τ) (Pipeline.ucRefs τ sig) (VD m c) ∗ R c) : sProp 𝕄) :=
  Entails.of_eq (by rw [V4_eq])
theorem chain45 (c : Dev nD) :
    iprop(StableHlo.held (c : Thread nD τ) (Pipeline.ucRefs τ sig) (VE m c) ∗ R c)
      ⊢ (iprop(StableHlo.held (c : Thread nD τ) (Pipeline.ucRefs τ sig) (Gen.V5 m (outs m) c) ∗ R c) : sProp 𝕄) :=
  Entails.of_eq (by rw [V5_eq])
theorem chainEnd (c : Dev nD) :
    iprop(StableHlo.held (c : Thread nD τ) (Pipeline.ucRefs τ sig) (Gen.V6 m (outs m) c) ∗ R c)
      ⊢ (iprop((StableHlo.held (c : Thread nD τ) (Pipeline.ucRefs τ sig) (Gen.V6 m (outs m) c) ∗ ∃ r, prngReg c r)
          ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    final memory holds each unscoped buffer of the TensorCore at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V6 m (outs m) c b) :=
  Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m))
    (fun c Q => by
      rewrite [main_chain c, Seg.run_eq_chain,
        show (Gen.segs m (outs m) 𝒱₀ L lv E () (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V6 m (outs m) c) ∗ ∃ r, prngReg c r))
    (hch := fun c => ⟨.rfl, .rfl, .rfl, chain13 m c, chain34 m c, chain45 m c, chainEnd m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

/-- The frame: every execution terminates without a fault and the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

/-- The run with the result named: the result array ends at the last valuation's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v18) = Gen.V6 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v18 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c),
     (h c _ (mem_uc main_arg8 (by decide))).trans (Gen.V6_main_arg8 m (outs m) c),
     (h c _ (mem_uc main_arg9 (by decide))).trans (Gen.V6_main_arg9 m (outs m) c),
     (h c _ (mem_uc main_arg10 (by decide))).trans (Gen.V6_main_arg10 m (outs m) c)⟩) (run_all m ρ)

end Cert.KernelIdeal.Hand

end
-- ==== Proof.Spec.lean ====
/-
  Multi-head self-attention with a residual connection and a layer normalisation, as functions of the
  parameters, entry by entry, over the extended reals.

  Everything is stated on the flat layout: a row r < 8192 is (batch, position) = (r / 2048, r % 2048), a column
  j < 1024 is (head, lane) = (j / 64, j % 64). Two arrangements of the same mathematics are given:

  * scaled first, normalised last: the query projection is taken with weights and bias already multiplied by a
    constant c, the scores are plain inner products, and the weighted sum of the values is divided by the sum of
    the exponentials afterwards;
  * scaled and normalised in place: the scores are divided by the square root of a constant, each exponential
    is divided by the sum of the exponentials, and then the values are summed with those weights.

  With c = 1/8, the constant 64 and finite parameters the two agree (proved elsewhere).
-/
import Idealize.ShloMosaic.PureOps.Ideal

noncomputable section

namespace Cert.Mha

open Idealize.ShloMosaic

/-! ## Rows and columns -/

/-- The row of position t in batch b. -/
def row (b : Fin 4) (t : Fin 2048) : Fin 8192 := ⟨b.val * 2048 + t.val, by omega⟩
/-- The column of lane d in head h. -/
def col (h : Fin 16) (d : Fin 64) : Fin 1024 := ⟨h.val * 64 + d.val, by omega⟩
/-- The batch a row lies in, and its position there. -/
def bat (r : Fin 8192) : Fin 4 := ⟨r.val / 2048, by omega⟩
def pos (r : Fin 8192) : Fin 2048 := ⟨r.val % 2048, Nat.mod_lt _ (by decide)⟩
/-- The head a column lies in, and its lane there. -/
def head (j : Fin 1024) : Fin 16 := ⟨j.val / 64, by omega⟩
def lane (j : Fin 1024) : Fin 64 := ⟨j.val % 64, Nat.mod_lt _ (by decide)⟩

theorem row_bat_pos (r : Fin 8192) : row (bat r) (pos r) = r := Fin.ext (Nat.div_add_mod' r.val 2048)
theorem col_head_lane (j : Fin 1024) : col (head j) (lane j) = j := Fin.ext (Nat.div_add_mod' j.val 64)
theorem bat_row (b : Fin 4) (t : Fin 2048) : bat (row b t) = b := Fin.ext (by
  show (b.val * 2048 + t.val) / 2048 = b.val
  have := t.isLt; omega)
theorem pos_row (b : Fin 4) (t : Fin 2048) : pos (row b t) = t := Fin.ext (by
  show (b.val * 2048 + t.val) % 2048 = t.val
  have := t.isLt; omega)
theorem head_col (h : Fin 16) (d : Fin 64) : head (col h d) = h := Fin.ext (by
  show (h.val * 64 + d.val) / 64 = h.val
  have := d.isLt; omega)
theorem lane_col (h : Fin 16) (d : Fin 64) : lane (col h d) = d := Fin.ext (by
  show (h.val * 64 + d.val) % 64 = d.val
  have := d.isLt; omega)

/-! ## The float words of the two programs -/

/-- 0.125, the scale folded into the query projection. -/
abbrev wEighth : EReal := Ideal.ofBits .f32 0x3E000000#32
/-- 64.0, whose square root divides the scores. -/
abbrev w64 : EReal := Ideal.ofBits .f32 0x42800000#32
/-- 1024.0, the row length the mean and the variance divide by. -/
abbrev w1024 : EReal := Ideal.ofBits .f32 0x44800000#32
/-- The variance's additive constant. -/
abbrev wEps : EReal := Ideal.ofBits .f32 0x3727C5AC#32

/-! ## The parameters -/

/-- The input rows, the four weight matrices stored [out, in], and the six vectors. -/
structure Params where
  X : Fin 8192 → Fin 1024 → EReal
  Wq : Fin 1024 → Fin 1024 → EReal
  Wk : Fin 1024 → Fin 1024 → EReal
  Wv : Fin 1024 → Fin 1024 → EReal
  Wo : Fin 1024 → Fin 1024 → EReal
  bq : Fin 1024 → EReal
  bk : Fin 1024 → EReal
  bv : Fin 1024 → EReal
  bo : Fin 1024 → EReal
  gamma : Fin 1024 → EReal
  beta : Fin 1024 → EReal

/-- Every parameter entry is a real number. -/
structure Params.Finite (P : Params) : Prop where
  X : ∀ r k, ∃ a : ℝ, P.X r k = a
  Wq : ∀ j k, ∃ a : ℝ, P.Wq j k = a
  Wk : ∀ j k, ∃ a : ℝ, P.Wk j k = a
  Wv : ∀ j k, ∃ a : ℝ, P.Wv j k = a
  Wo : ∀ j k, ∃ a : ℝ, P.Wo j k = a
  bq : ∀ j, ∃ a : ℝ, P.bq j = a
  bk : ∀ j, ∃ a : ℝ, P.bk j = a
  bv : ∀ j, ∃ a : ℝ, P.bv j = a
  bo : ∀ j, ∃ a : ℝ, P.bo j = a
  gamma : ∀ j, ∃ a : ℝ, P.gamma j = a
  beta : ∀ j, ∃ a : ℝ, P.beta j = a

/-! ## The stages -/

/-- A linear layer with weights stored [out, in]: row r of the input against row j of the weights, plus the bias. -/
def lin (X : Fin 8192 → Fin 1024 → EReal) (W : Fin 1024 → Fin 1024 → EReal) (b : Fin 1024 → EReal)
    (r : Fin 8192) (j : Fin 1024) : EReal :=
  (∑ k : Fin 1024, X r k * W j k) + b j

/-- The score of query row r against the key at position t of the same batch, within head h. -/
def score (q k : Fin 8192 → Fin 1024 → EReal) (r : Fin 8192) (h : Fin 16) (t : Fin 2048) : EReal :=
  ∑ d : Fin 64, q r (col h d) * k (row (bat r) t) (col h d)

/-- The largest of a row of scores (the bottom element when taken over nothing). -/
def smax (s : Fin 2048 → EReal) : EReal := (Finset.univ : Finset (Fin 2048)).fold max ⊥ s

/-- The exponentials of a row of scores, shifted by their maximum. -/
def pexp (s : Fin 2048 → EReal) (t : Fin 2048) : EReal := Ideal.exp (s t - smax s)

/-- Attention, normalised last: the values weighted by the exponentials, the sum then divided by the
    exponentials' sum. -/
def attnLast (q k v : Fin 8192 → Fin 1024 → EReal) (r : Fin 8192) (j : Fin 1024) : EReal :=
  Ideal.div (∑ t : Fin 2048, pexp (score q k r (head j)) t * v (row (bat r) t) j)
    (∑ t : Fin 2048, pexp (score q k r (head j)) t)

/-- The scores divided by the square root of 64. -/
def scoreDiv (q k : Fin 8192 → Fin 1024 → EReal) (r : Fin 8192) (h : Fin 16) (t : Fin 2048) : EReal :=
  Ideal.div (score q k r h t) (Ideal.sqrt w64)

/-- Attention, normalised in place: each exponential divided by the exponentials' sum, the values then summed
    with those weights. -/
def attnFirst (q k v : Fin 8192 → Fin 1024 → EReal) (r : Fin 8192) (j : Fin 1024) : EReal :=
  ∑ t : Fin 2048, Ideal.div (pexp (scoreDiv q k r (head j)) t) (∑ t' : Fin 2048, pexp (scoreDiv q k r (head j)) t')
    * v (row (bat r) t) j

/-- The output projection with its bias, plus the residual input. -/
def resid (ctx : Fin 8192 → Fin 1024 → EReal) (Wo : Fin 1024 → Fin 1024 → EReal) (bo : Fin 1024 → EReal)
    (X : Fin 8192 → Fin 1024 → EReal) (r : Fin 8192) (e : Fin 1024) : EReal :=
  ((∑ j : Fin 1024, ctx r j * Wo e j) + bo e) + X r e

/-- A row's mean. -/
def rowMean (y : Fin 8192 → Fin 1024 → EReal) (r : Fin 8192) : EReal := Ideal.div (∑ e : Fin 1024, y r e) w1024

/-- A row's variance about its mean. -/
def rowVar (y : Fin 8192 → Fin 1024 → EReal) (r : Fin 8192) : EReal :=
  Ideal.div (∑ e : Fin 1024, (y r e - rowMean y r) * (y r e - rowMean y r)) w1024

/-- Layer normalisation of each row, with gain and offset. -/
def lnorm (y : Fin 8192 → Fin 1024 → EReal) (g be : Fin 1024 → EReal) (r : Fin 8192) (e : Fin 1024) : EReal :=
  (y r e - rowMean y r) * Ideal.rsqrt (rowVar y r + wEps) * g e + be e

/-! ## The two arrangements -/

/-- Scaled first, normalised last. -/
def scaledFirst (P : Params) (r : Fin 8192) (e : Fin 1024) : EReal :=
  lnorm (resid (attnLast (lin P.X (fun j k => P.Wq j k * wEighth) (fun j => P.bq j * wEighth)) (lin P.X P.Wk P.bk)
    (lin P.X P.Wv P.bv)) P.Wo P.bo P.X) P.gamma P.beta r e

/-- Scaled and normalised in place. -/
def inPlace (P : Params) (r : Fin 8192) (e : Fin 1024) : EReal :=
  lnorm (resid (attnFirst (lin P.X P.Wq P.bq) (lin P.X P.Wk P.bk) (lin P.X P.Wv P.bv)) P.Wo P.bo P.X)
    P.gamma P.beta r e

end Cert.Mha

end
-- ==== Proof.Args.lean ====
/-
  The eleven argument arrays as the specification's parameters: the input [4, 2048, 1024] read on the flat
  layout (row r is batch r / 2048, position r % 2048), the weight matrices and the vectors entry by entry.
-/
import proofs.«431405_j45913200394352_3_alg».proof.Proof.Spec
import Idealize.ShloMosaic.Lib.ValueIdx

noncomputable section

namespace Cert.Mha

open Idealize.ShloMosaic Idealize.ShloMosaic.ValueIdx

abbrev Sx : Shape := ⟨3, ![4, 2048, 1024]⟩
abbrev Sw : Shape := ⟨2, ![1024, 1024]⟩
abbrev Sb : Shape := ⟨1, ![1024]⟩

/-- The parameters read off the argument arrays, in the programs' argument order. -/
def paramsOf (x : Sx.Idx → EReal) (wq : Sw.Idx → EReal) (bq : Sb.Idx → EReal) (wk : Sw.Idx → EReal) (bk : Sb.Idx → EReal)
    (wv : Sw.Idx → EReal) (bv : Sb.Idx → EReal) (wo : Sw.Idx → EReal) (bo : Sb.Idx → EReal)
    (g : Sb.Idx → EReal) (be : Sb.Idx → EReal) : Params where
  X r k := x (ix3 (bat r) (pos r) k)
  Wq j k := wq (ix2 j k)
  Wk j k := wk (ix2 j k)
  Wv j k := wv (ix2 j k)
  Wo j k := wo (ix2 j k)
  bq j := bq (ix1 j)
  bk j := bk (ix1 j)
  bv j := bv (ix1 j)
  bo j := bo (ix1 j)
  gamma j := g (ix1 j)
  beta j := be (ix1 j)

end Cert.Mha

end
-- ==== Proof.Stages.lean ====
/-
  The three kernel regions' results as whole-array functions of the arrays each region reads, at the ideal values.

  `proj` is the fused projection: row r of the flat input against column j of the [1024, 3072] weights, plus the
  bias row. `attn` reads queries, keys and values out of the projection's columns [0, 1024), [1024, 2048) and
  [2048, 3072) and is attention normalised last. `outNorm` is the output projection against weights stored
  [in, out], plus bias and residual, normalised row by row.
-/
import proofs.«431405_j45913200394352_3_alg».proof.Proof.Args

noncomputable section

namespace Cert.Mha

open Idealize.ShloMosaic Idealize.ShloMosaic.ValueIdx

abbrev S8192x1024 : Shape := ⟨2, ![8192, 1024]⟩
abbrev S8192x3072 : Shape := ⟨2, ![8192, 3072]⟩
abbrev S1024x3072 : Shape := ⟨2, ![1024, 3072]⟩
abbrev S1x3072 : Shape := ⟨2, ![1, 3072]⟩
abbrev S1x1024 : Shape := ⟨2, ![1, 1024]⟩

/-- The query, key and value columns of the projection's 3072. -/
def qcol (j : Fin 1024) : Fin 3072 := ⟨j.val, by omega⟩
def kcol (j : Fin 1024) : Fin 3072 := ⟨1024 + j.val, by omega⟩
def vcol (j : Fin 1024) : Fin 3072 := ⟨2048 + j.val, by omega⟩

/-- The two coordinates of an index into a rank-2 array of literal extents. -/
def c0 {a b : ℕ} (i : (⟨2, ![a, b]⟩ : Shape).Idx) : Fin a := ⟨(i 0).val, (i 0).isLt⟩
def c1 {a b : ℕ} (i : (⟨2, ![a, b]⟩ : Shape).Idx) : Fin b := ⟨(i 1).val, (i 1).isLt⟩

theorem c0_ix2 {a b : ℕ} (p : Fin a) (q : Fin b) : c0 (ix2 p q : (⟨2, ![a, b]⟩ : Shape).Idx) = p := rfl
theorem c1_ix2 {a b : ℕ} (p : Fin a) (q : Fin b) : c1 (ix2 p q : (⟨2, ![a, b]⟩ : Shape).Idx) = q := rfl

/-- Region 0: the fused projection. -/
def proj (x : S8192x1024.Idx → EReal) (w : S1024x3072.Idx → EReal) (b : S1x3072.Idx → EReal) : S8192x3072.Idx → EReal :=
  fun i => (∑ k : Fin 1024, x (ix2 (c0 i) k) * w (ix2 k (c1 i))) + b (ix2 (0 : Fin 1) (c1 i))

/-- Region 1: attention, normalised last, over the projection's three column ranges. -/
def attn (qkv : S8192x3072.Idx → EReal) : S8192x1024.Idx → EReal :=
  fun i => attnLast (fun r j => qkv (ix2 r (qcol j))) (fun r j => qkv (ix2 r (kcol j))) (fun r j => qkv (ix2 r (vcol j))) (c0 i) (c1 i)

/-- Region 2: output projection (weights stored [in, out]), bias, residual, layer normalisation. -/
def outNorm (ctx : S8192x1024.Idx → EReal) (w : Sw.Idx → EReal) (b : S1x1024.Idx → EReal) (x : S8192x1024.Idx → EReal)
    (g : S1x1024.Idx → EReal) (be : S1x1024.Idx → EReal) : S8192x1024.Idx → EReal :=
  fun i => lnorm (resid (fun r j => ctx (ix2 r j)) (fun e j => w (ix2 j e)) (fun e => b (ix2 (0 : Fin 1) e)) (fun r e => x (ix2 r e)))
    (fun e => g (ix2 (0 : Fin 1) e)) (fun e => be (ix2 (0 : Fin 1) e)) (c0 i) (c1 i)

/-- The flat result read back on the [4, 2048, 1024] layout. -/
def unflat (y : S8192x1024.Idx → EReal) : Sx.Idx → EReal :=
  fun i => y (ix2 (row ⟨(i 0).val, (i 0).isLt⟩ ⟨(i 1).val, (i 1).isLt⟩) ⟨(i 2).val, (i 2).isLt⟩)

end Cert.Mha

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KI.Val0.lean ====
/-
  The value of kernel region 0, the fused projection, at the ideal values.

  The region runs over sixteen points. At point t it reads rows t·512 … t·512 + 511 of the [8192, 1024] input, the
  whole [1024, 3072] weights and the whole [1, 3072] bias row, and writes rows t·512 … t·512 + 511 of the
  [8192, 3072] output. What it stores at entry (p, q) of its block is the sum over k of input (p, k) times
  weights (k, q), plus bias (0, q): the format changes around the product are the identity on extended reals.
  Since a block's entry (p, ·) is the array's entry (t·512 + p, ·), point t writes block t of ONE function of the
  three arrays, `Cert.Mha.proj`; the sixteen row blocks cover the output (row r lies in block r / 512), so the
  output array ends holding that function.
-/
import proofs.«431405_j45913200394352_3_alg».proof.Proof.KI.Data
import proofs.«431405_j45913200394352_3_alg».proof.Proof.Stages
import proofs.«431405_j45913200394352_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The fused projection's payload at entry (p, q) of its block: row p of the input block against column q of the
    weights, plus the bias row's entry q. The two format changes are the identity on extended reals. -/
theorem pay0_apply (x : Vec Ideal S512x1024 .f32) (w : Vec Ideal S1024x3072 .bf16) (b : Vec Ideal S1x3072 .f32)
    (p : Fin 512) (q : Fin 3072) :
    k0_pay1 (F := Ideal) x w b (ix2 p q) = (∑ k : Fin 1024, x (ix2 p k) * w (ix2 k q)) + b (ix2 (0 : Fin 1) q) := by
  unfold k0_pay1
  simp only [shapeCast_self]
  rw [truncf_apply, addf_apply, broadcastTo_1b_ab_apply]
  refine congrArg (· + b (ix2 (0 : Fin 1) q)) ?_
  exact PlainDot.matmul_zero_apply dot_S512x1024_S1024x3072_S512x3072_1_0_0_1_n_n rfl rfl rfl rfl rfl rfl rfl rfl none _ _ p q

/-- The block indices over the grid: at point t the input's and the output's row block is t, their column block 0;
    the weights and the bias row are one block each. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block whose entries are rows n·512 … n·512 + 511 of the input, against the whole weights and bias row, has at
    (p, q) the projection's entry (n·512 + p, q). -/
theorem block_entry (X : Cert.Mha.S8192x1024.Idx → EReal) (W : Cert.Mha.S1024x3072.Idx → EReal) (B : Cert.Mha.S1x3072.Idx → EReal)
    (x : Vec Ideal S512x1024 .f32) (w : Vec Ideal S1024x3072 .bf16) (b : Vec Ideal S1x3072 .f32)
    (n : ℕ) (hn : n < 16)
    (hx : ∀ (p : Fin 512) (k : Fin 1024), x (ix2 p k) = X (ix2 (⟨n * 512 + p.val, by omega⟩ : Fin 8192) k))
    (hw : ∀ (k : Fin 1024) (q : Fin 3072), w (ix2 k q) = W (ix2 k q))
    (hb : ∀ q : Fin 3072, b (ix2 (0 : Fin 1) q) = B (ix2 (0 : Fin 1) q))
    (y : S512x3072.Idx) (i : Cert.Mha.S8192x3072.Idx) (hi0 : (i 0).val = n * 512 + (y 0).val) (hi1 : (i 1).val = (y 1).val) :
    k0_pay1 (F := Ideal) x w b y = Cert.Mha.proj X W B i := by
  obtain ⟨p, q, rfl⟩ : ∃ (p : Fin 512) (q : Fin 3072), y = ix2 p q := ⟨y 0, y 1, eq_ix2 y⟩
  have e0 : Cert.Mha.c0 i = (⟨n * 512 + p.val, by omega⟩ : Fin 8192) := Fin.ext hi0
  have e1 : Cert.Mha.c1 i = q := Fin.ext hi1
  rw [pay0_apply]
  unfold Cert.Mha.proj
  rw [e0, e1, hb]
  exact congrArg (· + B (ix2 (0 : Fin 1) q)) (Finset.sum_congr rfl fun k _ => by rw [hx, hw])

theorem hz0 : (![0, 0] : Fin 2 → Nat) = fun _ => 0 := funext fun a => by fin_cases a <;> rfl

/-- The input window's block at point t, entry (p, k), is the input's entry (t·512 + p, k). -/
theorem xblk_apply (c : Dev nD) (t : Fin cfg0.N) (ht : t.val < 16) (p : Fin 512) (k : Fin 1024) :
    (iblk0 (F := Ideal) V c 0 t : Vec Ideal S512x1024 .f32) (ix2 p k)
      = (V c main_v0 : Cert.Mha.S8192x1024.Idx → EReal) (ix2 (⟨t.val * 512 + p.val, by omega⟩ : Fin 8192) k) := by
  obtain ⟨e0, e1, -⟩ := idx_facts0 t
  show V c main_v0 (((cfg0.win 0).blk t).view.emb (ix2 p k)) = V c main_v0 _
  refine congrArg (V c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The weights' window is the whole array at every point. -/
theorem wblk_apply (c : Dev nD) (t : Fin cfg0.N) (k : Fin 1024) (q : Fin 3072) :
    (iblk0 (F := Ideal) V c 1 t : Vec Ideal S1024x3072 .bf16) (ix2 k q)
      = (V c main_v7 : Cert.Mha.S1024x3072.Idx → EReal) (ix2 k q) := by
  obtain ⟨-, -, e0, e1, -⟩ := idx_facts0 t
  show V c main_v7 (((cfg0.win 1).blk t).view.emb (ix2 k q)) = V c main_v7 _
  refine congrArg (V c main_v7) (funext fun a => Fin.ext ?_)
  match a with
  | ⟨0, _⟩ => show win0_1.index t (0 : Fin 2) * 1024 + 1 * k.val = k.val; omega
  | ⟨1, _⟩ => show win0_1.index t (1 : Fin 2) * 3072 + 1 * q.val = q.val; omega

/-- So is the bias row's. -/
theorem bblk_apply (c : Dev nD) (t : Fin cfg0.N) (q : Fin 3072) :
    (iblk0 (F := Ideal) V c 2 t : Vec Ideal S1x3072 .f32) (ix2 (0 : Fin 1) q)
      = (V c main_v9 : Cert.Mha.S1x3072.Idx → EReal) (ix2 (0 : Fin 1) q) := by
  obtain ⟨-, -, -, -, e0, e1, -⟩ := idx_facts0 t
  show V c main_v9 (((cfg0.win 2).blk t).view.emb (ix2 (0 : Fin 1) q)) = V c main_v9 _
  refine congrArg (V c main_v9) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 3072 + 1 * q.val = q.val; omega

/-- What point t writes back is block t of the projection of the arrays as the region finds them. -/
theorem flushed0_eq (c : Dev nD) (t : Fin cfg0.N) :
    (dat0 (F := Ideal) V c).flushed 3 t
      = ((cfg0.win 3).blk t).view.read (Elt Ideal) (Cert.Mha.proj (V c main_v0) (V c main_v7) (V c main_v9)) := by
  have ht : t.val < 16 := Nat.lt_of_lt_of_eq t.isLt N_0
  obtain ⟨-, -, -, -, -, -, e0, e1⟩ := idx_facts0 t
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  funext y
  rw [View.read_apply]
  refine block_entry (V c main_v0) (V c main_v7) (V c main_v9)
    (iblk0 (F := Ideal) V c 0 t) (iblk0 (F := Ideal) V c 1 t) (iblk0 (F := Ideal) V c 2 t) t.val ht
    (xblk_apply V c t ht) (wblk_apply V c t) (bblk_apply V c t)
    ((cfg0.win 3).xinj (grid0.coords t) y) (((cfg0.win 3).blk t).view.emb y) ?_ ?_
  · show win0_3.index t (0 : Fin 2) * 512 + 1 * (y 0).val = t.val * 512 + (y 0).val; omega
  · show win0_3.index t (1 : Fin 2) * 3072 + 1 * (y 1).val = (y 1).val; omega

/-- An index of the array is in point t's block iff each coordinate is in the block's range on its axis. -/
theorem mem_blk0 (t : Fin cfg0.N) (i : S8192x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v10).slice (win0_3.rect t)).set ↔ _
  rw [View.set_slice_whole, Rect.mem_set_unit]
  exact Iff.rfl

/-- The sixteen row blocks cover the array: row r lies in block r / 512. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  let t : Fin cfg0.N := ⟨(i 0).val / 512, by rw [hN]; omega⟩
  obtain ⟨-, -, -, -, -, -, e0, e1⟩ := idx_facts0 t
  have e0' : win0_3.index t (0 : Fin 2) = (i 0).val / 512 := e0
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- Region 0 leaves in its output array the fused projection of the arrays it found. -/
theorem arr0 (c : Dev nD) :
    (dat0 (F := Ideal) V c).arrAt 3 cfg0.N = Cert.Mha.proj (V c main_v0) (V c main_v7) (V c main_v9) :=
  (dat0 (F := Ideal) V c).arrAt_eq_of_cover 3 (Cert.Mha.proj (V c main_v0) (V c main_v7) (V c main_v9))
    (fun t _ => flushed0_eq V c t) cover0

end Cert.KernelIdeal.Hand

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KI.Val1a.lean ====
/-
  One head of attention inside a block, entry by entry, at the ideal values.

  For a [512, 64] block of queries q and [2048, 64] blocks of keys k and values v, the body computes the scores
  q kᵀ, shifts each row by its maximum and exponentiates, multiplies the exponentials with v and divides each row
  by its sum of exponentials. At row p and lane d that is

      (∑ t, E p t * v t d) / (∑ t, E p t),    E p t = exp (s p t - max_t' s p t'),    s p t = ∑ e, q p e * k t e.

  Both heads of a pair are this one function of their own halves of the blocks: the first head's stored payload
  directly, the second head's through the three values carried from the earlier part of the body to its store.
-/
import proofs.«431405_j45913200394352_3_alg».proof.Proof.Gen.KernelIdeal.Skeleton
import proofs.«431405_j45913200394352_3_alg».proof.Proof.Spec
import proofs.«431405_j45913200394352_3_alg».proof.Proof.LibDotT
import proofs.«431405_j45913200394352_3_alg».proof.Proof.LibPlainDot
import proofs.«431405_j45913200394352_3_alg».proof.Proof.LibRowRead
import proofs.«431405_j45913200394352_3_alg».proof.Proof.LibColumn

set_option maxRecDepth 16384

noncomputable section

namespace Cert.KernelIdeal.Hand

open Idealize.ShloMosaic Idealize.ShloMosaic.ValueIdx
open Cert.KernelIdeal Cert.KernelIdeal.Gen

/-- The scores of one head: the queries against the transposed keys. -/
def scoreMat (q : FVec Ideal S512x64 .bf16) (k : FVec Ideal S2048x64 .bf16) : FVec Ideal S512x2048 .f32 :=
  matmul dot_S512x64_S2048x64_S512x2048_1_1_0_0_n_n none q k (constant (F := Ideal) S512x2048 .f32 0x00000000#32)

/-- The score of query row p against key row t: their inner product over the 64 lanes. -/
theorem scoreMat_apply (q : FVec Ideal S512x64 .bf16) (k : FVec Ideal S2048x64 .bf16) (p : Fin 512) (t : Fin 2048) :
    scoreMat q k (ix2 p t) = ∑ e : Fin 64, q (ix2 p e) * k (ix2 t e) :=
  DotT.matmul_zero_apply dot_S512x64_S2048x64_S512x2048_1_1_0_0_n_n rfl rfl rfl rfl rfl rfl rfl rfl none q k p t

/-- The exponentials of a matrix of scores, each row shifted by its maximum. -/
def expShift (s : FVec Ideal S512x2048 .f32) : FVec Ideal S512x2048 .f32 :=
  exp (subf s (broadcastTo S512x2048 (shapeCast S512x1
    (multiReduction (F := Ideal) .maximumf [1] S512 s 0xFF800000#32 reduces_S512x2048_S512 (.inl rfl) rfl) shapeCasts_S512_S512x1)
    broadcasts_S512x1_S512x2048))

theorem expShift_apply (s : FVec Ideal S512x2048 .f32) (p : Fin 512) (t : Fin 2048) :
    expShift s (ix2 p t) = Cert.Mha.pexp (fun t' => s (ix2 p t')) t := by
  show Ideal.exp (s (ix2 p t) - broadcastTo S512x2048 (shapeCast S512x1
    (multiReduction (F := Ideal) .maximumf [1] S512 s 0xFF800000#32 reduces_S512x2048_S512 (.inl rfl) rfl) shapeCasts_S512_S512x1)
    broadcasts_S512x1_S512x2048 (ix2 p t)) = _
  rw [Column.keepdims_apply, Cert.RowRead.rowMax_f32]
  rfl

/-- The row sums of a matrix of exponentials, as a column. -/
def rowSums (e : FVec Ideal S512x2048 .f32) : FVec Ideal S512x1 .f32 :=
  shapeCast S512x1 (multiReduction (F := Ideal) .add [1] S512 e 0x00000000#32 reduces_S512x2048_S512 (.inl rfl) rfl) shapeCasts_S512_S512x1

/-- One head's output: the exponentials against the values, each row divided by its sum of exponentials. -/
def headOut (e : FVec Ideal S512x2048 .bf16) (rs : FVec Ideal S512x1 .f32) (v : FVec Ideal S2048x64 .bf16) : FVec Ideal S512x64 .f32 :=
  divf (matmul dot_S512x2048_S2048x64_S512x64_1_0_0_1_n_n none e v (constant (F := Ideal) S512x64 .f32 0x00000000#32))
    (broadcastTo S512x64 rs broadcasts_S512x1_S512x64)

theorem headOut_apply (e : FVec Ideal S512x2048 .f32) (v : FVec Ideal S2048x64 .bf16) (p : Fin 512) (d : Fin 64) :
    headOut e (rowSums e) v (ix2 p d) = Ideal.div (∑ t : Fin 2048, e (ix2 p t) * v (ix2 t d)) (∑ t : Fin 2048, e (ix2 p t)) := by
  show Ideal.div (matmul dot_S512x2048_S2048x64_S512x64_1_0_0_1_n_n none e v (constant (F := Ideal) S512x64 .f32 0x00000000#32) (ix2 p d))
    (broadcastTo S512x64 (rowSums e) broadcasts_S512x1_S512x64 (ix2 p d)) = _
  unfold rowSums
  rw [Column.keepdims_apply, Cert.RowRead.rowSum_f32]
  exact congrArg (fun x => Ideal.div x (∑ t : Fin 2048, e (ix2 p t)))
    (PlainDot.matmul_zero_apply dot_S512x2048_S2048x64_S512x64_1_0_0_1_n_n rfl rfl rfl rfl rfl rfl rfl rfl none e v p d)

/-- The first head's stored payload is that head's output of the three loaded halves. -/
theorem head0_eq (v0 : Vec Ideal S512x64 .bf16) (v2 v4 : Vec Ideal S2048x64 .bf16) :
    k1_pay2 (F := Ideal) v0 v2 v4 = headOut (expShift (scoreMat v0 v2)) (rowSums (expShift (scoreMat v0 v2))) v4 := by
  unfold k1_pay2
  simp only [shapeCast_self]
  rfl

/-- The second head's stored payload likewise, its exponentials, their row sums and the values carried to the store. -/
theorem head1_eq (v20 : Vec Ideal S512x64 .bf16) (v22 v24 : Vec Ideal S2048x64 .bf16) :
    k1_pay1 (F := Ideal) (k1_pay3 v24) (k1_pay5 v20 v22) (k1_pay6 v20 v22)
      = headOut (expShift (scoreMat v20 v22)) (rowSums (expShift (scoreMat v20 v22))) v24 := by
  unfold k1_pay1 k1_pay3 k1_pay5 k1_pay6 k1_pay4
  simp only [shapeCast_self]
  rfl

/-- One head's output at row p and lane d: the values weighted by the shifted exponentials of row p's scores,
    divided by the exponentials' sum. -/
theorem head_apply (q : FVec Ideal S512x64 .bf16) (k v : FVec Ideal S2048x64 .bf16) (p : Fin 512) (d : Fin 64) :
    headOut (expShift (scoreMat q k)) (rowSums (expShift (scoreMat q k))) v (ix2 p d)
      = Ideal.div (∑ t : Fin 2048, Cert.Mha.pexp (fun t' => ∑ e : Fin 64, q (ix2 p e) * k (ix2 t' e)) t * v (ix2 t d))
          (∑ t : Fin 2048, Cert.Mha.pexp (fun t' => ∑ e : Fin 64, q (ix2 p e) * k (ix2 t' e)) t) := by
  rw [headOut_apply]
  simp only [expShift_apply, scoreMat_apply]

end Cert.KernelIdeal.Hand

end
-- ==== Proof.KI.Val1.lean ====
/-
  The value of the attention region: the array it writes is attention, normalised last, over the projection's
  array as the region finds it.

  The region's grid is (batch b, head pair hp, query tile qi). At a point the output block is rows
  (4 b + qi) 512 … + 511 and columns 128 hp … + 127 of the [8192, 1024] result; the query block is the same rows
  and columns of the [8192, 3072] projection, the key block rows 2048 b … + 2047 and columns 1024 + 128 hp … of
  it, the value block the same rows and columns 2048 + 128 hp … . Column j of the output block belongs to head
  j / 64 of the pair, which reads columns 64 (j / 64) … + 63 of each of the three blocks; the body's two stores
  fill the two halves, each with its head's output. So entry (r, j) of the result is

      (∑ t, E t * v (row (bat r) t) j) / (∑ t, E t),    E t = exp (s t - max s),
      s t = ∑ d, q r (col (head j) d) * k (row (bat r) t) (col (head j) d),

  with q, k, v the three column ranges of the projection: the specification's attention. The blocks tile the
  result, so the array after the region is that function.
-/
import proofs.«431405_j45913200394352_3_alg».proof.Proof.KI.Data
import proofs.«431405_j45913200394352_3_alg».proof.Proof.KI.Val1a
import proofs.«431405_j45913200394352_3_alg».proof.Proof.Stages
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The output block as one function of the three input blocks -/

/-- Lane e of half h of a pair's 128 columns. -/
def hl (h : Fin 2) (e : Fin 64) : Fin 128 := ⟨h.val * 64 + e.val, by omega⟩

/-- Head h of the pair at row p and lane d, off the whole blocks: the head reads its own 64 columns of each. -/
def halfOut (x0 : Vec Ideal S512x128 .bf16) (x1 x2 : Vec Ideal S2048x128 .bf16) (h : Fin 2) (p : Fin 512) (d : Fin 64) : EReal :=
  Ideal.div (∑ t : Fin 2048, Cert.Mha.pexp (fun t' => ∑ e : Fin 64, x0 (ix2 p (hl h e)) * x1 (ix2 t' (hl h e))) t * x2 (ix2 t (hl h d)))
    (∑ t : Fin 2048, Cert.Mha.pexp (fun t' => ∑ e : Fin 64, x0 (ix2 p (hl h e)) * x1 (ix2 t' (hl h e))) t)

/-- The output block: column j belongs to head j / 64 of the pair, lane j % 64. -/
def blockOut (x0 : Vec Ideal S512x128 .bf16) (x1 x2 : Vec Ideal S2048x128 .bf16) : S512x128.Idx → EReal := fun y =>
  halfOut x0 x1 x2 ⟨(y 1).val / 64, by have h : (y 1).val < 128 := (y 1).isLt; omega⟩ ⟨(y 0).val, (y 0).isLt⟩ ⟨(y 1).val % 64, Nat.mod_lt _ (by decide)⟩

theorem q0_idx (p : Fin 512) (e : Fin 64) : r1_q0.idx (ix2 p e : S512x64.Idx) = ix2 p (hl 0 e) :=
  funext fun a => Fin.ext (by
    match a with
    | ⟨0, _⟩ => show 0 + 1 * p.val = p.val; omega
    | ⟨1, _⟩ => show 0 + 1 * e.val = 0 * 64 + e.val; omega)

theorem q1_idx (p : Fin 512) (e : Fin 64) : r1_q1.idx (ix2 p e : S512x64.Idx) = ix2 p (hl 1 e) :=
  funext fun a => Fin.ext (by
    match a with
    | ⟨0, _⟩ => show 0 + 1 * p.val = p.val; omega
    | ⟨1, _⟩ => show 64 + 1 * e.val = 1 * 64 + e.val; omega)

theorem k0_idx (t : Fin 2048) (e : Fin 64) : r1_k0.idx (ix2 t e : S2048x64.Idx) = ix2 t (hl 0 e) :=
  funext fun a => Fin.ext (by
    match a with
    | ⟨0, _⟩ => show 0 + 1 * t.val = t.val; omega
    | ⟨1, _⟩ => show 0 + 1 * e.val = 0 * 64 + e.val; omega)

theorem k1_idx (t : Fin 2048) (e : Fin 64) : r1_k1.idx (ix2 t e : S2048x64.Idx) = ix2 t (hl 1 e) :=
  funext fun a => Fin.ext (by
    match a with
    | ⟨0, _⟩ => show 0 + 1 * t.val = t.val; omega
    | ⟨1, _⟩ => show 64 + 1 * e.val = 1 * 64 + e.val; omega)

/-- The first head's payload of the blocks' left halves, at row p and lane d. -/
theorem pay_head0 (x0 : Vec Ideal S512x128 .bf16) (x1 x2 : Vec Ideal S2048x128 .bf16) (p : Fin 512) (d : Fin 64) :
    k1_pay2 (F := Ideal) (View.ld x0 r1_q0) (View.ld x1 r1_k0) (View.ld x2 r1_k0) (ix2 p d) = halfOut x0 x1 x2 0 p d := by
  rw [head0_eq, head_apply]
  simp only [View.ld, q0_idx, k0_idx]
  rfl

/-- The second head's payload of the blocks' right halves, at row p and lane d. -/
theorem pay_head1 (x0 : Vec Ideal S512x128 .bf16) (x1 x2 : Vec Ideal S2048x128 .bf16) (p : Fin 512) (d : Fin 64) :
    k1_pay1 (F := Ideal) (k1_pay3 (View.ld x2 r1_k1)) (k1_pay5 (View.ld x0 r1_q1) (View.ld x1 r1_k1)) (k1_pay6 (View.ld x0 r1_q1) (View.ld x1 r1_k1)) (ix2 p d)
      = halfOut x0 x1 x2 1 p d := by
  rw [head1_eq, head_apply]
  simp only [View.ld, q1_idx, k1_idx]
  rfl

/-- What the body leaves in the output block: the two stores together cover it, each with its head's half. -/
theorem out1_3_eq (x0 : Vec Ideal S512x128 .bf16) (x1 x2 : Vec Ideal S2048x128 .bf16) :
    out1_3 (F := Ideal) x0 x1 x2 = blockOut x0 x1 x2 := by
  funext y
  unfold out1_3
  refine View.canon_apply_of_pieces (Val := Elt Ideal) (S := S512x128) (e := .bf16) (blockOut x0 x1 x2) _ ?_ y ?_
  · intro P hP x
    simp only [List.mem_cons, List.not_mem_nil, or_false] at hP
    rcases hP with rfl | rfl
    · obtain ⟨p, d, rfl⟩ : ∃ (p : Fin 512) (d : Fin 64), x = ix2 p d := ⟨x 0, x 1, eq_ix2 x⟩
      refine (pay_head1 x0 x1 x2 p d).trans ?_
      show halfOut x0 x1 x2 1 p d = halfOut x0 x1 x2 ⟨(64 + 1 * d.val) / 64, _⟩ ⟨0 + 1 * p.val, _⟩ ⟨(64 + 1 * d.val) % 64, _⟩
      congr 1 <;> apply Fin.ext <;> simp only [Fin.val_one] <;> omega
    · obtain ⟨p, d, rfl⟩ : ∃ (p : Fin 512) (d : Fin 64), x = ix2 p d := ⟨x 0, x 1, eq_ix2 x⟩
      refine (pay_head0 x0 x1 x2 p d).trans ?_
      show halfOut x0 x1 x2 0 p d = halfOut x0 x1 x2 ⟨(0 + 1 * d.val) / 64, _⟩ ⟨0 + 1 * p.val, _⟩ ⟨(0 + 1 * d.val) % 64, _⟩
      congr 1 <;> apply Fin.ext <;> simp only [Fin.val_zero] <;> omega
  · have h0 : (y 0).val < 512 := (y 0).isLt
    have h1 : (y 1).val < 128 := (y 1).isLt
    by_cases h : (y 1).val < 64
    · refine ⟨_, List.mem_cons_of_mem _ List.mem_cons_self, ?_⟩
      rw [Rect.mem_set_unit]
      intro a
      match a with
      | ⟨0, _⟩ => show 0 ≤ (y 0).val ∧ (y 0).val < 0 + 512; omega
      | ⟨1, _⟩ => show 0 ≤ (y 1).val ∧ (y 1).val < 0 + 64; omega
    · refine ⟨_, List.mem_cons_self, ?_⟩
      rw [Rect.mem_set_unit]
      intro a
      match a with
      | ⟨0, _⟩ => show 0 ≤ (y 0).val ∧ (y 0).val < 0 + 512; omega
      | ⟨1, _⟩ => show 64 ≤ (y 1).val ∧ (y 1).val < 64 + 64; omega

/-! ## The three input blocks, read off the projection's array -/

variable (V : (c : Dev nD) → (b : Ref sig .tc) → Buf (Elt Ideal) ((c : Thread nD τ).loc b))

/-- The printed index maps, decided over the grid: the query block moves with the output block; the key and value
    blocks sit at the output block's batch (four query tiles to a batch) and at its pair's columns, 8 and 16 blocks on;
    and the output's block indices stay in their ranges. -/
theorem idx_facts1 : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2) / 4
    ∧ win1_1.index t (1 : Fin 2) = 8 + win1_3.index t (1 : Fin 2)
    ∧ win1_2.index t (0 : Fin 2) = win1_3.index t (0 : Fin 2) / 4
    ∧ win1_2.index t (1 : Fin 2) = 16 + win1_3.index t (1 : Fin 2)
    ∧ win1_3.index t (0 : Fin 2) ≤ 15 ∧ win1_3.index t (1 : Fin 2) ≤ 7 :=
  (by decide +kernel : ∀ t : Fin grid1.N, _)

/-- Every block of the output array is some point's. -/
theorem idx_onto1 : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- The query block at point t, at a block index: the array's entry at block index times block size plus the index. -/
theorem qblk_apply (c : Dev nD) (t : Fin cfg1.N) (x : S512x128.Idx) (k : S8192x3072.Idx)
    (hk0 : (k 0).val = win1_0.index t (0 : Fin 2) * 512 + (x 0).val) (hk1 : (k 1).val = win1_0.index t (1 : Fin 2) * 128 + (x 1).val) :
    (iblk1 V c 0 t : Vec Ideal S512x128 .bf16) x = (V c main_v10 : S8192x3072.Idx → EReal) k := by
  unfold iblk1
  rw [View.read_apply]
  show V c main_v10 _ = V c main_v10 _
  congr 1
  funext a
  apply Fin.ext
  match a with
  | ⟨0, _⟩ => show win1_0.index t (0 : Fin 2) * 512 + 1 * (x 0).val = (k 0).val; omega
  | ⟨1, _⟩ => show win1_0.index t (1 : Fin 2) * 128 + 1 * (x 1).val = (k 1).val; omega

/-- The key block at point t, at a block index. -/
theorem kblk_apply (c : Dev nD) (t : Fin cfg1.N) (x : S2048x128.Idx) (k : S8192x3072.Idx)
    (hk0 : (k 0).val = win1_1.index t (0 : Fin 2) * 2048 + (x 0).val) (hk1 : (k 1).val = win1_1.index t (1 : Fin 2) * 128 + (x 1).val) :
    (iblk1 V c 1 t : Vec Ideal S2048x128 .bf16) x = (V c main_v10 : S8192x3072.Idx → EReal) k := by
  unfold iblk1
  rw [View.read_apply]
  show V c main_v10 _ = V c main_v10 _
  congr 1
  funext a
  apply Fin.ext
  match a with
  | ⟨0, _⟩ => show win1_1.index t (0 : Fin 2) * 2048 + 1 * (x 0).val = (k 0).val; omega
  | ⟨1, _⟩ => show win1_1.index t (1 : Fin 2) * 128 + 1 * (x 1).val = (k 1).val; omega

/-- The value block at point t, at a block index. -/
theorem vblk_apply (c : Dev nD) (t : Fin cfg1.N) (x : S2048x128.Idx) (k : S8192x3072.Idx)
    (hk0 : (k 0).val = win1_2.index t (0 : Fin 2) * 2048 + (x 0).val) (hk1 : (k 1).val = win1_2.index t (1 : Fin 2) * 128 + (x 1).val) :
    (iblk1 V c 2 t : Vec Ideal S2048x128 .bf16) x = (V c main_v10 : S8192x3072.Idx → EReal) k := by
  unfold iblk1
  rw [View.read_apply]
  show V c main_v10 _ = V c main_v10 _
  congr 1
  funext a
  apply Fin.ext
  match a with
  | ⟨0, _⟩ => show win1_2.index t (0 : Fin 2) * 2048 + 1 * (x 0).val = (k 0).val; omega
  | ⟨1, _⟩ => show win1_2.index t (1 : Fin 2) * 128 + 1 * (x 1).val = (k 1).val; omega

/-! ## What a point writes back -/

/-- The output block of blocks that are the array's entries at the right rows and columns is attention's block:
    stated over any three blocks and any array, the blocks' entries given by hypotheses. I0, I1 are the output's
    block indices; the query block has them too, the key and value blocks row index I0 / 4 and columns 1024 and
    2048 further on. -/
theorem blockOut_eq_attn (qkv : S8192x3072.Idx → EReal) (x0 : Vec Ideal S512x128 .bf16) (x1 x2 : Vec Ideal S2048x128 .bf16)
    (I0 I1 : ℕ) (hI0 : I0 ≤ 15) (hI1 : I1 ≤ 7)
    (h0 : ∀ (x : S512x128.Idx) (k : S8192x3072.Idx), (k 0).val = I0 * 512 + (x 0).val → (k 1).val = I1 * 128 + (x 1).val → x0 x = qkv k)
    (h1 : ∀ (x : S2048x128.Idx) (k : S8192x3072.Idx), (k 0).val = I0 / 4 * 2048 + (x 0).val → (k 1).val = (8 + I1) * 128 + (x 1).val → x1 x = qkv k)
    (h2 : ∀ (x : S2048x128.Idx) (k : S8192x3072.Idx), (k 0).val = I0 / 4 * 2048 + (x 0).val → (k 1).val = (16 + I1) * 128 + (x 1).val → x2 x = qkv k)
    (y : S512x128.Idx) (i : S8192x1024.Idx) (hi0 : (i 0).val = I0 * 512 + (y 0).val) (hi1 : (i 1).val = I1 * 128 + (y 1).val) :
    blockOut x0 x1 x2 y = Cert.Mha.attn qkv i := by
  have hy0 : (y 0).val < 512 := (y 0).isLt
  have hy1 : (y 1).val < 128 := (y 1).isLt
  have hs : (fun t' : Fin 2048 => ∑ e : Fin 64,
        x0 (ix2 ⟨(y 0).val, (y 0).isLt⟩ (hl ⟨(y 1).val / 64, by omega⟩ e)) * x1 (ix2 t' (hl ⟨(y 1).val / 64, by omega⟩ e)))
      = Cert.Mha.score (fun r j => qkv (ix2 r (Cert.Mha.qcol j))) (fun r j => qkv (ix2 r (Cert.Mha.kcol j)))
          (Cert.Mha.c0 i) (Cert.Mha.head (Cert.Mha.c1 i)) := by
    funext t'
    unfold Cert.Mha.score
    refine Finset.sum_congr rfl fun e _ => ?_
    have he : e.val < 64 := e.isLt
    have ht : t'.val < 2048 := t'.isLt
    rw [h0 _ (ix2 (Cert.Mha.c0 i) (Cert.Mha.qcol (Cert.Mha.col (Cert.Mha.head (Cert.Mha.c1 i)) e)))
        (by show (i 0).val = I0 * 512 + (y 0).val; omega)
        (by show (i 1).val / 64 * 64 + e.val = I1 * 128 + ((y 1).val / 64 * 64 + e.val); omega),
      h1 _ (ix2 (Cert.Mha.row (Cert.Mha.bat (Cert.Mha.c0 i)) t') (Cert.Mha.kcol (Cert.Mha.col (Cert.Mha.head (Cert.Mha.c1 i)) e)))
        (by show (i 0).val / 2048 * 2048 + t'.val = I0 / 4 * 2048 + t'.val; omega)
        (by show 1024 + ((i 1).val / 64 * 64 + e.val) = (8 + I1) * 128 + ((y 1).val / 64 * 64 + e.val); omega)]
  unfold blockOut halfOut
  rw [hs]
  unfold Cert.Mha.attn Cert.Mha.attnLast
  congr 1
  refine Finset.sum_congr rfl fun t' _ => ?_
  have ht : t'.val < 2048 := t'.isLt
  rw [h2 _ (ix2 (Cert.Mha.row (Cert.Mha.bat (Cert.Mha.c0 i)) t') (Cert.Mha.vcol (Cert.Mha.c1 i)))
      (by show (i 0).val / 2048 * 2048 + t'.val = I0 / 4 * 2048 + t'.val; omega)
      (by show 2048 + (i 1).val = (16 + I1) * 128 + ((y 1).val / 64 * 64 + (y 1).val % 64); omega)]

/-- What point t writes back is block t of attention over the projection's array as the region finds it. -/
theorem flushed1_eq (c : Dev nD) (t : Fin cfg1.N) :
    (dat1 (F := Ideal) V c).flushed 3 t = ((cfg1.win 3).blk t).view.read (Elt Ideal) (Cert.Mha.attn (V c main_v10)) := by
  show (cfg1.win 3).cut (grid1.coords t) ((dat1 (F := Ideal) V c).after 3 t) = _
  rw [after1_3, out1_3_eq]
  obtain ⟨e0, e1, e2, e3, e4, e5, e6, e7⟩ := idx_facts1 t
  funext y
  rw [View.read_apply]
  refine blockOut_eq_attn (V c main_v10) (iblk1 V c 0 t) (iblk1 V c 1 t) (iblk1 V c 2 t)
    (win1_3.index t (0 : Fin 2)) (win1_3.index t (1 : Fin 2)) e6 e7
    (fun x k hk0 hk1 => qblk_apply V c t x k (by rw [e0]; exact hk0) (by rw [e1]; exact hk1))
    (fun x k hk0 hk1 => kblk_apply V c t x k (by rw [e2]; exact hk0) (by rw [e3]; exact hk1))
    (fun x k hk0 hk1 => vblk_apply V c t x k (by rw [e4]; exact hk0) (by rw [e5]; exact hk1))
    y _ ?_ ?_
  · show win1_3.index t (0 : Fin 2) * 512 + 1 * (y 0).val = win1_3.index t (0 : Fin 2) * 512 + (y 0).val; omega
  · show win1_3.index t (1 : Fin 2) * 128 + 1 * (y 1).val = win1_3.index t (1 : Fin 2) * 128 + (y 1).val; omega

/-- An index of the output array is in point t's block iff each coordinate is in the block's range on its axis. -/
theorem mem_blk1 (t : Fin cfg1.N) (i : S8192x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v11).slice (win1_3.rect t)).set ↔ _
  rw [View.set_slice_whole, Rect.mem_set_unit]
  exact Iff.rfl

/-- The output's blocks tile its array: row r lies in row block r / 512, column j in column block j / 128. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- THE ARRAY after region 1: attention, normalised last, over the projection's array as the region finds it. -/
theorem arr1 (c : Dev nD) : (dat1 (F := Ideal) V c).arrAt 3 cfg1.N = Cert.Mha.attn (V c main_v10) :=
  (dat1 (F := Ideal) V c).arrAt_eq_of_cover 3 (Cert.Mha.attn (V c main_v10)) (fun t _ => flushed1_eq V c t) cover1

end Cert.KernelIdeal.Hand

end
-- ==== Proof.KI.Val2.lean ====
/-
  The value of kernel region 2: the output projection, the bias row, the residual block and the layer
  normalisation of each row, read entry by entry, and the array the region's sixteen row blocks leave.

  A grid point t handles rows 512 t … 512 t + 511. Its body multiplies the block of context rows by the whole
  [1024, 1024] weight matrix (stored [in, out]), adds the bias row and the residual block, and normalises each
  row: the row's mean is its sum divided by 1024, the variance the sum of the squared differences divided by
  1024, and the result the difference times the reciprocal square root of the variance plus a small constant,
  times the gain row, plus the offset row. Every row's statistics use that row only, so block t of the result is
  block t of ONE whole-array function, and the sixteen blocks tile the array.
-/
import proofs.«431405_j45913200394352_3_alg».proof.Proof.KI.Data
import proofs.«431405_j45913200394352_3_alg».proof.Proof.Stages
import proofs.«431405_j45913200394352_3_alg».proof.Proof.LibPlainDot
import proofs.«431405_j45913200394352_3_alg».proof.Proof.LibRowRead
import proofs.«431405_j45913200394352_3_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The body's arithmetic in two stages -/

/-- The block after the projection, the bias row and the residual block. -/
def resBlk (x0 : FVec Ideal S512x1024 .bf16) (x1 : FVec Ideal S1024x1024 .bf16) (x2 : FVec Ideal S1x1024 .f32)
    (x3 : FVec Ideal S512x1024 .f32) : FVec Ideal S512x1024 .f32 :=
  have l : FVec Ideal S512x1024 .bf16 := shapeCast S512x1024 x0 shapeCasts_S512x1024_S512x1024
  have r : FVec Ideal S1024x1024 .bf16 := shapeCast S1024x1024 x1 shapeCasts_S1024x1024_S1024x1024
  have z : FVec Ideal S512x1024 .f32 := constant (F := Ideal) S512x1024 .f32 0x00000000#32
  have m : FVec Ideal S512x1024 .f32 := matmul dot_S512x1024_S1024x1024_S512x1024_1_0_0_1_n_n none l r z
  have b : FVec Ideal S1x1024 .f32 := shapeCast S1x1024 x2 shapeCasts_S1x1024_S1x1024
  have bb : FVec Ideal S512x1024 .f32 := broadcastTo S512x1024 b broadcasts_S1x1024_S512x1024
  have x : FVec Ideal S512x1024 .f32 := shapeCast S512x1024 x3 shapeCasts_S512x1024_S512x1024
  addf (addf m bb) x

/-- A row statistic of a block, as the body computes it: the row sums as a column, divided by 1024. -/
def statCol (y : FVec Ideal S512x1024 .f32) : FVec Ideal S512x1 .f32 :=
  have s : FVec Ideal S512 .f32 := multiReduction .add [1] S512 y 0x00000000#32 reduces_S512x1024_S512 (.inl rfl) rfl
  have sc : FVec Ideal S512x1 .f32 := shapeCast S512x1 s shapeCasts_S512_S512x1
  have n : FVec Ideal S512x1 .f32 := broadcast S512x1 (Scalar.ofBits (F := Ideal) .f32 0x44800000#32)
  divf sc n

/-- The differences from the row means. -/
def devBlk (y : FVec Ideal S512x1024 .f32) : FVec Ideal S512x1024 .f32 :=
  have mb : FVec Ideal S512x1024 .f32 := broadcastTo S512x1024 (statCol y) broadcasts_S512x1_S512x1024
  subf y mb

/-- The reciprocal square roots of the row variances plus the small constant, as a column. -/
def scaleCol (y : FVec Ideal S512x1024 .f32) : FVec Ideal S512x1 .f32 :=
  have v : FVec Ideal S512x1 .f32 := statCol (mulf (devBlk y) (devBlk y))
  have e : FVec Ideal S512x1 .f32 := broadcast S512x1 (Scalar.ofBits (F := Ideal) .f32 0x3727C5AC#32)
  have ve : FVec Ideal S512x1 .f32 := addf v e
  Idealize.ShloMosaic.rsqrt ve

/-- The normalised block with gain and offset rows. -/
def normBlk (y : FVec Ideal S512x1024 .f32) (x4 x5 : FVec Ideal S1x1024 .f32) : FVec Ideal S512x1024 .f32 :=
  have sb : FVec Ideal S512x1024 .f32 := broadcastTo S512x1024 (scaleCol y) broadcasts_S512x1_S512x1024
  have g : FVec Ideal S1x1024 .f32 := shapeCast S1x1024 x4 shapeCasts_S1x1024_S1x1024
  have gb : FVec Ideal S512x1024 .f32 := broadcastTo S512x1024 g broadcasts_S1x1024_S512x1024
  have o : FVec Ideal S1x1024 .f32 := shapeCast S1x1024 x5 shapeCasts_S1x1024_S1x1024
  have ob : FVec Ideal S512x1024 .f32 := broadcastTo S512x1024 o broadcasts_S1x1024_S512x1024
  addf (mulf (mulf (devBlk y) sb) gb) ob

/-- The body's payload is the second stage of the first. -/
theorem pay2_eq (x0 : FVec Ideal S512x1024 .bf16) (x1 : FVec Ideal S1024x1024 .bf16) (x2 : FVec Ideal S1x1024 .f32)
    (x3 : FVec Ideal S512x1024 .f32) (x4 x5 : FVec Ideal S1x1024 .f32) :
    k2_pay1 (F := Ideal) x0 x1 x2 x3 x4 x5 = normBlk (resBlk x0 x1 x2 x3) x4 x5 := rfl

/-! ## The two stages at an entry -/

/-- The first stage at row p, column e: row p of the context block against column e of the weights, plus the
    bias at e, plus the residual entry. -/
theorem resBlk_apply (x0 : FVec Ideal S512x1024 .bf16) (x1 : FVec Ideal S1024x1024 .bf16) (x2 : FVec Ideal S1x1024 .f32)
    (x3 : FVec Ideal S512x1024 .f32) (p : Fin 512) (e : Fin 1024) :
    resBlk x0 x1 x2 x3 (ix2 p e)
      = ((∑ k : Fin 1024, x0 (ix2 p k) * x1 (ix2 k e)) + x2 (ix2 (0 : Fin 1) e)) + x3 (ix2 p e) := by
  unfold resBlk
  simp only [addf_apply, shapeCast_self, Idealize.ShloMosaic.matmul]
  rw [PlainDot.matmul_zero_apply dot_S512x1024_S1024x1024_S512x1024_1_0_0_1_n_n rfl rfl rfl rfl rfl rfl rfl rfl none x0 x1 p e,
    broadcastTo_1b_ab_apply]

/-- The statistic column at row p: the row's sum divided by 1024. -/
theorem statCol_apply (y : FVec Ideal S512x1024 .f32) (p : Fin 512) (u : Fin 1) :
    statCol y (ix2 p u) = Ideal.div (∑ e : Fin 1024, y (ix2 p e)) Cert.Mha.w1024 := by
  unfold statCol
  simp only [divf_apply, broadcast_apply]
  rw [Column.shapeCast_a_a1_apply, Cert.RowRead.rowSum_f32]
  rfl

/-- The difference from the row's mean at (p, e). -/
theorem devBlk_apply (y : FVec Ideal S512x1024 .f32) (p : Fin 512) (e : Fin 1024) :
    devBlk y (ix2 p e) = y (ix2 p e) - Ideal.div (∑ e' : Fin 1024, y (ix2 p e')) Cert.Mha.w1024 := by
  unfold devBlk
  simp only [subf_apply]
  rw [Column.broadcastTo_a1_ab_apply, statCol_apply]

/-- The scale column at row p: the reciprocal square root of the row's variance plus the small constant. -/
theorem scaleCol_apply (y : FVec Ideal S512x1024 .f32) (p : Fin 512) (u : Fin 1) :
    scaleCol y (ix2 p u)
      = Ideal.rsqrt (Ideal.div (∑ e : Fin 1024, devBlk y (ix2 p e) * devBlk y (ix2 p e)) Cert.Mha.w1024 + Cert.Mha.wEps) := by
  unfold scaleCol
  show Ideal.rsqrt (addf (statCol (mulf (devBlk y) (devBlk y))) (broadcast S512x1 (Scalar.ofBits (F := Ideal) .f32 0x3727C5AC#32)) (ix2 p u)) = _
  simp only [addf_apply, broadcast_apply]
  rw [statCol_apply]
  rfl

/-- The second stage at (p, q). -/
theorem normBlk_apply (y : FVec Ideal S512x1024 .f32) (x4 x5 : FVec Ideal S1x1024 .f32) (p : Fin 512) (q : Fin 1024) :
    normBlk y x4 x5 (ix2 p q)
      = devBlk y (ix2 p q) * scaleCol y (ix2 p (0 : Fin 1)) * x4 (ix2 (0 : Fin 1) q) + x5 (ix2 (0 : Fin 1) q) := by
  unfold normBlk
  simp only [addf_apply, mulf_apply, shapeCast_self]
  rw [Column.broadcastTo_a1_ab_apply, broadcastTo_1b_ab_apply, broadcastTo_1b_ab_apply]

/-! ## A row of the payload against the specification -/

/-- Whenever row p of the two row blocks is row r of the context and of the residual input, and the four whole
    blocks are the weights (stored [in, out]), the bias, the gain and the offset, row p of the payload is the
    specification's normalised row r. -/
theorem pay2_row (x0 : FVec Ideal S512x1024 .bf16) (x1 : FVec Ideal S1024x1024 .bf16) (x2 : FVec Ideal S1x1024 .f32)
    (x3 : FVec Ideal S512x1024 .f32) (x4 x5 : FVec Ideal S1x1024 .f32)
    (ctx X : Fin 8192 → Fin 1024 → EReal) (Wo : Fin 1024 → Fin 1024 → EReal) (bo g be : Fin 1024 → EReal)
    (r : Fin 8192) (p : Fin 512)
    (h0 : ∀ k : Fin 1024, x0 (ix2 p k) = ctx r k) (h1 : ∀ (k e : Fin 1024), x1 (ix2 k e) = Wo e k)
    (h2 : ∀ e : Fin 1024, x2 (ix2 (0 : Fin 1) e) = bo e) (h3 : ∀ e : Fin 1024, x3 (ix2 p e) = X r e)
    (h4 : ∀ e : Fin 1024, x4 (ix2 (0 : Fin 1) e) = g e) (h5 : ∀ e : Fin 1024, x5 (ix2 (0 : Fin 1) e) = be e)
    (q : Fin 1024) :
    k2_pay1 (F := Ideal) x0 x1 x2 x3 x4 x5 (ix2 p q) = Cert.Mha.lnorm (Cert.Mha.resid ctx Wo bo X) g be r q := by
  have hy : ∀ e : Fin 1024, resBlk x0 x1 x2 x3 (ix2 p e) = Cert.Mha.resid ctx Wo bo X r e := fun e => by
    rw [resBlk_apply, h2, h3]
    unfold Cert.Mha.resid
    congr 2
    exact Finset.sum_congr rfl fun k _ => by rw [h0, h1]
  rw [pay2_eq, normBlk_apply, scaleCol_apply]
  simp only [devBlk_apply, hy, h4, h5]
  rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the sixteen points: the two row-block inputs and the output sit at block row t,
    column block 0; the four whole-array inputs at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The row of the array that row p of block t is. -/
def rowOf (t : Fin cfg2.N) (p : Fin 512) : Fin 8192 :=
  ⟨512 * t.val + p.val, by have h : t.val < 16 := N_2 ▸ t.isLt; omega⟩

/-- The context block at point t: rows 512 t … of the context array. -/
theorem ctxBlk_apply (c : Dev nD) (t : Fin cfg2.N) (p : Fin 512) (k : Fin 1024) :
    (iblk2 V c 0 t : FVec Ideal S512x1024 .bf16) (ix2 p k) = (V c main_v11 : S8192x1024.Idx → EReal) (ix2 (rowOf t p) k) := by
  obtain ⟨e0, e1, -⟩ := idx2 t
  unfold iblk2
  rw [View.read_apply]
  show V c main_v11 _ = V c main_v11 _
  congr 1
  funext a
  apply Fin.ext
  match a with
  | ⟨0, _⟩ => show win2_0.index t (0 : Fin 2) * 512 + 1 * p.val = 512 * t.val + p.val; rw [e0]; omega
  | ⟨1, _⟩ => show win2_0.index t (1 : Fin 2) * 1024 + 1 * k.val = k.val; rw [e1]; omega

/-- The residual block at point t: rows 512 t … of the residual input. -/
theorem resInBlk_apply (c : Dev nD) (t : Fin cfg2.N) (p : Fin 512) (e : Fin 1024) :
    (iblk2 V c 3 t : FVec Ideal S512x1024 .f32) (ix2 p e) = (V c main_v0 : S8192x1024.Idx → EReal) (ix2 (rowOf t p) e) := by
  obtain ⟨-, -, -, -, -, -, e0, e1, -⟩ := idx2 t
  unfold iblk2
  rw [View.read_apply]
  show V c main_v0 _ = V c main_v0 _
  congr 1
  funext a
  apply Fin.ext
  match a with
  | ⟨0, _⟩ => show win2_3.index t (0 : Fin 2) * 512 + 1 * p.val = 512 * t.val + p.val; rw [e0]; omega
  | ⟨1, _⟩ => show win2_3.index t (1 : Fin 2) * 1024 + 1 * e.val = e.val; rw [e1]; omega

/-- The weight block at every point: the whole weight array. -/
theorem wBlk_apply (c : Dev nD) (t : Fin cfg2.N) (k e : Fin 1024) :
    (iblk2 V c 1 t : FVec Ideal S1024x1024 .bf16) (ix2 k e) = (V c main_v13 : S1024x1024.Idx → EReal) (ix2 k e) := by
  obtain ⟨-, -, e0, e1, -⟩ := idx2 t
  unfold iblk2
  rw [View.read_apply]
  show V c main_v13 _ = V c main_v13 _
  congr 1
  funext a
  apply Fin.ext
  match a with
  | ⟨0, _⟩ => show win2_1.index t (0 : Fin 2) * 1024 + 1 * k.val = k.val; rw [e0]; omega
  | ⟨1, _⟩ => show win2_1.index t (1 : Fin 2) * 1024 + 1 * e.val = e.val; rw [e1]; omega

/-- The bias block at every point: the whole bias row. -/
theorem bBlk_apply (c : Dev nD) (t : Fin cfg2.N) (e : Fin 1024) :
    (iblk2 V c 2 t : FVec Ideal S1x1024 .f32) (ix2 (0 : Fin 1) e) = (V c main_v14 : S1x1024.Idx → EReal) (ix2 (0 : Fin 1) e) := by
  obtain ⟨-, -, -, -, e0, e1, -⟩ := idx2 t
  unfold iblk2
  rw [View.read_apply]
  show V c main_v14 _ = V c main_v14 _
  congr 1
  funext a
  apply Fin.ext
  match a with
  | ⟨0, _⟩ => show win2_2.index t (0 : Fin 2) * 1 + 1 * 0 = 0; rw [e0]
  | ⟨1, _⟩ => show win2_2.index t (1 : Fin 2) * 1024 + 1 * e.val = e.val; rw [e1]; omega

/-- The gain block at every point: the whole gain row. -/
theorem gBlk_apply (c : Dev nD) (t : Fin cfg2.N) (e : Fin 1024) :
    (iblk2 V c 4 t : FVec Ideal S1x1024 .f32) (ix2 (0 : Fin 1) e) = (V c main_v15 : S1x1024.Idx → EReal) (ix2 (0 : Fin 1) e) := by
  obtain ⟨-, -, -, -, -, -, -, -, e0, e1, -⟩ := idx2 t
  unfold iblk2
  rw [View.read_apply]
  show V c main_v15 _ = V c main_v15 _
  congr 1
  funext a
  apply Fin.ext
  match a with
  | ⟨0, _⟩ => show win2_4.index t (0 : Fin 2) * 1 + 1 * 0 = 0; rw [e0]
  | ⟨1, _⟩ => show win2_4.index t (1 : Fin 2) * 1024 + 1 * e.val = e.val; rw [e1]; omega

/-- The offset block at every point: the whole offset row. -/
theorem oBlk_apply (c : Dev nD) (t : Fin cfg2.N) (e : Fin 1024) :
    (iblk2 V c 5 t : FVec Ideal S1x1024 .f32) (ix2 (0 : Fin 1) e) = (V c main_v16 : S1x1024.Idx → EReal) (ix2 (0 : Fin 1) e) := by
  obtain ⟨-, -, -, -, -, -, -, -, -, -, e0, e1, -⟩ := idx2 t
  unfold iblk2
  rw [View.read_apply]
  show V c main_v16 _ = V c main_v16 _
  congr 1
  funext a
  apply Fin.ext
  match a with
  | ⟨0, _⟩ => show win2_5.index t (0 : Fin 2) * 1 + 1 * 0 = 0; rw [e0]
  | ⟨1, _⟩ => show win2_5.index t (1 : Fin 2) * 1024 + 1 * e.val = e.val; rw [e1]; omega

/-- The region's result as one function of the arrays it reads. -/
abbrev result2 (c : Dev nD) : S8192x1024.Idx → EReal :=
  Cert.Mha.outNorm (V c main_v11) (V c main_v13) (V c main_v14) (V c main_v0) (V c main_v15) (V c main_v16)

/-- The payload of the blocks at point t, at row p and column q, is the result at row 512 t + p. -/
theorem wrote2_apply (c : Dev nD) (t : Fin cfg2.N) (p : Fin 512) (q : Fin 1024) :
    k2_pay1 (F := Ideal) (iblk2 V c 0 t) (iblk2 V c 1 t) (iblk2 V c 2 t) (iblk2 V c 3 t) (iblk2 V c 4 t) (iblk2 V c 5 t) (ix2 p q)
      = result2 V c (ix2 (rowOf t p) q) :=
  pay2_row (iblk2 V c 0 t) (iblk2 V c 1 t) (iblk2 V c 2 t) (iblk2 V c 3 t) (iblk2 V c 4 t) (iblk2 V c 5 t)
    (fun r j => (V c main_v11 : S8192x1024.Idx → EReal) (ix2 r j)) (fun r e => (V c main_v0 : S8192x1024.Idx → EReal) (ix2 r e))
    (fun e j => (V c main_v13 : S1024x1024.Idx → EReal) (ix2 j e)) (fun e => (V c main_v14 : S1x1024.Idx → EReal) (ix2 (0 : Fin 1) e))
    (fun e => (V c main_v15 : S1x1024.Idx → EReal) (ix2 (0 : Fin 1) e)) (fun e => (V c main_v16 : S1x1024.Idx → EReal) (ix2 (0 : Fin 1) e))
    (rowOf t p) p (ctxBlk_apply V c t p) (wBlk_apply V c t) (bBlk_apply V c t) (resInBlk_apply V c t p)
    (gBlk_apply V c t) (oBlk_apply V c t) q

/-- What point t writes back is block t of the result. -/
theorem flushed2_eq (c : Dev nD) (t : Fin cfg2.N) :
    (dat2 (F := Ideal) V c).flushed 6 t = ((cfg2.win 6).blk t).view.read (Elt Ideal) (result2 V c) := by
  show (cfg2.win 6).cut (grid2.coords t) ((dat2 V c).after 6 t) = _
  rw [after2_6]
  unfold out2_6
  rw [View.canon_unit_zero hz2]
  simp only [View.ld_unit_zero (S := S512x1024) hz2, View.ld_unit_zero (S := S1024x1024) hz2, View.ld_unit_zero (S := S1x1024) hz2]
  obtain ⟨-, -, -, -, -, -, -, -, -, -, -, -, e0, e1⟩ := idx2 t
  funext j
  rw [View.read_apply]
  show k2_pay1 (F := Ideal) (iblk2 V c 0 t) (iblk2 V c 1 t) (iblk2 V c 2 t) (iblk2 V c 3 t) (iblk2 V c 4 t) (iblk2 V c 5 t) j
    = result2 V c (((cfg2.win 6).blk t).view.emb j)
  obtain ⟨p, q, rfl⟩ : ∃ (p : Fin 512) (q : Fin 1024), j = ix2 p q := ⟨j 0, j 1, eq_ix2 j⟩
  rw [wrote2_apply]
  congr 1
  funext a
  apply Fin.ext
  match a with
  | ⟨0, _⟩ => show 512 * t.val + p.val = win2_6.index t (0 : Fin 2) * 512 + 1 * p.val; rw [e0]; omega
  | ⟨1, _⟩ => show q.val = win2_6.index t (1 : Fin 2) * 1024 + 1 * q.val; rw [e1]; omega

/-- An index of the array is in point t's block iff each coordinate is in the block's range on its axis. -/
theorem mem_blk2 (t : Fin cfg2.N) (i : S8192x1024.Idx) :
    i ∈ ((cfg2.win 6).blk t).view.set
      ↔ ∀ a : Fin 2, win2_6.index t a * S512x1024.size a ≤ (i a).val ∧ (i a).val < win2_6.index t a * S512x1024.size a + S512x1024.size a := by
  show i ∈ ((View.whole main_v17).slice (win2_6.rect t)).set ↔ _
  rw [View.set_slice_whole, Rect.mem_set_unit]
  exact Iff.rfl

/-- Every row lies in the block of the point its number divided by 512 names. -/
theorem cover2 (i : S8192x1024.Idx) : ∃ t : Fin cfg2.N, (cfg2.win 6).flush t = true ∧ i ∈ ((cfg2.win 6).blk t).view.set := by
  have hi0 : (i 0).val < 8192 := (i 0).isLt
  have hi1 : (i 1).val < 1024 := (i 1).isLt
  let t : Fin cfg2.N := ⟨(i 0).val / 512, by rw [show cfg2.N = 16 from N_2]; omega⟩
  have ht : t.val = (i 0).val / 512 := rfl
  obtain ⟨-, -, -, -, -, -, -, -, -, -, -, -, e0, e1⟩ := idx2 t
  refine ⟨t, flush2_6 t, ?_⟩
  rw [mem_blk2]
  intro a
  match a with
  | ⟨0, _⟩ => show win2_6.index t (0 : Fin 2) * 512 ≤ (i 0).val ∧ (i 0).val < win2_6.index t (0 : Fin 2) * 512 + 512; rw [e0, ht]; omega
  | ⟨1, _⟩ => show win2_6.index t (1 : Fin 2) * 1024 ≤ (i 1).val ∧ (i 1).val < win2_6.index t (1 : Fin 2) * 1024 + 1024; rw [e1]; omega

/-- The array the region leaves: the output projection with bias and residual, normalised row by row. -/
theorem arr2 (c : Dev nD) :
    (dat2 (F := Ideal) V c).arrAt 6 cfg2.N
      = Cert.Mha.outNorm (V c main_v11) (V c main_v13) (V c main_v14) (V c main_v0) (V c main_v15) (V c main_v16) :=
  (dat2 (F := Ideal) V c).arrAt_eq_of_cover 6 (result2 V c) (fun t _ => flushed2_eq V c t) (cover2)

end Cert.KernelIdeal.Hand

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.LibNary3.lean ====
/-
  A host operation over a literal family of THREE operand arrays (a concatenation of three pieces): its result, with each
  operand's contents taken at its own reference, so that a chain of host operations can go on being read operand by
  operand. (Under the binder `fun k => F (xs k)` the reference `xs k` is no literal and nothing further applies to it.)
-/
import Idealize.ShloMosaic.Lib.StableHlo.Run

noncomputable section

namespace Idealize.ShloMosaic.StableHlo

open Idealize.SL.Sem

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KI.HostValue.lean ====
/-
  What the host operations around the three kernel regions leave in the TensorCore's buffers, read at an index, at
  the ideal values.

  Before the first region: the input [4, 2048, 1024] is read on the flat [8192, 1024] layout; the query weights and
  bias are multiplied by the constant 1/8; the three weight matrices, stored [out, in], are stacked along the rows and
  the stack is transposed, so that column j of the result is output row j of the query weights, column 1024 + j of
  the key weights and column 2048 + j of the value weights; the three biases are laid end to end and made one row.
  Before the last region: the output weights are transposed to [in, out] and the three remaining vectors are made
  one row each. After it: the flat result is read back on the [4, 2048, 1024] layout. A change of float format is the
  identity at the ideal values. A buffer a region may change holds, after it, the region's unknown contents; every
  other buffer keeps what it held.
-/
import proofs.«431405_j45913200394352_3_alg».proof.Proof.Gen.KernelIdeal.Regions
import proofs.«431405_j45913200394352_3_alg».proof.Proof.LibAfter
import proofs.«431405_j45913200394352_3_alg».proof.Proof.LibNary3
import proofs.«431405_j45913200394352_3_alg».proof.Proof.Args
import proofs.«431405_j45913200394352_3_alg».proof.Proof.Stages
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.ShloMosaic.StableHlo
open Idealize.SL.Sem
open Cert.KernelIdeal Cert.KernelIdeal.Gen

namespace HostValue

/-- The contents a line of host operations leaves in one buffer: each operation's result at its own buffer is its
    function of its operands' contents (a three-operand operation's operands each at its own reference), and at any
    other buffer what was there. -/
local macro "host_results" : tactic =>
  `(tactic| (simp only [after_cons, after_nil]
             repeat (first
               | rw [nary3_result] | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## Layout operations over variables, read at an index -/

/-- A [4, 2048, 1024] array read on the flat [8192, 1024] layout: row r is batch r / 2048, position r % 2048. -/
theorem flat_apply (x : Cert.Mha.Sx.Idx → EReal) (h : Cert.Mha.Sx.ShapeCasts Cert.Mha.S8192x1024)
    (i : Cert.Mha.S8192x1024.Idx) :
    shapeCast Cert.Mha.S8192x1024 x h i = x (ix3 (Cert.Mha.bat (Cert.Mha.c0 i)) (Cert.Mha.pos (Cert.Mha.c0 i)) (Cert.Mha.c1 i)) :=
  shapeCast_apply x h _ _ (by
    rw [Shape.rowMajor_val_three, Shape.rowMajor_val_two]
    show ((i 0).val / 2048 * 2048 + (i 0).val % 2048) * 1024 + (i 1).val = (i 0).val * 1024 + (i 1).val
    omega)

/-- A flat [8192, 1024] array read back on the [4, 2048, 1024] layout. -/
theorem unflat_apply (y : Cert.Mha.S8192x1024.Idx → EReal) (h : Cert.Mha.S8192x1024.ShapeCasts Cert.Mha.Sx)
    (i : Cert.Mha.Sx.Idx) : shapeCast Cert.Mha.Sx y h i = Cert.Mha.unflat y i :=
  shapeCast_apply y h _ _ (by
    rw [Shape.rowMajor_val_three, Shape.rowMajor_val_two]
    show ((i 0).val * 2048 + (i 1).val) * 1024 + (i 2).val = ((i 0).val * 2048 + (i 1).val) * 1024 + (i 2).val
    rfl)

/-- Three [1024, 1024] matrices stacked along the rows: rows [0, 1024) are the first's. -/
theorem stack3_q (x0 x1 x2 : Cert.Mha.Sw.Idx → EReal) (h : Shape.Concatenates [Cert.Mha.Sw, Cert.Mha.Sw, Cert.Mha.Sw] ⟨2, ![3072, 1024]⟩ 0)
    (j k : Fin 1024) :
    concatenate ⟨2, ![3072, 1024]⟩ 0 [⟨Cert.Mha.Sw, x0⟩, ⟨Cert.Mha.Sw, x1⟩, ⟨Cert.Mha.Sw, x2⟩] h (ix2 (Cert.Mha.qcol j) k) = x0 (ix2 j k) :=
  concatenate_apply_piece (t := ⟨2, ![3072, 1024]⟩) 0 [⟨Cert.Mha.Sw, x0⟩, ⟨Cert.Mha.Sw, x1⟩, ⟨Cert.Mha.Sw, x2⟩] h _ 0 (show 0 < 3 by omega) Cert.Mha.Sw x0 rfl rfl 0 rfl (ix2 j k)
    (fun b hb => match b with | ⟨0, _⟩ => absurd rfl hb | ⟨1, _⟩ => rfl) (Nat.zero_add _)

/-- Rows [1024, 2048) are the second's. -/
theorem stack3_k (x0 x1 x2 : Cert.Mha.Sw.Idx → EReal) (h : Shape.Concatenates [Cert.Mha.Sw, Cert.Mha.Sw, Cert.Mha.Sw] ⟨2, ![3072, 1024]⟩ 0)
    (j k : Fin 1024) :
    concatenate ⟨2, ![3072, 1024]⟩ 0 [⟨Cert.Mha.Sw, x0⟩, ⟨Cert.Mha.Sw, x1⟩, ⟨Cert.Mha.Sw, x2⟩] h (ix2 (Cert.Mha.kcol j) k) = x1 (ix2 j k) :=
  concatenate_apply_piece (t := ⟨2, ![3072, 1024]⟩) 0 [⟨Cert.Mha.Sw, x0⟩, ⟨Cert.Mha.Sw, x1⟩, ⟨Cert.Mha.Sw, x2⟩] h _ 1 (show 1 < 3 by omega) Cert.Mha.Sw x1 rfl rfl 1024 rfl (ix2 j k)
    (fun b hb => match b with | ⟨0, _⟩ => absurd rfl hb | ⟨1, _⟩ => rfl) rfl

/-- Rows [2048, 3072) are the third's. -/
theorem stack3_v (x0 x1 x2 : Cert.Mha.Sw.Idx → EReal) (h : Shape.Concatenates [Cert.Mha.Sw, Cert.Mha.Sw, Cert.Mha.Sw] ⟨2, ![3072, 1024]⟩ 0)
    (j k : Fin 1024) :
    concatenate ⟨2, ![3072, 1024]⟩ 0 [⟨Cert.Mha.Sw, x0⟩, ⟨Cert.Mha.Sw, x1⟩, ⟨Cert.Mha.Sw, x2⟩] h (ix2 (Cert.Mha.vcol j) k) = x2 (ix2 j k) :=
  concatenate_apply_piece (t := ⟨2, ![3072, 1024]⟩) 0 [⟨Cert.Mha.Sw, x0⟩, ⟨Cert.Mha.Sw, x1⟩, ⟨Cert.Mha.Sw, x2⟩] h _ 2 (show 2 < 3 by omega) Cert.Mha.Sw x2 rfl rfl 2048 rfl (ix2 j k)
    (fun b hb => match b with | ⟨0, _⟩ => absurd rfl hb | ⟨1, _⟩ => rfl) rfl

/-- Three vectors of 1024 laid end to end: entries [0, 1024) are the first's. -/
theorem join3_q (x0 x1 x2 : Cert.Mha.Sb.Idx → EReal) (h : Shape.Concatenates [Cert.Mha.Sb, Cert.Mha.Sb, Cert.Mha.Sb] ⟨1, ![3072]⟩ 0)
    (j : Fin 1024) :
    concatenate ⟨1, ![3072]⟩ 0 [⟨Cert.Mha.Sb, x0⟩, ⟨Cert.Mha.Sb, x1⟩, ⟨Cert.Mha.Sb, x2⟩] h (ix1 (Cert.Mha.qcol j)) = x0 (ix1 j) :=
  concatenate_apply_piece (t := ⟨1, ![3072]⟩) 0 [⟨Cert.Mha.Sb, x0⟩, ⟨Cert.Mha.Sb, x1⟩, ⟨Cert.Mha.Sb, x2⟩] h _ 0 (show 0 < 3 by omega) Cert.Mha.Sb x0 rfl rfl 0 rfl (ix1 j)
    (fun b hb => match b with | ⟨0, _⟩ => absurd rfl hb) (Nat.zero_add _)

/-- Entries [1024, 2048) are the second's. -/
theorem join3_k (x0 x1 x2 : Cert.Mha.Sb.Idx → EReal) (h : Shape.Concatenates [Cert.Mha.Sb, Cert.Mha.Sb, Cert.Mha.Sb] ⟨1, ![3072]⟩ 0)
    (j : Fin 1024) :
    concatenate ⟨1, ![3072]⟩ 0 [⟨Cert.Mha.Sb, x0⟩, ⟨Cert.Mha.Sb, x1⟩, ⟨Cert.Mha.Sb, x2⟩] h (ix1 (Cert.Mha.kcol j)) = x1 (ix1 j) :=
  concatenate_apply_piece (t := ⟨1, ![3072]⟩) 0 [⟨Cert.Mha.Sb, x0⟩, ⟨Cert.Mha.Sb, x1⟩, ⟨Cert.Mha.Sb, x2⟩] h _ 1 (show 1 < 3 by omega) Cert.Mha.Sb x1 rfl rfl 1024 rfl (ix1 j)
    (fun b hb => match b with | ⟨0, _⟩ => absurd rfl hb) rfl

/-- Entries [2048, 3072) are the third's. -/
theorem join3_v (x0 x1 x2 : Cert.Mha.Sb.Idx → EReal) (h : Shape.Concatenates [Cert.Mha.Sb, Cert.Mha.Sb, Cert.Mha.Sb] ⟨1, ![3072]⟩ 0)
    (j : Fin 1024) :
    concatenate ⟨1, ![3072]⟩ 0 [⟨Cert.Mha.Sb, x0⟩, ⟨Cert.Mha.Sb, x1⟩, ⟨Cert.Mha.Sb, x2⟩] h (ix1 (Cert.Mha.vcol j)) = x2 (ix1 j) :=
  concatenate_apply_piece (t := ⟨1, ![3072]⟩) 0 [⟨Cert.Mha.Sb, x0⟩, ⟨Cert.Mha.Sb, x1⟩, ⟨Cert.Mha.Sb, x2⟩] h _ 2 (show 2 < 3 by omega) Cert.Mha.Sb x2 rfl rfl 2048 rfl (ix1 j)
    (fun b hb => match b with | ⟨0, _⟩ => absurd rfl hb) rfl

/-- A vector of 1024 made one row, read at an entry of the row. -/
theorem row_apply (x : Cert.Mha.Sb.Idx → EReal) (h : Cert.Mha.Sb.ShapeCasts Cert.Mha.S1x1024) (u : Fin 1) (e : Fin 1024) :
    shapeCast Cert.Mha.S1x1024 x h (ix2 u e) = x (ix1 e) := shapeCast_a_1a_apply x h u e

/-! ## The buffers the host operations write, as terms over the argument arrays -/

section
variable (m : (ℓ : Loc nD τ sig) → Buf (Elt Ideal) ℓ) (outs : Gen.Outs (F := Ideal)) (c : Dev nD)

/-- An argument array is as launched when the first two regions have run: nothing before writes it. -/
theorem V3_arg (r : Ref sig .tc) (h3 : r ∉ ([main_v11] : List (Ref sig .tc))) (h2 : r ∉ ([main_v10] : List (Ref sig .tc)))
    (h1 : r ∉ hostOps0_W) : Gen.V3 m outs c r = m ((c : Thread nD τ).loc r) :=
  (Gen.V3_of m outs c r h3).trans <| (Gen.V2_of m outs c r h2).trans <| (Gen.V1_of m c r h1).trans rfl

theorem V1_v0_eq : (Gen.V1 m c main_v0 : S8192x1024.Idx → EReal)
    = shapeCast S8192x1024 (m ((c : Thread nD τ).loc main_arg0)) shapeCasts_S4x2048x1024_S8192x1024 := by
  dsimp only [Gen.V1, Gen.hostOps0]
  host_results
  rfl

theorem V1_v7_eq : (Gen.V1 m c main_v7 : S1024x3072.Idx → EReal)
    = truncf .bf16 (transpose S1024x3072 [1, 0] (concatenate S3072x1024 0
        [⟨S1024x1024, mulf (m ((c : Thread nD τ).loc main_arg1))
            (broadcastInDim S1024x1024 ![] bcast_S_S1024x1024 (constant (F := Ideal) S_ .f32 0x3E000000#32))⟩,
         ⟨S1024x1024, m ((c : Thread nD τ).loc main_arg3)⟩, ⟨S1024x1024, m ((c : Thread nD τ).loc main_arg5)⟩]
        concatenates_S1024x1024_S1024x1024_S1024x1024_S3072x1024_d0) transposes_S3072x1024_S1024x3072_1_0) bitsLt_bf16_f32 := by
  dsimp only [Gen.V1, Gen.hostOps0]
  host_results
  rfl

theorem V1_v9_eq : (Gen.V1 m c main_v9 : S1x3072.Idx → EReal)
    = shapeCast S1x3072 (concatenate S3072 0
        [⟨S1024, mulf (m ((c : Thread nD τ).loc main_arg2))
            (broadcastInDim S1024 ![] bcast_S_S1024 (constant (F := Ideal) S_ .f32 0x3E000000#32))⟩,
         ⟨S1024, m ((c : Thread nD τ).loc main_arg4)⟩, ⟨S1024, m ((c : Thread nD τ).loc main_arg6)⟩]
        concatenates_S1024_S1024_S1024_S3072_d0) shapeCasts_S3072_S1x3072 := by
  dsimp only [Gen.V1, Gen.hostOps0]
  host_results
  rfl

theorem V4_v13_eq : (Gen.V4 m outs c main_v13 : S1024x1024.Idx → EReal)
    = truncf (F := Ideal) .bf16 (transpose S1024x1024 [1, 0] (m ((c : Thread nD τ).loc main_arg7)) transposes_S1024x1024_S1024x1024_1_0)
        bitsLt_bf16_f32 := by
  dsimp only [Gen.V4, Gen.hostOps2]
  host_results
  rw [V3_arg m outs c main_arg7 (by decide) (by decide) (by decide)]

theorem V4_v14_eq : (Gen.V4 m outs c main_v14 : S1x1024.Idx → EReal)
    = shapeCast S1x1024 (m ((c : Thread nD τ).loc main_arg8)) shapeCasts_S1024_S1x1024 := by
  dsimp only [Gen.V4, Gen.hostOps2]
  host_results
  rw [V3_arg m outs c main_arg8 (by decide) (by decide) (by decide)]
  rfl

theorem V4_v15_eq : (Gen.V4 m outs c main_v15 : S1x1024.Idx → EReal)
    = shapeCast S1x1024 (m ((c : Thread nD τ).loc main_arg9)) shapeCasts_S1024_S1x1024 := by
  dsimp only [Gen.V4, Gen.hostOps2]
  host_results
  rw [V3_arg m outs c main_arg9 (by decide) (by decide) (by decide)]
  rfl

theorem V4_v16_eq : (Gen.V4 m outs c main_v16 : S1x1024.Idx → EReal)
    = shapeCast S1x1024 (m ((c : Thread nD τ).loc main_arg10)) shapeCasts_S1024_S1x1024 := by
  dsimp only [Gen.V4, Gen.hostOps2]
  host_results
  rw [V3_arg m outs c main_arg10 (by decide) (by decide) (by decide)]
  rfl

theorem V6_v18_eq : (Gen.V6 m outs c main_v18 : S4x2048x1024.Idx → EReal)
    = shapeCast S4x2048x1024 (Gen.V5 m outs c main_v17) shapeCasts_S8192x1024_S4x2048x1024 := by
  dsimp only [Gen.V6, Gen.hostOps3]
  host_results
  rfl

end

end HostValue

open HostValue

/-! ## The buffers the regions read, at an index -/

section
variable (m : (ℓ : Loc nD τ sig) → Buf (Elt Ideal) ℓ) (outs : Gen.Outs (F := Ideal)) (c : Dev nD)

-- the specification's parameters read off the eleven argument arrays as launched
set_option quotPrecheck false in
local notation "argsP" => Cert.Mha.paramsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

/-- The input on the flat layout. -/
theorem V1_v0 (i : Cert.Mha.S8192x1024.Idx) :
    (Gen.V1 m c main_v0 : Cert.Mha.S8192x1024.Idx → EReal) i = (argsP).X (Cert.Mha.c0 i) (Cert.Mha.c1 i) :=
  (congrFun (V1_v0_eq m c) i).trans (flat_apply _ _ i)

/-- The fused weights: column j is output row j of the query weights, times 1/8. -/
theorem V1_v7_q (k j : Fin 1024) :
    (Gen.V1 m c main_v7 : Cert.Mha.S1024x3072.Idx → EReal) (ix2 k (Cert.Mha.qcol j)) = (argsP).Wq j k * Cert.Mha.wEighth := by
  refine (congrFun (V1_v7_eq m c) _).trans ?_
  rw [truncf_apply, transpose_ix2_apply, stack3_q]
  rfl

/-- Column 1024 + j is output row j of the key weights. -/
theorem V1_v7_k (k j : Fin 1024) :
    (Gen.V1 m c main_v7 : Cert.Mha.S1024x3072.Idx → EReal) (ix2 k (Cert.Mha.kcol j)) = (argsP).Wk j k := by
  refine (congrFun (V1_v7_eq m c) _).trans ?_
  rw [truncf_apply, transpose_ix2_apply, stack3_k]
  rfl

/-- Column 2048 + j is output row j of the value weights. -/
theorem V1_v7_v (k j : Fin 1024) :
    (Gen.V1 m c main_v7 : Cert.Mha.S1024x3072.Idx → EReal) (ix2 k (Cert.Mha.vcol j)) = (argsP).Wv j k := by
  refine (congrFun (V1_v7_eq m c) _).trans ?_
  rw [truncf_apply, transpose_ix2_apply, stack3_v]
  rfl

/-- The fused bias row: entry j is the query bias, times 1/8. -/
theorem V1_v9_q (j : Fin 1024) :
    (Gen.V1 m c main_v9 : Cert.Mha.S1x3072.Idx → EReal) (ix2 (0 : Fin 1) (Cert.Mha.qcol j)) = (argsP).bq j * Cert.Mha.wEighth := by
  refine (congrFun (V1_v9_eq m c) _).trans ?_
  rw [shapeCast_a_1a_apply, join3_q]
  rfl

/-- Entry 1024 + j is the key bias. -/
theorem V1_v9_k (j : Fin 1024) :
    (Gen.V1 m c main_v9 : Cert.Mha.S1x3072.Idx → EReal) (ix2 (0 : Fin 1) (Cert.Mha.kcol j)) = (argsP).bk j := by
  refine (congrFun (V1_v9_eq m c) _).trans ?_
  rw [shapeCast_a_1a_apply, join3_k]
  rfl

/-- Entry 2048 + j is the value bias. -/
theorem V1_v9_v (j : Fin 1024) :
    (Gen.V1 m c main_v9 : Cert.Mha.S1x3072.Idx → EReal) (ix2 (0 : Fin 1) (Cert.Mha.vcol j)) = (argsP).bv j := by
  refine (congrFun (V1_v9_eq m c) _).trans ?_
  rw [shapeCast_a_1a_apply, join3_v]
  rfl

/-- The output weights transposed: stored [in, out]. -/
theorem V4_v13 (j e : Fin 1024) :
    (Gen.V4 m outs c main_v13 : Cert.Mha.Sw.Idx → EReal) (ix2 j e) = (argsP).Wo e j := by
  refine (congrFun (V4_v13_eq m outs c) _).trans ?_
  rw [truncf_apply, transpose_ix2_apply]
  rfl

/-- The output bias as one row. -/
theorem V4_v14 (e : Fin 1024) :
    (Gen.V4 m outs c main_v14 : Cert.Mha.S1x1024.Idx → EReal) (ix2 (0 : Fin 1) e) = (argsP).bo e :=
  (congrFun (V4_v14_eq m outs c) _).trans (row_apply _ _ 0 e)

/-- The normalisation's gain as one row. -/
theorem V4_v15 (e : Fin 1024) :
    (Gen.V4 m outs c main_v15 : Cert.Mha.S1x1024.Idx → EReal) (ix2 (0 : Fin 1) e) = (argsP).gamma e :=
  (congrFun (V4_v15_eq m outs c) _).trans (row_apply _ _ 0 e)

/-- The normalisation's offset as one row. -/
theorem V4_v16 (e : Fin 1024) :
    (Gen.V4 m outs c main_v16 : Cert.Mha.S1x1024.Idx → EReal) (ix2 (0 : Fin 1) e) = (argsP).beta e :=
  (congrFun (V4_v16_eq m outs c) _).trans (row_apply _ _ 0 e)

/-! ## What no later item writes, and what a region leaves -/

/-- The flat input is still what the first host operations left when the last region is entered. -/
theorem V4_v0 : Gen.V4 m outs c main_v0 = Gen.V1 m c main_v0 :=
  (Gen.V4_of m outs c main_v0 (by decide)).trans <| (Gen.V3_of m outs c main_v0 (by decide)).trans
    (Gen.V2_of m outs c main_v0 (by decide))

/-- The first region's output buffer holds its unknown contents after it, -/
theorem V2_v10 : Gen.V2 m outs c main_v10 = outs 2 main_v10 c := by
  simp only [Gen.V2, Function.update_self]

/-- and still when the second region has run. -/
theorem V3_v10 : Gen.V3 m outs c main_v10 = outs 2 main_v10 c :=
  (Gen.V3_of m outs c main_v10 (by decide)).trans (V2_v10 m outs c)

/-- The second region's output buffer holds its unknown contents when the last region is entered. -/
theorem V4_v11 : Gen.V4 m outs c main_v11 = outs 3 main_v11 c :=
  (Gen.V4_of m outs c main_v11 (by decide)).trans (by simp only [Gen.V3, Function.update_self])

/-- The last region's output buffer holds its unknown contents after it. -/
theorem V5_v17 : Gen.V5 m outs c main_v17 = outs 5 main_v17 c := by
  simp only [Gen.V5, Function.update_self]

/-- The result: the last region's output read back on the [4, 2048, 1024] layout. -/
theorem V6_v18 : (Gen.V6 m outs c main_v18 : Cert.Mha.Sx.Idx → EReal) = Cert.Mha.unflat (outs 5 main_v17 c) := by
  funext i
  refine (congrFun (V6_v18_eq m outs c) i).trans ?_
  rw [unflat_apply, V5_v17]

end

end Cert.KernelIdeal.Hand

end
-- ==== Proof.Compose.lean ====
/-
  The three stage functions composed are the specification's "scaled first, normalised last" arrangement.

  Given the arrays the stages read as entries of the parameters — the flat input, the fused weight matrix whose
  three column ranges are the query weights times 1/8 and the key and value weights, the fused bias row likewise,
  the output weights stored [in, out], and the three rows of output bias, gain and offset — the projection read at
  a query, key or value column is that linear layer, so attention over the projection is attention over the three
  layers, and the normalised output projection over it is the whole arrangement.
-/
import proofs.«431405_j45913200394352_3_alg».proof.Proof.Stages

noncomputable section

namespace Cert.Mha

open Idealize.ShloMosaic Idealize.ShloMosaic.ValueIdx

variable (P : Params)
variable (x : S8192x1024.Idx → EReal) (w : S1024x3072.Idx → EReal) (b : S1x3072.Idx → EReal)
variable (wo : Sw.Idx → EReal) (bo g be : S1x1024.Idx → EReal)

/-- The projection at a query column is the query layer with weights and bias scaled. -/
theorem proj_q (hx : ∀ i, x i = P.X (c0 i) (c1 i)) (hw : ∀ k j, w (ix2 k (qcol j)) = P.Wq j k * wEighth)
    (hb : ∀ j, b (ix2 (0 : Fin 1) (qcol j)) = P.bq j * wEighth) (r : Fin 8192) (j : Fin 1024) :
    proj x w b (ix2 r (qcol j)) = lin P.X (fun j k => P.Wq j k * wEighth) (fun j => P.bq j * wEighth) r j := by
  unfold proj lin
  simp only [c0_ix2, c1_ix2, hx, hw, hb]

/-- The projection at a key column is the key layer. -/
theorem proj_k (hx : ∀ i, x i = P.X (c0 i) (c1 i)) (hw : ∀ k j, w (ix2 k (kcol j)) = P.Wk j k)
    (hb : ∀ j, b (ix2 (0 : Fin 1) (kcol j)) = P.bk j) (r : Fin 8192) (j : Fin 1024) :
    proj x w b (ix2 r (kcol j)) = lin P.X P.Wk P.bk r j := by
  unfold proj lin
  simp only [c0_ix2, c1_ix2, hx, hw, hb]

/-- The projection at a value column is the value layer. -/
theorem proj_v (hx : ∀ i, x i = P.X (c0 i) (c1 i)) (hw : ∀ k j, w (ix2 k (vcol j)) = P.Wv j k)
    (hb : ∀ j, b (ix2 (0 : Fin 1) (vcol j)) = P.bv j) (r : Fin 8192) (j : Fin 1024) :
    proj x w b (ix2 r (vcol j)) = lin P.X P.Wv P.bv r j := by
  unfold proj lin
  simp only [c0_ix2, c1_ix2, hx, hw, hb]

/-- The three stages composed, entry by entry. -/
theorem stages_eq (hx : ∀ i, x i = P.X (c0 i) (c1 i))
    (hwq : ∀ k j, w (ix2 k (qcol j)) = P.Wq j k * wEighth) (hwk : ∀ k j, w (ix2 k (kcol j)) = P.Wk j k)
    (hwv : ∀ k j, w (ix2 k (vcol j)) = P.Wv j k)
    (hbq : ∀ j, b (ix2 (0 : Fin 1) (qcol j)) = P.bq j * wEighth) (hbk : ∀ j, b (ix2 (0 : Fin 1) (kcol j)) = P.bk j)
    (hbv : ∀ j, b (ix2 (0 : Fin 1) (vcol j)) = P.bv j)
    (hwo : ∀ j e, wo (ix2 j e) = P.Wo e j) (hbo : ∀ e, bo (ix2 (0 : Fin 1) e) = P.bo e)
    (hg : ∀ e, g (ix2 (0 : Fin 1) e) = P.gamma e) (hbe : ∀ e, be (ix2 (0 : Fin 1) e) = P.beta e) :
    outNorm (attn (proj x w b)) wo bo x g be = fun i => scaledFirst P (c0 i) (c1 i) := by
  funext i
  have hq : (fun r j => proj x w b (ix2 r (qcol j))) = lin P.X (fun j k => P.Wq j k * wEighth) (fun j => P.bq j * wEighth) :=
    funext fun r => funext fun j => proj_q P x w b hx hwq hbq r j
  have hk : (fun r j => proj x w b (ix2 r (kcol j))) = lin P.X P.Wk P.bk :=
    funext fun r => funext fun j => proj_k P x w b hx hwk hbk r j
  have hv : (fun r j => proj x w b (ix2 r (vcol j))) = lin P.X P.Wv P.bv :=
    funext fun r => funext fun j => proj_v P x w b hx hwv hbv r j
  have hctx : (fun r j => attn (proj x w b) (ix2 r j))
      = attnLast (lin P.X (fun j k => P.Wq j k * wEighth) (fun j => P.bq j * wEighth)) (lin P.X P.Wk P.bk) (lin P.X P.Wv P.bv) := by
    funext r j
    unfold attn
    rw [hq, hk, hv, c0_ix2, c1_ix2]
  have hwo' : (fun e j => wo (ix2 j e)) = P.Wo := funext fun e => funext fun j => hwo j e
  have hbo' : (fun e => bo (ix2 (0 : Fin 1) e)) = P.bo := funext hbo
  have hg' : (fun e => g (ix2 (0 : Fin 1) e)) = P.gamma := funext hg
  have hbe' : (fun e => be (ix2 (0 : Fin 1) e)) = P.beta := funext hbe
  have hx' : (fun r e => x (ix2 r e)) = P.X := funext fun r => funext fun e => (hx (ix2 r e)).trans (by rw [c0_ix2, c1_ix2])
  unfold outNorm scaledFirst
  rw [hctx, hwo', hbo', hg', hbe', hx']

end Cert.Mha

end
-- ==== Proof.KI.KernelValue.lean ====
/-
  The idealized kernel's result array as a function of the argument arrays.

  The last host operation reshapes the third region's output; that output is the normalised output projection of
  the second region's output and of buffers the host operations wrote from the arguments; the second region's
  output is attention over the first region's output, which is the fused projection of the flat input against the
  fused weights and bias. Composed, the result at (b, s, e) is the specification's "scaled first, normalised last"
  arrangement of the arguments at row (b, s) and column e.
-/
import proofs.«431405_j45913200394352_3_alg».proof.Proof.KI.Run
import proofs.«431405_j45913200394352_3_alg».proof.Proof.KI.Val0
import proofs.«431405_j45913200394352_3_alg».proof.Proof.KI.Val1
import proofs.«431405_j45913200394352_3_alg».proof.Proof.KI.Val2
import proofs.«431405_j45913200394352_3_alg».proof.Proof.KI.HostValue
import proofs.«431405_j45913200394352_3_alg».proof.Proof.Compose

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- The specification's parameters read off the eleven argument arrays as launched. -/
abbrev argsP : Cert.Mha.Params :=
  Cert.Mha.paramsOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The first region's output, as the second region finds it: the fused projection. -/
theorem v10_eq : (atTc (VB m) c main_v10 : Cert.Mha.S8192x3072.Idx → EReal)
    = Cert.Mha.proj (Gen.V1 m c main_v0) (Gen.V1 m c main_v7) (Gen.V1 m c main_v9) :=
  (VB_v10 m c).trans (arr0 (atTc (VA m)) c)

/-- A buffer as the last region finds it is the host side's valuation there. -/
theorem vD_eq (r : Ref sig .tc) : atTc (VD m) c r = Gen.V4 m (outs m) c r := (congrFun (V4_eq m c) r).symm

/-- The second region's output, as the last region finds it: attention over the fused projection. -/
theorem v11_eq : (atTc (VD m) c main_v11 : Cert.Mha.S8192x1024.Idx → EReal)
    = Cert.Mha.attn (Cert.Mha.proj (Gen.V1 m c main_v0) (Gen.V1 m c main_v7) (Gen.V1 m c main_v9)) :=
  (vD_eq m c main_v11).trans ((V4_v11 m (outs m) c).trans ((outs_v11 m 3 c).trans
    ((arr1 (atTc (VB m)) c).trans (congrArg Cert.Mha.attn (v10_eq m c)))))

/-- The result array: the arrangement "scaled first, normalised last" of the arguments, on the [4, 2048, 1024] layout. -/
theorem result_eq : (Gen.V6 m (outs m) c main_v18 : Cert.Mha.Sx.Idx → EReal)
    = Cert.Mha.unflat (fun i => Cert.Mha.scaledFirst (argsP m c) (Cert.Mha.c0 i) (Cert.Mha.c1 i)) := by
  rw [V6_v18 m (outs m) c, outs_v17]
  show Cert.Mha.unflat ((dat2 (F := Ideal) (atTc (VD m)) c).arrAt 6 cfg2.N) = _
  rw [arr2 (atTc (VD m)) c, v11_eq, vD_eq m c main_v13, vD_eq m c main_v14, vD_eq m c main_v0, vD_eq m c main_v15,
    vD_eq m c main_v16, V4_v0 m (outs m) c]
  exact congrArg Cert.Mha.unflat (Cert.Mha.stages_eq (argsP m c) _ _ _ _ _ _ _ (V1_v0 m c) (V1_v7_q m c) (V1_v7_k m c) (V1_v7_v m c)
    (V1_v9_q m c) (V1_v9_k m c) (V1_v9_v m c) (V4_v13 m (outs m) c) (V4_v14 m (outs m) c) (V4_v15 m (outs m) c) (V4_v16 m (outs m) c))

end Cert.KernelIdeal.Hand

end
-- ==== Proof.RefValue.lean ====
/-
  The reference's result as the specification's in-place arrangement of the argument arrays.

  The reference projects the input three times (weights stored [out, in], plus a bias), re-lays each projection
  from [4, 2048, 1024] to [4, 16, 2048, 64] (entry (b, h, s, d) is row (b, s), column h * 64 + d), takes the scores
  of each head as inner products over d divided by the square root of 64, normalises each row of scores by its
  softmax, sums the values with those weights, lays the result back to [4, 2048, 1024], applies the output
  projection with bias and residual, and normalises each row. Read entry by entry this is the specification's
  arrangement "scaled and normalised in place" at row (b, s).
-/
import proofs.«431405_j45913200394352_3_alg».proof.Proof.Gen.ReferenceIdeal.Run
import proofs.«431405_j45913200394352_3_alg».proof.Proof.Gen.ReferenceIdeal.Read
import proofs.«431405_j45913200394352_3_alg».proof.Proof.Args
import proofs.«431405_j45913200394352_3_alg».proof.Proof.Stages

noncomputable section

namespace Cert.ReferenceIdeal.RefValue

open Cert.ReferenceIdeal Cert.ReferenceIdeal.Gen Cert.ReferenceIdeal.Read Idealize.ShloMosaic Idealize.ShloMosaic.ValueIdx Cert.Mha

/-- The argument arrays' types: the input, a weight matrix, a vector. -/
abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

/-- The input on the flat layout, a weight matrix and a vector entry by entry. -/
abbrev Xf (x : A3) : Fin 8192 → Fin 1024 → EReal := fun r k => x (ix3 (bat r) (pos r) k)
abbrev Wf (w : A2) : Fin 1024 → Fin 1024 → EReal := fun j k => w (ix2 j k)
abbrev Bf (v : A1) : Fin 1024 → EReal := fun j => v (ix1 j)

/-! ## Index equations -/

/-- Entry (b, h, s, d) of the re-laid projection is entry (b, s, h * 64 + d) of the projection. -/
theorem idx_heads (b : Fin 4) (h : Fin 16) (s : Fin 2048) (d : Fin 64) :
    idx_main_v4 (idx_main_v5 (ix4 b h s d)) = ix3 b s (col h d) := by
  funext a
  apply Fin.ext
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- Entry (b, s, j) of the context laid back flat is entry (b, j / 64, s, j % 64) of the context by heads. -/
theorem idx_flat (b : Fin 4) (s : Fin 2048) (j : Fin 1024) :
    idx_main_v34 (idx_main_v35 (ix3 b s j)) = ix4 b (head j) s (lane j) := by
  funext a
  apply Fin.ext
  have hb := b.isLt; have hs := s.isLt; have hj := j.isLt
  match a with
  | ⟨0, _⟩ => show ((b.val * 2048 + s.val) * 1024 + j.val) / 2097152 = b.val; omega
  | ⟨1, _⟩ => show ((b.val * 2048 + s.val) * 1024 + j.val) / 64 % 16 = j.val / 64; omega
  | ⟨2, _⟩ => show ((b.val * 2048 + s.val) * 1024 + j.val) / 1024 % 2048 = s.val; omega
  | ⟨3, _⟩ => show ((b.val * 2048 + s.val) * 1024 + j.val) % 64 = j.val % 64; omega

theorem lidx_lin (b : Fin 4) (s : Fin 2048) (j k : Fin 1024) : lidx_main_v0 (ix3 b s j) k = ix3 b s k := by
  funext a; match a with | ⟨0, _⟩ => rfl | ⟨1, _⟩ => rfl | ⟨2, _⟩ => rfl

theorem ridx_lin (b : Fin 4) (s : Fin 2048) (j k : Fin 1024) : ridx_main_v0 (ix3 b s j) k = ix2 j k := by
  funext a; match a with | ⟨0, _⟩ => rfl | ⟨1, _⟩ => rfl

theorem idx_bias (b : Fin 4) (s : Fin 2048) (j : Fin 1024) : idx_main_v1 (idx_main_v2 (ix3 b s j)) = ix1 j := by
  funext a; match a with | ⟨0, _⟩ => rfl

/-! ## A linear layer and a broadcast vector, at an entry -/

/-- A vector broadcast along the rows reads its entry at the column. -/
theorem bias_at (v : A1) (b : Fin 4) (s : Fin 2048) (j : Fin 1024) :
    val_main_v2 (F := Ideal) v (ix3 b s j) = v (ix1 j) := by
  rw [val_main_v2_apply, val_main_v1_apply, idx_bias]

/-- The contraction of the last axis against weights stored [out, in], at an entry. -/
theorem dot_at (y : A3) (w : A2) (b : Fin 4) (s : Fin 2048) (j : Fin 1024) :
    val_main_v0 (F := Ideal) y w (ix3 b s j) = ∑ k : Fin 1024, y (ix3 b s k) * w (ix2 j k) := by
  rw [val_main_v0_apply]
  exact Finset.sum_congr rfl fun k _ => by rw [lidx_lin, ridx_lin]

/-- A projection of the input by heads is the linear layer at row (b, s), column (h, d). -/
theorem proj_at (x : A3) (w : A2) (v : A1) (b : Fin 4) (h : Fin 16) (s : Fin 2048) (d : Fin 64) :
    val_main_v5 (F := Ideal) x w v (ix4 b h s d) = lin (Xf x) (Wf w) (Bf v) (row b s) (col h d) := by
  rw [val_main_v5_apply, val_main_v4_apply, idx_heads, val_main_v3_apply, dot_at, bias_at]
  unfold lin
  simp only [Xf, Wf, Bf, bat_row, pos_row, Ideal.addf_def]

theorem keys_eq (x : A3) (w : A2) (v : A1) : val_main_v11 (F := Ideal) x w v = val_main_v5 (F := Ideal) x w v := rfl
theorem values_eq (x : A3) (w : A2) (v : A1) : val_main_v17 (F := Ideal) x w v = val_main_v5 (F := Ideal) x w v := rfl

/-! ## Scores and their softmax -/

/-- A projection of the input on the flat layout. -/
abbrev linf (x : A3) (w : A2) (v : A1) : Fin 8192 → Fin 1024 → EReal := lin (Xf x) (Wf w) (Bf v)

theorem lidx_score (b : Fin 4) (h : Fin 16) (s t : Fin 2048) (k : Fin 64) :
    lidx_main_v18 (ix4 b h s t) k = ix4 b h s k := by
  funext a; match a with | ⟨0, _⟩ => rfl | ⟨1, _⟩ => rfl | ⟨2, _⟩ => rfl | ⟨3, _⟩ => rfl

theorem ridx_score (b : Fin 4) (h : Fin 16) (s t : Fin 2048) (k : Fin 64) :
    ridx_main_v18 (ix4 b h s t) k = ix4 b h t k := by
  funext a; match a with | ⟨0, _⟩ => rfl | ⟨1, _⟩ => rfl | ⟨2, _⟩ => rfl | ⟨3, _⟩ => rfl

section Scores

variable (x : A3) (wq : A2) (bq : A1) (wk : A2) (bk : A1)

/-- The inner products over a head's lanes. -/
theorem score_at (b : Fin 4) (h : Fin 16) (s t : Fin 2048) :
    val_main_v18 (F := Ideal) x wq bq wk bk (ix4 b h s t) = score (linf x wq bq) (linf x wk bk) (row b s) h t := by
  rw [val_main_v18_apply]
  unfold score
  rw [bat_row]
  exact Finset.sum_congr rfl fun d _ => by rw [lidx_score, ridx_score, keys_eq, proj_at, proj_at]

/-- The scores divided by the square root of 64. -/
theorem scoreDiv_at (b : Fin 4) (h : Fin 16) (s t : Fin 2048) :
    val_main_v21 (F := Ideal) x wq bq wk bk (ix4 b h s t)
      = scoreDiv (linf x wq bq) (linf x wk bk) (row b s) h t := by
  rw [val_main_v21_apply, score_at, val_main_v20_apply, val_main_v19_apply, val_main_cst_apply]
  rfl

/-- The reduced index (b, h, s) with the last coordinate put back. -/
theorem lift_last (hr : S4x16x2048x2048.Reduces [3] S4x16x2048) (b : Fin 4) (h : Fin 16) (s : Fin 2048)
    (k : Fin (S4x16x2048x2048.size 3)) : hr.lift (ix3 b h s) k = ix4 b h s (⟨k.val, k.isLt⟩ : Fin 2048) := by
  funext c; apply Fin.ext
  fin_cases c <;> rfl

/-- A maximum over the last axis, at (b, h, s): the fold of max from the initial value. -/
theorem hostMax_last (y : FVec Ideal S4x16x2048x2048 .f32) (init : S_.Idx → Ideal .f32)
    (b : Fin 4) (h : Fin 16) (s : Fin 2048) :
    Host.reduce FloatOps.maximumf y init reducesTo_S4x16x2048x2048_S4x16x2048_d3 h_S_ (ix3 b h s)
      = (Finset.univ : Finset (Fin 2048)).fold max (init (Shape.Idx.first h_S_)) (fun t => y (ix4 b h s t)) := by
  have hr : S4x16x2048x2048.Reduces [3] S4x16x2048 := by decide
  rw [Host.reduce_eq_fold_single FloatOps.maximumf y init reducesTo_S4x16x2048x2048_S4x16x2048_d3 hr h_S_]
  have hf : (y ∘ hr.lift (ix3 b h s)) = fun t : Fin 2048 => y (ix4 b h s t) :=
    funext fun t => congrArg y (lift_last hr b h s t)
  exact congrArg (fun f => Finset.fold max (init (Shape.Idx.first h_S_)) f (Finset.univ : Finset (Fin 2048))) hf

theorem word_neg_inf : Ideal.ofBits .f32 0xFF800000#32 = (⊥ : EReal) := by simp [Ideal.ofBits, Ideal.ieee]

/-- The largest score of a row: the reduction starts from -∞, and the maximum with -∞ afterwards changes nothing. -/
theorem max_at (b : Fin 4) (h : Fin 16) (s : Fin 2048) :
    val_main_v24 (F := Ideal) x wq bq wk bk (ix3 b h s)
      = smax (scoreDiv (linf x wq bq) (linf x wk bk) (row b s) h) := by
  rw [val_main_v24_apply, val_main_v23_apply, val_main_cst_1_apply]
  have e : val_main_v22 (F := Ideal) x wq bq wk bk (ix3 b h s)
      = smax (scoreDiv (linf x wq bq) (linf x wk bk) (row b s) h) := by
    refine (hostMax_last _ _ b h s).trans ?_
    unfold smax
    have hf : (fun t : Fin 2048 => val_main_v21 (F := Ideal) x wq bq wk bk (ix4 b h s t))
        = scoreDiv (linf x wq bq) (linf x wk bk) (row b s) h := funext fun t => scoreDiv_at x wq bq wk bk b h s t
    rw [hf]
    exact congrArg (fun z => Finset.fold max z (scoreDiv (linf x wq bq) (linf x wk bk) (row b s) h)
      (Finset.univ : Finset (Fin 2048))) word_neg_inf
  rw [e]
  exact (congrArg (fun z => max z (smax (scoreDiv (linf x wq bq) (linf x wk bk) (row b s) h))) word_neg_inf).trans
    (max_bot_left _)

theorem idx_rowmax (b : Fin 4) (h : Fin 16) (s t : Fin 2048) :
    idx_main_v25 (idx_main_v26 (ix4 b h s t)) = ix3 b h s := by
  funext a; match a with | ⟨0, _⟩ => rfl | ⟨1, _⟩ => rfl | ⟨2, _⟩ => rfl

/-- The exponentials of the scores shifted by the row's maximum. -/
theorem pexp_at (b : Fin 4) (h : Fin 16) (s t : Fin 2048) :
    val_main_v28 (F := Ideal) x wq bq wk bk (ix4 b h s t)
      = pexp (scoreDiv (linf x wq bq) (linf x wk bk) (row b s) h) t := by
  rw [val_main_v28_apply, val_main_v27_apply, scoreDiv_at, val_main_v26_apply, val_main_v25_apply, idx_rowmax, max_at]
  rfl

theorem idx_rowsum (b : Fin 4) (h : Fin 16) (s : Fin 2048) (k : Fin 2048) :
    idx_main_v29 (ix3 b h s) k = ix4 b h s k := by
  funext a; match a with | ⟨0, _⟩ => rfl | ⟨1, _⟩ => rfl | ⟨2, _⟩ => rfl | ⟨3, _⟩ => rfl

/-- The sum of a row's exponentials (the sum starts from zero). -/
theorem psum_at (b : Fin 4) (h : Fin 16) (s : Fin 2048) :
    val_main_v29 (F := Ideal) x wq bq wk bk (ix3 b h s)
      = ∑ t : Fin 2048, pexp (scoreDiv (linf x wq bq) (linf x wk bk) (row b s) h) t := by
  rw [val_main_v29_apply, val_main_cst_2_apply]
  simp only [Ideal.ofBits_def, Ideal.ofBits_zero_f32, zero_add]
  exact Finset.sum_congr rfl fun t _ => by rw [idx_rowsum, pexp_at]

theorem idx_rowsum_back (b : Fin 4) (h : Fin 16) (s t : Fin 2048) :
    idx_main_v30 (idx_main_v31 (ix4 b h s t)) = ix3 b h s := by
  funext a; match a with | ⟨0, _⟩ => rfl | ⟨1, _⟩ => rfl | ⟨2, _⟩ => rfl

/-- The softmax weights: each exponential divided by the row's sum. -/
theorem weight_at (b : Fin 4) (h : Fin 16) (s t : Fin 2048) :
    val_main_v32 (F := Ideal) x wq bq wk bk (ix4 b h s t)
      = Ideal.div (pexp (scoreDiv (linf x wq bq) (linf x wk bk) (row b s) h) t)
          (∑ t' : Fin 2048, pexp (scoreDiv (linf x wq bq) (linf x wk bk) (row b s) h) t') := by
  rw [val_main_v32_apply, pexp_at, val_main_v31_apply, val_main_v30_apply, idx_rowsum_back, psum_at]
  rfl

end Scores

/-! ## The context -/

theorem lidx_ctx (b : Fin 4) (h : Fin 16) (s : Fin 2048) (d : Fin 64) (k : Fin 2048) :
    lidx_main_v33 (ix4 b h s d) k = ix4 b h s k := by
  funext a; match a with | ⟨0, _⟩ => rfl | ⟨1, _⟩ => rfl | ⟨2, _⟩ => rfl | ⟨3, _⟩ => rfl

theorem ridx_ctx (b : Fin 4) (h : Fin 16) (s : Fin 2048) (d : Fin 64) (k : Fin 2048) :
    ridx_main_v33 (ix4 b h s d) k = ix4 b h k d := by
  funext a; match a with | ⟨0, _⟩ => rfl | ⟨1, _⟩ => rfl | ⟨2, _⟩ => rfl | ⟨3, _⟩ => rfl

section Context

variable (x : A3) (wq : A2) (bq : A1) (wk : A2) (bk : A1) (wv : A2) (bv : A1)

/-- The values summed with the softmax weights, by heads. -/
theorem ctx_at (b : Fin 4) (h : Fin 16) (s : Fin 2048) (d : Fin 64) :
    val_main_v33 (F := Ideal) x wq bq wk bk wv bv (ix4 b h s d)
      = attnFirst (linf x wq bq) (linf x wk bk) (linf x wv bv) (row b s) (col h d) := by
  rw [val_main_v33_apply]
  unfold attnFirst
  rw [head_col, bat_row]
  exact Finset.sum_congr rfl fun t _ => by rw [lidx_ctx, ridx_ctx, weight_at, values_eq, proj_at]

/-- The same laid back flat: column j is head j / 64, lane j % 64. -/
theorem ctx_flat (b : Fin 4) (s : Fin 2048) (j : Fin 1024) :
    val_main_v35 (F := Ideal) x wq bq wk bk wv bv (ix3 b s j)
      = attnFirst (linf x wq bq) (linf x wk bk) (linf x wv bv) (row b s) j := by
  rw [val_main_v35_apply, val_main_v34_apply, idx_flat, ctx_at, col_head_lane]

end Context

/-! ## The output projection, the residual and the normalisation -/

theorem Xf_row (x : A3) (b : Fin 4) (s : Fin 2048) (e : Fin 1024) : Xf x (row b s) e = x (ix3 b s e) := by
  show x (ix3 (bat (row b s)) (pos (row b s)) e) = _
  rw [bat_row, pos_row]

theorem idx_mean_in (b : Fin 4) (s : Fin 2048) (z : Fin 1) : idx_main_v42 (ix3 b s z) = ix2 b s := by
  funext a; match a with | ⟨0, _⟩ => rfl | ⟨1, _⟩ => rfl

theorem idx_mean_sum (b : Fin 4) (s : Fin 2048) (k : Fin 1024) : idx_main_v41 (ix2 b s) k = ix3 b s k := by
  funext a; match a with | ⟨0, _⟩ => rfl | ⟨1, _⟩ => rfl | ⟨2, _⟩ => rfl

theorem idx_var_in (b : Fin 4) (s : Fin 2048) (z : Fin 1) : idx_main_v49 (ix3 b s z) = ix2 b s := by
  funext a; match a with | ⟨0, _⟩ => rfl | ⟨1, _⟩ => rfl

theorem idx_var_sum (b : Fin 4) (s : Fin 2048) (k : Fin 1024) : idx_main_v48 (ix2 b s) k = ix3 b s k := by
  funext a; match a with | ⟨0, _⟩ => rfl | ⟨1, _⟩ => rfl | ⟨2, _⟩ => rfl

theorem idx_mean_back (b : Fin 4) (s : Fin 2048) (e : Fin 1024) :
    idx_main_v45 (ix3 b s e) = ix3 b s (⟨0, Nat.one_pos⟩ : Fin 1) := by
  funext a; match a with | ⟨0, _⟩ => rfl | ⟨1, _⟩ => rfl | ⟨2, _⟩ => rfl

theorem idx_mean_back' (b : Fin 4) (s : Fin 2048) (e : Fin 1024) :
    idx_main_v52 (ix3 b s e) = ix3 b s (⟨0, Nat.one_pos⟩ : Fin 1) := by
  funext a; match a with | ⟨0, _⟩ => rfl | ⟨1, _⟩ => rfl | ⟨2, _⟩ => rfl

theorem idx_scale_back (b : Fin 4) (s : Fin 2048) (e : Fin 1024) :
    idx_main_v57 (ix3 b s e) = ix3 b s (⟨0, Nat.one_pos⟩ : Fin 1) := by
  funext a; match a with | ⟨0, _⟩ => rfl | ⟨1, _⟩ => rfl | ⟨2, _⟩ => rfl

section Out

variable (x : A3) (wq : A2) (bq : A1) (wk : A2) (bk : A1) (wv : A2) (bv : A1) (wo : A2) (bo : A1)

/-- The context, and the rows the normalisation acts on: output projection, bias, residual. -/
abbrev ctxf : Fin 8192 → Fin 1024 → EReal := attnFirst (linf x wq bq) (linf x wk bk) (linf x wv bv)
abbrev yf : Fin 8192 → Fin 1024 → EReal := resid (ctxf x wq bq wk bk wv bv) (Wf wo) (Bf bo) (Xf x)

theorem out_eq : val_main_v36 (F := Ideal) x wq bq wk bk wv bv wo
    = val_main_v0 (F := Ideal) (val_main_v35 (F := Ideal) x wq bq wk bk wv bv) wo := rfl
theorem bias_o_eq (v : A1) : val_main_v38 (F := Ideal) v = val_main_v2 (F := Ideal) v := rfl
theorem gain_eq (v : A1) : val_main_v60 (F := Ideal) v = val_main_v2 (F := Ideal) v := rfl
theorem offs_eq (v : A1) : val_main_v63 (F := Ideal) v = val_main_v2 (F := Ideal) v := rfl

/-- Output projection, bias and residual at row (b, s). -/
theorem resid_at (b : Fin 4) (s : Fin 2048) (e : Fin 1024) :
    val_main_v40 (F := Ideal) x wq bq wk bk wv bv wo bo (ix3 b s e) = yf x wq bq wk bk wv bv wo bo (row b s) e := by
  rw [val_main_v40_apply, val_main_v39_apply, out_eq, dot_at, bias_o_eq, bias_at]
  unfold yf resid
  rw [Xf_row]
  simp only [Ideal.addf_def]
  refine congrArg (fun z => z + bo (ix1 e) + x (ix3 b s e)) ?_
  exact Finset.sum_congr rfl fun k _ => by rw [ctx_flat]

/-- A row's mean: the sum from zero, divided by 1024. -/
theorem mean_at (b : Fin 4) (s : Fin 2048) (z : Fin 1) :
    val_main_v44 (F := Ideal) x wq bq wk bk wv bv wo bo (ix3 b s z)
      = rowMean (yf x wq bq wk bk wv bv wo bo) (row b s) := by
  rw [val_main_v44_apply, val_main_v42_apply, idx_mean_in, val_main_v41_apply, val_main_cst_3_apply,
    val_main_v43_apply, val_main_cst_4_apply]
  simp only [Ideal.ofBits_def, Ideal.ofBits_zero_f32, zero_add, Ideal.hostDivf_def]
  unfold rowMean
  refine congrArg (fun z => Ideal.div z w1024) ?_
  exact Finset.sum_congr rfl fun k _ => by rw [idx_mean_sum, resid_at]

/-- An entry less its row's mean. -/
theorem centred_at (b : Fin 4) (s : Fin 2048) (e : Fin 1024) :
    val_main_v46 (F := Ideal) x wq bq wk bk wv bv wo bo (ix3 b s e)
      = yf x wq bq wk bk wv bv wo bo (row b s) e - rowMean (yf x wq bq wk bk wv bv wo bo) (row b s) := by
  rw [val_main_v46_apply, resid_at, val_main_v45_apply, idx_mean_back, mean_at]
  rfl

/-- A row's variance: the mean of the squared differences. -/
theorem var_at (b : Fin 4) (s : Fin 2048) (z : Fin 1) :
    val_main_v51 (F := Ideal) x wq bq wk bk wv bv wo bo (ix3 b s z)
      = rowVar (yf x wq bq wk bk wv bv wo bo) (row b s) := by
  rw [val_main_v51_apply, val_main_v49_apply, idx_var_in, val_main_v48_apply, val_main_cst_5_apply,
    val_main_v50_apply, val_main_cst_6_apply]
  simp only [Ideal.ofBits_def, Ideal.ofBits_zero_f32, zero_add, Ideal.hostDivf_def]
  unfold rowVar
  refine congrArg (fun z => Ideal.div z w1024) ?_
  exact Finset.sum_congr rfl fun k _ => by
    rw [idx_var_sum, val_main_v47_apply, centred_at]
    rfl

variable (g be : A1)

/-- The normalised row with gain and offset. -/
theorem final_at (b : Fin 4) (s : Fin 2048) (e : Fin 1024) :
    val_main_v64 (F := Ideal) x wq bq wk bk wv bv wo bo g be (ix3 b s e)
      = lnorm (yf x wq bq wk bk wv bv wo bo) (Bf g) (Bf be) (row b s) e := by
  rw [val_main_v64_apply, val_main_v61_apply, val_main_v58_apply, val_main_v53_apply, resid_at, val_main_v52_apply,
    idx_mean_back', mean_at, val_main_v57_apply, idx_scale_back, val_main_v56_apply, val_main_v55_apply, var_at,
    val_main_v54_apply, val_main_cst_7_apply, gain_eq, bias_at, offs_eq, bias_at]
  rfl

end Out

/-! ## The result -/

/-- The reference's result, entry (b, s, e), is the in-place arrangement at row (b, s), column e. -/
theorem ref_result_at (a0 : A3) (a1 : A2) (a2 : A1) (a3 : A2) (a4 : A1) (a5 : A2) (a6 : A1) (a7 : A2) (a8 a9 a10 : A1)
    (b : Fin 4) (s : Fin 2048) (e : Fin 1024) :
    val_main_v64 (F := Ideal) a0 a1 a2 a3 a4 a5 a6 a7 a8 a9 a10 (ix3 b s e)
      = inPlace (paramsOf a0 a1 a2 a3 a4 a5 a6 a7 a8 a9 a10) (row b s) e :=
  final_at a0 a1 a2 a3 a4 a5 a6 a7 a8 a9 a10 b s e

/-- The reference's result as a whole array. -/
theorem ref_result (a0 : A3) (a1 : A2) (a2 : A1) (a3 : A2) (a4 : A1) (a5 : A2) (a6 : A1) (a7 : A2) (a8 a9 a10 : A1) :
    val_main_v64 (F := Ideal) a0 a1 a2 a3 a4 a5 a6 a7 a8 a9 a10
      = unflat (fun i => inPlace (paramsOf a0 a1 a2 a3 a4 a5 a6 a7 a8 a9 a10) (c0 i) (c1 i)) := by
  funext i
  obtain ⟨b, s, e, rfl⟩ : ∃ (b : Fin 4) (s : Fin 2048) (e : Fin 1024), i = ix3 b s e := ⟨i 0, i 1, i 2, eq_ix3 i⟩
  exact ref_result_at a0 a1 a2 a3 a4 a5 a6 a7 a8 a9 a10 b s e

open Idealize.ShloMosaic.TcCoe Idealize.SL.Sem Idealize.ShloMosaic.StableHlo in
/-- The same for the composed term of the argument buffers that a run leaves in the result buffer. -/
theorem res_result (m : (ℓ : Loc nD τ sig) → Buf (Elt Ideal) ℓ) (c : Dev nD) :
    Cert.ReferenceIdeal.Value.res_main_v64 m c
      = unflat (fun i => inPlace (paramsOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10))) (c0 i) (c1 i)) :=
  (val_main_v64_eq m c).trans (ref_result _ _ _ _ _ _ _ _ _ _ _)

end Cert.ReferenceIdeal.RefValue

end
-- ==== Proof.Algebra.lean ====
/-
  The two arrangements of attention agree on finite parameters.

  With every parameter a real number every projection entry is a real number. Scaling the query weights and bias
  by 1/8 scales each query entry by 1/8 (a finite sum of reals distributes), so the inner products against the
  keys are the plain ones divided by 8, which is what dividing by the square root of 64 gives. From there both
  arrangements see the same row of real scores s. Its maximum is a real number, the shifted exponentials
  p t = exp (s t - max) are positive reals, their sum l is a positive real, and over the reals
  (∑ t, p t * v t) / l = ∑ t, (p t / l) * v t. The extended reals appear only at the surface: each stage is
  shown to be the coercion of its real counterpart.
-/
import proofs.«431405_j45913200394352_3_alg».proof.Proof.Spec
import Mathlib.Data.EReal.Basic
import Mathlib.Data.EReal.Operations
import Mathlib.Analysis.SpecialFunctions.Exp
import Mathlib.Analysis.SpecialFunctions.Pow.Real
import Mathlib.Algebra.BigOperators.Ring.Finset
import Mathlib.Algebra.BigOperators.Field
import Mathlib.Algebra.Order.BigOperators.Ring.Finset
import Mathlib.Tactic.Ring
import Mathlib.Tactic.FieldSimp
import Mathlib.Tactic.NormNum

noncomputable section

namespace Cert.Mha

open Idealize.ShloMosaic

/-! ## Coercions -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, over a nonempty index set and started from the bottom element, is a
    real. -/
theorem fold_max_real {ι : Type*} (S : Finset ι) (hS : S.Nonempty) (s : ι → ℝ) :
    ∃ m : ℝ, S.fold max ⊥ (fun t => (s t : EReal)) = m := by
  induction hS using Finset.Nonempty.cons_induction with
  | singleton a => exact ⟨s a, by simp⟩
  | cons a S ha hS ih =>
    obtain ⟨m, hm⟩ := ih
    exact ⟨max (s a) m, by rw [Finset.fold_cons, hm, EReal.coe_strictMono.monotone.map_max]⟩

/-! ## The two words -/

theorem wEighth_eq : wEighth = ((1 / 8 : ℝ) : EReal) := by
  simp [wEighth, Ideal.ofBits, Ideal.ieee, -EReal.coe_mul]; norm_num

theorem w64_eq : w64 = ((64 : ℝ) : EReal) := by
  simp [w64, Ideal.ofBits, Ideal.ieee, -EReal.coe_mul]; norm_num

/-- The square root of 64 is 8. -/
theorem sqrt_w64 : Ideal.sqrt w64 = ((8 : ℝ) : EReal) := by
  rw [w64_eq, Ideal.sqrt_coe, if_neg (by norm_num)]
  congr 1
  rw [show (64 : ℝ) = 8 ^ 2 by norm_num]
  exact Real.sqrt_sq (by norm_num)

/-! ## A row of real scores -/

/-- The maximum of a row of real scores is a real. -/
theorem smax_real (s : Fin 2048 → ℝ) : ∃ m : ℝ, smax (fun t => (s t : EReal)) = m :=
  fold_max_real Finset.univ ⟨0, Finset.mem_univ _⟩ s

/-- Each shifted exponential of a row of real scores is a positive real. -/
theorem pexp_real (s : Fin 2048 → ℝ) :
    ∃ p : Fin 2048 → ℝ, (∀ t, 0 < p t) ∧ ∀ t, pexp (fun t => (s t : EReal)) t = p t := by
  obtain ⟨m, hm⟩ := smax_real s
  refine ⟨fun t => Real.exp (s t - m), fun t => Real.exp_pos _, fun t => ?_⟩
  rw [pexp, hm, ← EReal.coe_sub, Ideal.exp_coe]

/-- Over a row of real scores and real values, dividing the weighted sum by the exponentials' sum is the same
    as weighting with each exponential already divided by it. -/
theorem softmax_last_eq_first (s v : Fin 2048 → ℝ) :
    Ideal.div (∑ t : Fin 2048, pexp (fun t => (s t : EReal)) t * (v t : EReal))
        (∑ t : Fin 2048, pexp (fun t => (s t : EReal)) t)
      = ∑ t : Fin 2048, Ideal.div (pexp (fun t => (s t : EReal)) t)
          (∑ t' : Fin 2048, pexp (fun t => (s t : EReal)) t') * (v t : EReal) := by
  obtain ⟨p, hpos, hp⟩ := pexp_real s
  have hl : 0 < ∑ t : Fin 2048, p t := Finset.sum_pos (fun t _ => hpos t) ⟨0, Finset.mem_univ _⟩
  have hsum : (∑ t : Fin 2048, pexp (fun t => (s t : EReal)) t) = ((∑ t : Fin 2048, p t : ℝ) : EReal) := by
    rw [coe_sum]; exact Finset.sum_congr rfl fun t _ => hp t
  rw [hsum, Ideal.div_coe hl.ne']
  have hL : (∑ t : Fin 2048, pexp (fun t => (s t : EReal)) t * (v t : EReal))
      = ((∑ t : Fin 2048, p t * v t : ℝ) : EReal) := by
    rw [coe_sum]; exact Finset.sum_congr rfl fun t _ => by rw [hp t, EReal.coe_mul]
  have hR : (∑ t : Fin 2048, Ideal.div (pexp (fun t => (s t : EReal)) t) ((∑ t : Fin 2048, p t : ℝ) : EReal)
        * (v t : EReal))
      = ((∑ t : Fin 2048, p t * (1 / ∑ t : Fin 2048, p t) * v t : ℝ) : EReal) := by
    refine (Finset.sum_congr rfl fun t _ => ?_).trans (coe_sum _ _).symm
    rw [Ideal.div_coe hl.ne', hp t, EReal.coe_mul, EReal.coe_mul]
  have hreal : (∑ t : Fin 2048, p t * v t) * (1 / ∑ t : Fin 2048, p t)
      = ∑ t : Fin 2048, p t * (1 / ∑ t : Fin 2048, p t) * v t := by
    rw [Finset.sum_mul]
    exact Finset.sum_congr rfl fun t _ => by ring
  rw [hL, hR, ← EReal.coe_mul, hreal]

/-! ## The projections -/

/-- A linear layer over the reals. -/
def linR (x : Fin 8192 → Fin 1024 → ℝ) (w : Fin 1024 → Fin 1024 → ℝ) (b : Fin 1024 → ℝ)
    (r : Fin 8192) (j : Fin 1024) : ℝ :=
  (∑ k : Fin 1024, x r k * w j k) + b j

/-- A linear layer whose input, weights and bias are real is the coercion of the real layer. -/
theorem lin_real {X : Fin 8192 → Fin 1024 → EReal} {W : Fin 1024 → Fin 1024 → EReal} {b : Fin 1024 → EReal}
    (x : Fin 8192 → Fin 1024 → ℝ) (w : Fin 1024 → Fin 1024 → ℝ) (c : Fin 1024 → ℝ)
    (hX : ∀ r k, X r k = x r k) (hW : ∀ j k, W j k = w j k) (hb : ∀ j, b j = c j) :
    lin X W b = fun r j => ((linR x w c r j : ℝ) : EReal) := by
  funext r j
  rw [lin, linR, EReal.coe_add, hb, coe_sum]
  congr 1
  exact Finset.sum_congr rfl fun k _ => by rw [hX, hW, EReal.coe_mul]

/-- Scaling the weights and the bias by a constant scales every entry by it. -/
theorem linR_scale (x : Fin 8192 → Fin 1024 → ℝ) (w : Fin 1024 → Fin 1024 → ℝ) (c : Fin 1024 → ℝ) (a : ℝ)
    (r : Fin 8192) (j : Fin 1024) :
    linR x (fun j k => w j k * a) (fun j => c j * a) r j = linR x w c r j * a := by
  rw [linR, linR, add_mul, Finset.sum_mul]
  congr 1
  exact Finset.sum_congr rfl fun k _ => by ring

/-! ## The scores -/

/-- The inner products of real queries and keys, over the reals. -/
def scoreR (q k : Fin 8192 → Fin 1024 → ℝ) (r : Fin 8192) (h : Fin 16) (t : Fin 2048) : ℝ :=
  ∑ d : Fin 64, q r (col h d) * k (row (bat r) t) (col h d)

theorem score_real (q k : Fin 8192 → Fin 1024 → ℝ) (r : Fin 8192) (h : Fin 16) :
    score (fun r j => (q r j : EReal)) (fun r j => (k r j : EReal)) r h
      = fun t => ((scoreR q k r h t : ℝ) : EReal) := by
  funext t
  rw [score, scoreR, coe_sum]
  exact Finset.sum_congr rfl fun d _ => by rw [EReal.coe_mul]

/-- Queries scaled by a constant give scores scaled by it. -/
theorem scoreR_scale (q k : Fin 8192 → Fin 1024 → ℝ) (a : ℝ) (r : Fin 8192) (h : Fin 16) (t : Fin 2048) :
    scoreR (fun r j => q r j * a) k r h t = scoreR q k r h t * a := by
  rw [scoreR, scoreR, Finset.sum_mul]
  exact Finset.sum_congr rfl fun d _ => by ring

/-- Dividing real scores by the square root of 64 multiplies them by 1/8. -/
theorem scoreDiv_real (q k : Fin 8192 → Fin 1024 → ℝ) (r : Fin 8192) (h : Fin 16) :
    scoreDiv (fun r j => (q r j : EReal)) (fun r j => (k r j : EReal)) r h
      = fun t => ((scoreR q k r h t * (1 / 8) : ℝ) : EReal) := by
  funext t
  rw [scoreDiv, score_real, sqrt_w64, Ideal.div_coe (by norm_num), EReal.coe_mul]

/-! ## Attention -/

/-- With real keys and values, attention normalised last over queries scaled by 1/8 is attention normalised
    in place over the plain queries with the scores divided by the square root of 64. -/
theorem attn_real (q k v : Fin 8192 → Fin 1024 → ℝ) (r : Fin 8192) (j : Fin 1024) :
    attnLast (fun r j => ((q r j * (1 / 8) : ℝ) : EReal)) (fun r j => (k r j : EReal))
        (fun r j => (v r j : EReal)) r j
      = attnFirst (fun r j => (q r j : EReal)) (fun r j => (k r j : EReal)) (fun r j => (v r j : EReal)) r j := by
  have hS : score (fun r j => ((q r j * (1 / 8) : ℝ) : EReal)) (fun r j => (k r j : EReal)) r (head j)
      = fun t => ((scoreR q k r (head j) t * (1 / 8) : ℝ) : EReal) := by
    rw [score_real (fun r j => q r j * (1 / 8)) k r (head j)]
    funext t
    rw [scoreR_scale]
  rw [attnLast, attnFirst, hS, scoreDiv_real]
  exact softmax_last_eq_first (fun t => scoreR q k r (head j) t * (1 / 8)) (fun t => v (row (bat r) t) j)

/-! ## The two arrangements -/

theorem scaledFirst_eq_inPlace (P : Params) (hP : P.Finite) : scaledFirst P = inPlace P := by
  choose x hx using hP.X
  choose wq hwq using hP.Wq
  choose wk hwk using hP.Wk
  choose wv hwv using hP.Wv
  choose cq hcq using hP.bq
  choose ck hck using hP.bk
  choose cv hcv using hP.bv
  have hQ := lin_real x wq cq hx hwq hcq
  have hK := lin_real x wk ck hx hwk hck
  have hV := lin_real x wv cv hx hwv hcv
  have hQs : lin P.X (fun j k => P.Wq j k * wEighth) (fun j => P.bq j * wEighth)
      = fun r j => ((linR x wq cq r j * (1 / 8) : ℝ) : EReal) := by
    rw [lin_real x (fun j k => wq j k * (1 / 8)) (fun j => cq j * (1 / 8)) hx
      (fun j k => by rw [hwq, wEighth_eq, EReal.coe_mul]) (fun j => by rw [hcq, wEighth_eq, EReal.coe_mul])]
    funext r j
    rw [linR_scale]
  have hA : attnLast (lin P.X (fun j k => P.Wq j k * wEighth) (fun j => P.bq j * wEighth)) (lin P.X P.Wk P.bk)
        (lin P.X P.Wv P.bv)
      = attnFirst (lin P.X P.Wq P.bq) (lin P.X P.Wk P.bk) (lin P.X P.Wv P.bv) := by
    rw [hQs, hQ, hK, hV]
    funext r j
    exact attn_real (linR x wq cq) (linR x wk ck) (linR x wv cv) r j
  funext r e
  rw [scaledFirst, inPlace, hA]

end Cert.Mha

end
-- ==== Proof.FinitePre.lean ====
/-
  Finiteness of the parameters from the printed precondition.

  The precondition is the conjunction, over the eleven argument arrays, of "every entry x has |x| below the word
  of +∞", each conjunct a reduction by `and` over all axes of the entrywise comparison. On the extended reals
  |x| = max x (-x) lies strictly below ⊤ exactly when x is neither ⊤ nor ⊥, that is, when x is a real number.
-/
import proofs.«431405_j45913200394352_3_alg».proof.Pre_finite_inputs
import proofs.«431405_j45913200394352_3_alg».proof.Proof.Args
import Idealize.ShloMosaic.Lib.ReduceAll

noncomputable section

namespace Cert.Mha

open Idealize.ShloMosaic Idealize.ShloMosaic.ValueIdx

/-- The word 0x7F800000 denotes ⊤. -/
theorem ofBits_inf : Ideal.ofBits .f32 0x7F800000#32 = (⊤ : EReal) := by
  simp [Ideal.ofBits, Ideal.ieee]

/-- A boolean's word is 1 exactly when the boolean holds. -/
theorem ofBool_one (b : Bool) : BitVec.ofBool b = 1#1 ↔ b = true := by cases b <;> decide

/-- An extended real whose absolute value max x (-x) compares strictly below the word of +∞ is a real number. -/
theorem real_of_abs_lt_inf (x : EReal)
    (h : Ideal.cmp .olt (max x (-x)) (Ideal.ofBits .f32 0x7F800000#32) = 1#1) : ∃ a : ℝ, x = a := by
  rw [ofBits_inf] at h
  have h' : BitVec.ofBool (decide (max x (-x) < ⊤)) = 1#1 := h
  have hlt : max x (-x) < ⊤ := of_decide_eq_true ((ofBool_one _).1 h')
  induction x using EReal.rec with
  | bot => simp at hlt
  | coe a => exact ⟨a, rfl⟩
  | top => simp at hlt

/-- The rank-0 shape has one index. -/
instance subsingleton_scalar_idx : Subsingleton (⟨0, ![]⟩ : Shape).Idx := ⟨fun a b => funext fun d => d.elim0⟩

/-- One conjunct of the precondition, at any shape: if the reduction by `and` over all axes of the comparison
    |x i| < +∞ is 1, every entry of x is a real number. -/
theorem real_of_all {s : Shape} {axes : List (Fin s.rank)} (x : s.Idx → EReal)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf (F := Ideal) (φ := .f32) .olt (Host.absf (F := Ideal) (φ := .f32) x)
            (broadcastInDim s ![] hb (constant (F := Ideal) (⟨0, ![]⟩ : Shape) .f32 0x7F800000#32)))
          (constantI (⟨0, ![]⟩ : Shape) 1 1#1) hr hu ix0 = 1#1)
    (i : s.Idx) : ∃ a : ℝ, x i = a :=
  real_of_abs_lt_inf (x i) (Host.reduce_andi_all _ _ hr hu ix0 e i)

/-- The precondition holding, every entry of every argument array is a real number: the specification's
    parameters are finite. -/
theorem finite_of_pre [Cert.Pre_finite_inputs.Facts] (a0 : Sx.Idx → EReal) (a1 : Sw.Idx → EReal) (a2 : Sb.Idx → EReal)
    (a3 : Sw.Idx → EReal) (a4 : Sb.Idx → EReal) (a5 : Sw.Idx → EReal) (a6 : Sb.Idx → EReal) (a7 : Sw.Idx → EReal)
    (a8 : Sb.Idx → EReal) (a9 : Sb.Idx → EReal) (a10 : Sb.Idx → EReal)
    (h : Cert.Pre_finite_inputs.fn (F := Ideal) a0 a1 a2 a3 a4 a5 a6 a7 a8 a9 a10 = fun _ => 1#1) :
    (paramsOf a0 a1 a2 a3 a4 a5 a6 a7 a8 a9 a10).Finite := by
  have h0 := congrFun h ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact
    { X := fun r k => real_of_all a0 _ _ _ e0 _
      Wq := fun j k => real_of_all a1 _ _ _ e1 _
      Wk := fun j k => real_of_all a3 _ _ _ e3 _
      Wv := fun j k => real_of_all a5 _ _ _ e5 _
      Wo := fun j k => real_of_all a7 _ _ _ e7 _
      bq := fun j => real_of_all a2 _ _ _ e2 _
      bk := fun j => real_of_all a4 _ _ _ e4 _
      bv := fun j => real_of_all a6 _ _ _ e6 _
      bo := fun j => real_of_all a8 _ _ _ e8 _
      gamma := fun j => real_of_all a9 _ _ _ e9 _
      beta := fun j => real_of_all a10 _ _ _ e10 _ }

end Cert.Mha

end
-- ==== Proof.lean ====
/-
  A Pallas kernel for multi-head self-attention with a residual connection and a layer normalisation — a fused
  query/key/value projection, attention over pairs of heads, and an output projection fused with the
  normalisation — against the plain formulation.

  The two programs differ in where two constants act. The kernel multiplies the query weights and bias by 1/8 once,
  takes plain inner products as scores, and divides the weighted sum of the values by the sum of the exponentials
  at the end; the reference divides every score by the square root of 64 and every exponential by their sum before
  weighting the values. Over the extended reals both are the same function of finite parameters: the square root
  of 64 is 8, a real factor moves across a finite sum of reals, and the exponentials' sum is a positive real, so
  dividing the weighted sum by it is weighting by the quotients. The precondition (every input entry finite)
  is what makes every intermediate entry a real number.

  Each program's frame (it terminates, faults nowhere, leaves its arguments as launched) is the run of its three
  kernel regions among the host operations; the idealized kernel's run also names its result array, which is
  read back region by region as the arrangement "scaled first, normalised last" of the argument arrays; the
  reference's run gives the arrangement "in place"; the two arrangements agree.
-/
import proofs.«431405_j45913200394352_3_alg».proof.Defs
import proofs.«431405_j45913200394352_3_alg».proof.Proof.Gen.Kernel
import proofs.«431405_j45913200394352_3_alg».proof.Proof.Gen.KernelIdeal
import proofs.«431405_j45913200394352_3_alg».proof.Proof.Gen.ReferenceIdeal
import proofs.«431405_j45913200394352_3_alg».proof.Proof.Gen.Pre_finite_inputs
import proofs.«431405_j45913200394352_3_alg».proof.Proof.Gen.ReferenceIdeal.Run
import proofs.«431405_j45913200394352_3_alg».proof.Proof.K.Run
import proofs.«431405_j45913200394352_3_alg».proof.Proof.KI.Run
import proofs.«431405_j45913200394352_3_alg».proof.Proof.KI.KernelValue
import proofs.«431405_j45913200394352_3_alg».proof.Proof.RefValue
import proofs.«431405_j45913200394352_3_alg».proof.Proof.Algebra
import proofs.«431405_j45913200394352_3_alg».proof.Proof.FinitePre

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the same result: the kernel's is the
    arrangement "scaled first, normalised last" of the arguments, the reference's the arrangement "in place", and
    with every parameter finite the two are one function. -/
theorem algebraic : Cert.algebraic_KernelIdeal_ReferenceIdeal := by
  intro m ρ m' ρ' hpre hagree
  refine ⟨fun c => Cert.KernelIdeal.Gen.V6 m (Cert.KernelIdeal.Hand.outs m) c Cert.KernelIdeal.main_v18,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  have hfin := Cert.Mha.finite_of_pre _ _ _ _ _ _ _ _ _ _ _ (hpre c)
  rw [Cert.ReferenceIdeal.RefValue.res_result m' c, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  refine Eq.trans ?_ (Cert.KernelIdeal.Hand.result_eq m c).symm
  exact congrArg Cert.Mha.unflat (funext fun i =>
    (congrFun (congrFun (Cert.Mha.scaledFirst_eq_inPlace _ hfin) (Cert.Mha.c0 i)) (Cert.Mha.c1 i)).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
